-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S4x24x128 : Shape := ⟨3, ![4, 24, 128]⟩
abbrev S128x2048 : Shape := ⟨2, ![128, 2048]⟩
abbrev S2048x128 : Shape := ⟨2, ![2048, 128]⟩
abbrev S1x2048 : Shape := ⟨2, ![1, 2048]⟩
abbrev S1 : Shape := ⟨1, ![1]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S4x24x128 : S_.BroadcastsInDim S4x24x128 (![] : Fin 0 → Fin S4x24x128.rank)
  reducesTo_S4x24x128_S_d0_1_2 : S4x24x128.ReducesTo [0, 1, 2] S_
  bcast_S_S128x2048 : S_.BroadcastsInDim S128x2048 (![] : Fin 0 → Fin S128x2048.rank)
  reducesTo_S128x2048_S_d0_1 : S128x2048.ReducesTo [0, 1] S_
  bcast_S_S2048x128 : S_.BroadcastsInDim S2048x128 (![] : Fin 0 → Fin S2048x128.rank)
  reducesTo_S2048x128_S_d0_1 : S2048x128.ReducesTo [0, 1] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S2048x128 .f32) (main_arg5 : FVec F S1x2048 .f32) (main_arg6 : FVec F S1 .f32) (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  let main_v19 : FVec F S2048x128 .f32 := Host.absf main_arg4
  let main_cst_6 : FVec F S_ .f32 := constant S_ .f32 0x7F800000#32
  let main_v20 : FVec F S2048x128 .f32 := broadcastInDim S2048x128 ![] bcast_S_S2048x128 main_cst_6
  let main_v21 : IVec S2048x128 1 := cmpf .olt main_v19 main_v20
  let main_c_7 : IVec S_ 1 := constantI S_ 1 1#1
  let main_v22 : IVec S_ 1 := (fun x v => Host.reduce IntOp.andi x v reducesTo_S2048x128_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4x8192x2048 .f32) (main_arg1 : FVec F S4x24x128 .f32) (main_arg2 : FVec F S128x2048 .f32) (main_arg3 : FVec F S128x2048 .f32) (main_arg4 : FVec F S2048x128 .f32) (main_arg5 : FVec F S1x2048 .f32) (main_arg6 : FVec F S1 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S4x24x128 .f32 := Host.absf main_arg1
  let main_cst_0 : FVec F S_ .f32 := constant S_ .f32 0x7F800000#32
  let main_v5 : FVec F S4x24x128 .f32 := broadcastInDim S4x24x128 ![] bcast_S_S4x24x128 main_cst_0
  let main_v6 : IVec S4x24x128 1 := cmpf .olt main_v4 main_v5
  let main_c_1 : IVec S_ 1 := constantI S_ 1 1#1
  let main_v7 : IVec S_ 1 := (fun x v => Host.reduce IntOp.andi x v reducesTo_S4x24x128_S_d0_1_2 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S128x2048 .f32 := Host.absf main_arg3
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_arg4 main_arg5 main_arg6 main_v13 main_v16
-- ==== Kernel.lean ====
abbrev S4x8192x2048 : Shape := ⟨3, ![4, 8192, 2048]⟩
abbrev S4x24x128 : Shape := ⟨3, ![4, 24, 128]⟩
abbrev S128x2048 : Shape := ⟨2, ![128, 2048]⟩
abbrev S2048x128 : Shape := ⟨2, ![2048, 128]⟩
abbrev S1x2048 : Shape := ⟨2, ![1, 2048]⟩
abbrev S1 : Shape := ⟨1, ![1]⟩
abbrev S4x1x2048 : Shape := ⟨3, ![4, 1, 2048]⟩
abbrev S1x1024x2048 : Shape := ⟨3, ![1, 1024, 2048]⟩
abbrev S1x1x2048 : Shape := ⟨3, ![1, 1, 2048]⟩
abbrev S1x1 : Shape := ⟨2, ![1, 1]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S4x2048 : Shape := ⟨2, ![4, 2048]⟩
abbrev S4x128 : Shape := ⟨2, ![4, 128]⟩
abbrev S_ : Shape := ⟨0, ![]⟩
abbrev S4 : Shape := ⟨1, ![4]⟩
abbrev S4x1 : Shape := ⟨2, ![4, 1]⟩
abbrev S4x1x128 : Shape := ⟨3, ![4, 1, 128]⟩
abbrev S4x25x128 : Shape := ⟨3, ![4, 25, 128]⟩
abbrev S1x512x2048 : Shape := ⟨3, ![1, 512, 2048]⟩
abbrev S1x25x128 : Shape := ⟨3, ![1, 25, 128]⟩
abbrev S512x2048 : Shape := ⟨2, ![512, 2048]⟩
abbrev S25x128 : Shape := ⟨2, ![25, 128]⟩
abbrev S512x128 : Shape := ⟨2, ![512, 128]⟩
abbrev S128x25 : Shape := ⟨2, ![128, 25]⟩
abbrev S512x25 : Shape := ⟨2, ![512, 25]⟩
abbrev S512 : Shape := ⟨1, ![512]⟩
abbrev S512x1 : Shape := ⟨2, ![512, 1]⟩

abbrev nBuf : Space → Nat
  | .hbm => 37
  | .vmem => 15
  | .smem => 0
  | _ => 0

abbrev bufTy : (tb : Table) → Fin (tcTables nBuf tb) → BufTy
  | .hbm, ⟨0, _⟩ => ⟨S4x8192x2048, .f32⟩
  | .hbm, ⟨1, _⟩ => ⟨S4x24x128, .f32⟩
  | .hbm, ⟨2, _⟩ => ⟨S128x2048, .f32⟩
  | .hbm, ⟨3, _⟩ => ⟨S128x2048, .f32⟩
  | .hbm, ⟨4, _⟩ => ⟨S2048x128, .f32⟩
  | .hbm, ⟨5, _⟩ => ⟨S1x2048, .f32⟩
  | .hbm, ⟨6, _⟩ => ⟨S1, .f32⟩
  | .hbm, ⟨7, _⟩ => ⟨S4x1x2048, .f32⟩
  | .hbm, ⟨8, _⟩ => ⟨S4x2048, .f32⟩
  | .hbm, ⟨9, _⟩ => ⟨S2048x128, .f32⟩
  | .hbm, ⟨10, _⟩ => ⟨S4x128, .f32⟩
  | .hbm, ⟨11, _⟩ => ⟨S4x128, .f32⟩
  | .hbm, ⟨12, _⟩ => ⟨S_, .f32⟩
  | .hbm, ⟨13, _⟩ => ⟨S4, .f32⟩
  | .hbm, ⟨14, _⟩ => ⟨S4x1, .f32⟩
  | .hbm, ⟨15, _⟩ => ⟨S4x1, .f32⟩
  | .hbm, ⟨16, _⟩ => ⟨S_, .f32⟩
  | .hbm, ⟨17, _⟩ => ⟨S4x1, .f32⟩
  | .hbm, ⟨18, _⟩ => ⟨S4x1, .f32⟩
  | .hbm, ⟨19, _⟩ => ⟨S4x128, .f32⟩
  | .hbm, ⟨20, _⟩ => ⟨S4x128, .f32⟩
  | .hbm, ⟨21, _⟩ => ⟨S4x1x128, .f32⟩
  | .hbm, ⟨22, _⟩ => ⟨S4x25x128, .f32⟩
  | .hbm, ⟨23, _⟩ => ⟨S1, .f32⟩
  | .hbm, ⟨24, _⟩ => ⟨S1, .f32⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S_, .f32⟩
  | .hbm, ⟨32, _⟩ => ⟨S2048x128, .f32⟩
  | .hbm, ⟨33, _⟩ => ⟨S2048x128, .f32⟩
  | .hbm, ⟨34, _⟩ => ⟨S4x8192x2048, .f32⟩
  | .hbm, ⟨35, _⟩ => ⟨S4x1x128, .f32⟩
  | .hbm, ⟨36, _⟩ => ⟨S4x25x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x2048, .f32⟩
  | .local _ .vmem, ⟨6, _⟩ => ⟨S1x1, .f32⟩
  | .local _ .vmem, ⟨7, _⟩ => ⟨S1x512x2048, .f32⟩
  | .local _ .vmem, ⟨8, _⟩ => ⟨S1x512x2048, .f32⟩
  | .local _ .vmem, ⟨9, _⟩ => ⟨S128x2048, .f32⟩
  | .local _ .vmem, ⟨10, _⟩ => ⟨S1x25x128, .f32⟩
  | .local _ .vmem, ⟨11, _⟩ => ⟨S1x25x128, .f32⟩
  | .local _ .vmem, ⟨12, _⟩ => ⟨S2048x128, .f32⟩
  | .local _ .vmem, ⟨13, _⟩ => ⟨S1x512x2048, .f32⟩
  | .local _ .vmem, ⟨14, _⟩ => ⟨S1x512x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_15 : BitVec 32 := 0#32
  let v29 : BitVec 1 := Scalar.cmpi .ne v28 c0_i32_15
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x25x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S2048x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  broadcasts_S1x2048_S1024x2048 : S1x2048.Broadcasts S1024x2048
  reduces_S1024x2048_S1024 : S1024x2048.Reduces [1] S1024
  shapeCasts_S1024_S1024x1 : S1024.ShapeCasts S1024x1
  broadcasts_S1024x1_S1024x2048 : S1024x1.Broadcasts S1024x2048
  reduces_S1024x2048_S2048 : S1024x2048.Reduces [0] S2048
  shapeCasts_S2048_S1x2048 : S2048.ShapeCasts S1x2048
  reduces_S1024x1_S1 : S1024x1.Reduces [0] S1
  shapeCasts_S1_S1x1 : S1.ShapeCasts S1x1
  broadcasts_S1x1_S1x2048 : S1x1.Broadcasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S4x1x2048_S4x2048 : S4x1x2048.ShapeCasts S4x2048
  transposes_S128x2048_S2048x128_1_0 : S128x2048.Transposes [1, 0] S2048x128
  reducesTo_S4x128_S4_d1 : S4x128.ReducesTo [1] S4
  h_S_ : 0 < S_.numel
  bcast_S4_S4x1_0 : S4.BroadcastsInDim S4x1 (![0] : Fin 1 → Fin S4x1.rank)
  bcast_S_S4x1 : S_.BroadcastsInDim S4x1 (![] : Fin 0 → Fin S4x1.rank)
  bcast_S4x1_S4x128_0_1 : S4x1.BroadcastsInDim S4x128 (![0, 1] : Fin 2 → Fin S4x128.rank)
  bcast_S4x128_S4x1x128_0_2 : S4x128.BroadcastsInDim S4x1x128 (![0, 2] : Fin 2 → Fin S4x1x128.rank)
  concatenates_S4x1x128_S4x24x128_S4x25x128_d1 : Shape.Concatenates [S4x1x128, S4x24x128] S4x25x128 1
  bcast_S_S1 : S_.BroadcastsInDim S1 (![] : Fin 0 → Fin S1.rank)
  shapeCasts_S1_S_ : S1.ShapeCasts S_
  bcast_S_S2048x128 : S_.BroadcastsInDim S2048x128 (![] : Fin 0 → Fin S2048x128.rank)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S128x2048_S128x2048_0_0 : ∀ a, (![0, 0] : Fin 2 → Nat) a + S128x2048.size a ≤ S128x2048.size a
  h_S128x2048 : 0 < S128x2048.numel
  inb_S1x25x128_S1x25x128_0_0_0 : ∀ a, (![0, 0, 0] : Fin 3 → Nat) a + S1x25x128.size a ≤ S1x25x128.size a
  h_S1x25x128 : 0 < S1x25x128.numel
  shapeCasts_S1x25x128_S25x128 : S1x25x128.ShapeCasts S25x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  transposes_S128x2048_p1_0_S2048x128 : S128x2048.Transposes [1, 0] S2048x128
  transposes_S25x128_p1_0_S128x25 : S25x128.Transposes [1, 0] S128x25
  reduces_S512x25_S512 : S512x25.Reduces [1] S512
  shapeCasts_S512_S512x1 : S512.ShapeCasts S512x1
  broadcasts_S512x1_S512x25 : S512x1.Broadcasts S512x25
  transposes_S2048x128_p1_0_S128x2048 : S2048x128.Transposes [1, 0] S128x2048
  shapeCasts_S512x2048_S1x512x2048 : S512x2048.ShapeCasts S1x512x2048
  concatenates_S4x24x128_S4x1x128_S4x25x128_d1 : Shape.Concatenates [S4x24x128, S4x1x128] S4x25x128 1
  dot_S4x2048_S2048x128_S4x128_1_0_0_1_n_n_wf : DotDims.WF S4x2048 S2048x128 S4x128 [1] [0] [0] [1] [] []
  dot_S512x2048_S2048x128_S512x128_1_0_0_1_n_n_wf : DotDims.WF S512x2048 S2048x128 S512x128 [1] [0] [0] [1] [] []
  dot_S512x128_S128x25_S512x25_1_0_0_1_n_n_wf : DotDims.WF S512x128 S128x25 S512x25 [1] [0] [0] [1] [] []
  dot_S512x25_S25x128_S512x128_1_0_0_1_n_n_wf : DotDims.WF S512x25 S25x128 S512x128 [1] [0] [0] [1] [] []
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S4x8192x2048.size a
  hwx0_0 : ∀ i : grid0.Coords, EltTy.bits .f32 = 32 ∨ (Rect.block (s := S4x8192x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S4x1x2048.size a
  hwx0_2 : ∀ i : grid0.Coords, EltTy.bits .f32 = 32 ∨ (Rect.block (s := S4x1x2048) S1x1x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x2048.size a ≤ S4x8192x2048.size a
  hwx1_0 : ∀ i : grid1.Coords, EltTy.bits .f32 = 32 ∨ (Rect.block (s := S4x8192x2048) S1x512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S128x2048.size a
  hwx1_1 : ∀ i : grid1.Coords, EltTy.bits .f32 = 32 ∨ (Rect.block (s := S128x2048) S128x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x25x128.size a ≤ S4x25x128.size a
  hwx1_2 : ∀ i : grid1.Coords, EltTy.bits .f32 = 32 ∨ (Rect.block (s := S4x25x128) S1x25x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S2048x128.size a
  hwx1_3 : ∀ i : grid1.Coords, EltTy.bits .f32 = 32 ∨ (Rect.block (s := S2048x128) S2048x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x2048.size a ≤ S4x8192x2048.size a
  hwx1_4 : ∀ i : grid1.Coords, EltTy.bits .f32 = 32 ∨ (Rect.block (s := S4x8192x2048) S1x512x2048.size (cc1_transform_4 i) (hinb1_4 i)).WholeWords (EltTy.packing .f32)

variable [Facts₀]

def dot_S4x2048_S2048x128_S4x128_1_0_0_1_n_n : DotDims S4x2048 S2048x128 S4x128 where
  lhsContracting := [1]
  rhsContracting := [0]
  lhsNonContracting := [0]
  rhsNonContracting := [1]
  lhsBatch := []
  rhsBatch := []
  wf := dot_S4x2048_S2048x128_S4x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x25_S512x25_1_0_0_1_n_n : DotDims S512x128 S128x25 S512x25 where
  lhsContracting := [1]
  rhsContracting := [0]
  lhsNonContracting := [0]
  rhsNonContracting := [1]
  lhsBatch := []
  rhsBatch := []
  wf := dot_S512x128_S128x25_S512x25_1_0_0_1_n_n_wf
def dot_S512x25_S25x128_S512x128_1_0_0_1_n_n : DotDims S512x25 S25x128 S512x128 where
  lhsContracting := [1]
  rhsContracting := [0]
  lhsNonContracting := [0]
  rhsNonContracting := [1]
  lhsBatch := []
  rhsBatch := []
  wf := dot_S512x25_S25x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x25x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S2048x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x8192x2048 : Shape := ⟨3, ![4, 8192, 2048]⟩
abbrev S4x24x128 : Shape := ⟨3, ![4, 24, 128]⟩
abbrev S128x2048 : Shape := ⟨2, ![128, 2048]⟩
abbrev S2048x128 : Shape := ⟨2, ![2048, 128]⟩
abbrev S1x2048 : Shape := ⟨2, ![1, 2048]⟩
abbrev S1 : Shape := ⟨1, ![1]⟩
abbrev S4x8192x1 : Shape := ⟨3, ![4, 8192, 1]⟩
abbrev S_ : Shape := ⟨0, ![]⟩
abbrev S4x2048 : Shape := ⟨2, ![4, 2048]⟩
abbrev S4x1 : Shape := ⟨2, ![4, 1]⟩
abbrev S4x128 : Shape := ⟨2, ![4, 128]⟩
abbrev S4 : Shape := ⟨1, ![4]⟩
abbrev S4x8192x128 : Shape := ⟨3, ![4, 8192, 128]⟩
abbrev S4x1x128 : Shape := ⟨3, ![4, 1, 128]⟩
abbrev S4x25x128 : Shape := ⟨3, ![4, 25, 128]⟩
abbrev S4x8192x25 : Shape := ⟨3, ![4, 8192, 25]⟩
abbrev S4x8192 : Shape := ⟨2, ![4, 8192]⟩
abbrev S1x1x1 : Shape := ⟨3, ![1, 1, 1]⟩

abbrev nBuf : Space → Nat
  | .hbm => 76
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x24x128, .f32⟩
  | .hbm, ⟨2, _⟩ => ⟨S128x2048, .f32⟩
  | .hbm, ⟨3, _⟩ => ⟨S128x2048, .f32⟩
  | .hbm, ⟨4, _⟩ => ⟨S2048x128, .f32⟩
  | .hbm, ⟨5, _⟩ => ⟨S1x2048, .f32⟩
  | .hbm, ⟨6, _⟩ => ⟨S1, .f32⟩
  | .hbm, ⟨7, _⟩ => ⟨S4x8192x1, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x2048, .f32⟩
  | .hbm, ⟨17, _⟩ => ⟨S4x8192x2048, .f32⟩
  | .hbm, ⟨18, _⟩ => ⟨S_, .f32⟩
  | .hbm, ⟨19, _⟩ => ⟨S4x2048, .f32⟩
  | .hbm, ⟨20, _⟩ => ⟨S_, .f32⟩
  | .hbm, ⟨21, _⟩ => ⟨S4x1, .f32⟩
  | .hbm, ⟨22, _⟩ => ⟨S_, .f32⟩
  | .hbm, ⟨23, _⟩ => ⟨S4x1, .f32⟩
  | .hbm, ⟨24, _⟩ => ⟨S4x1, .f32⟩
  | .hbm, ⟨25, _⟩ => ⟨S4x2048, .f32⟩
  | .hbm, ⟨26, _⟩ => ⟨S4x2048, .f32⟩
  | .hbm, ⟨27, _⟩ => ⟨S2048x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4, .f32⟩
  | .hbm, ⟨32, _⟩ => ⟨S4x1, .f32⟩
  | .hbm, ⟨33, _⟩ => ⟨S4x1, .f32⟩
  | .hbm, ⟨34, _⟩ => ⟨S_, .f32⟩
  | .hbm, ⟨35, _⟩ => ⟨S4x1, .f32⟩
  | .hbm, ⟨36, _⟩ => ⟨S4x1, .f32⟩
  | .hbm, ⟨37, _⟩ => ⟨S4x128, .f32⟩
  | .hbm, ⟨38, _⟩ => ⟨S4x128, .f32⟩
  | .hbm, ⟨39, _⟩ => ⟨S4x8192x128, .f32⟩
  | .hbm, ⟨40, _⟩ => ⟨S4x1x128, .f32⟩
  | .hbm, ⟨41, _⟩ => ⟨S4x25x128, .f32⟩
  | .hbm, ⟨42, _⟩ => ⟨S4x8192x25, .f32⟩
  | .hbm, ⟨43, _⟩ => ⟨S_, .f32⟩
  | .hbm, ⟨44, _⟩ => ⟨S4x8192x25, .f32⟩
  | .hbm, ⟨45, _⟩ => ⟨S4x8192x25, .f32⟩
  | .hbm, ⟨46, _⟩ => ⟨S_, .f32⟩
  | .hbm, ⟨47, _⟩ => ⟨S4x8192, .f32⟩
  | .hbm, ⟨48, _⟩ => ⟨S_, .f32⟩
  | .hbm, ⟨49, _⟩ => ⟨S4x8192, .f32⟩
  | .hbm, ⟨50, _⟩ => ⟨S4x8192, .f32⟩
  | .hbm, ⟨51, _⟩ => ⟨S4x8192x1, .f32⟩
  | .hbm, ⟨52, _⟩ => ⟨S4x8192x25, .f32⟩
  | .hbm, ⟨53, _⟩ => ⟨S4x8192x25, .f32⟩
  | .hbm, ⟨54, _⟩ => ⟨S4x8192x25, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S4x8192x25, .f32⟩
  | .hbm, ⟨59, _⟩ => ⟨S4x8192x25, .f32⟩
  | .hbm, ⟨60, _⟩ => ⟨S4x8192x128, .f32⟩
  | .hbm, ⟨61, _⟩ => ⟨S4x8192x2048, .f32⟩
  | .hbm, ⟨62, _⟩ => ⟨S1, .f32⟩
  | .hbm, ⟨63, _⟩ => ⟨S1, .f32⟩
  | .hbm, ⟨64, _⟩ => ⟨S_, .f32⟩
  | .hbm, ⟨65, _⟩ => ⟨S1, .f32⟩
  | .hbm, ⟨66, _⟩ => ⟨S1, .f32⟩
  | .hbm, ⟨67, _⟩ => ⟨S_, .f32⟩
  | .hbm, ⟨68, _⟩ => ⟨S1, .f32⟩
  | .hbm, ⟨69, _⟩ => ⟨S1, .f32⟩
  | .hbm, ⟨70, _⟩ => ⟨S1x1x1, .f32⟩
  | .hbm, ⟨71, _⟩ => ⟨S4x8192x2048, .f32⟩
  | .hbm, ⟨72, _⟩ => ⟨S4x8192x2048, .f32⟩
  | .hbm, ⟨73, _⟩ => ⟨S4x8192x2048, .f32⟩
  | .hbm, ⟨74, _⟩ => ⟨S4x1x128, .f32⟩
  | .hbm, ⟨75, _⟩ => ⟨S4x25x128, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  bcast_S_S4x8192x1 : S_.BroadcastsInDim S4x8192x1 (![] : Fin 0 → Fin S4x8192x1.rank)
  bcast_S4x8192x1_S4x8192x2048_0_1_2 : S4x8192x1.BroadcastsInDim S4x8192x2048 (![0, 1, 2] : Fin 3 → Fin S4x8192x2048.rank)
  reducesTo_S4x8192x2048_S4x2048_d1 : S4x8192x2048.ReducesTo [1] S4x2048
  h_S_ : 0 < S_.numel
  reducesTo_S4x8192x1_S4x1_d1 : S4x8192x1.ReducesTo [1] S4x1
  bcast_S_S4x1 : S_.BroadcastsInDim S4x1 (![] : Fin 0 → Fin S4x1.rank)
  bcast_S4x1_S4x2048_0_1 : S4x1.BroadcastsInDim S4x2048 (![0, 1] : Fin 2 → Fin S4x2048.rank)
  transposes_S128x2048_S2048x128_1_0 : S128x2048.Transposes [1, 0] S2048x128
  reducesTo_S4x128_S4_d1 : S4x128.ReducesTo [1] S4
  bcast_S4_S4x1_0 : S4.BroadcastsInDim S4x1 (![0] : Fin 1 → Fin S4x1.rank)
  bcast_S4x1_S4x128_0_1 : S4x1.BroadcastsInDim S4x128 (![0, 1] : Fin 2 → Fin S4x128.rank)
  bcast_S4x128_S4x1x128_0_2 : S4x128.BroadcastsInDim S4x1x128 (![0, 2] : Fin 2 → Fin S4x1x128.rank)
  concatenates_S4x1x128_S4x24x128_S4x25x128_d1 : Shape.Concatenates [S4x1x128, S4x24x128] S4x25x128 1
  bcast_S_S4x8192x25 : S_.BroadcastsInDim S4x8192x25 (![] : Fin 0 → Fin S4x8192x25.rank)
  reducesTo_S4x8192x25_S4x8192_d2 : S4x8192x25.ReducesTo [2] S4x8192
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S4x8192x1_S4x8192x25_0_1_2 : S4x8192x1.BroadcastsInDim S4x8192x25 (![0, 1, 2] : Fin 3 → Fin S4x8192x25.rank)
  bcast_S_S1 : S_.BroadcastsInDim S1 (![] : Fin 0 → Fin S1.rank)
  bcast_S1_S1x1x1_2 : S1.BroadcastsInDim S1x1x1 (![2] : Fin 1 → Fin S1x1x1.rank)
  bcast_S1x1x1_S4x8192x2048_0_1_2 : S1x1x1.BroadcastsInDim S4x8192x2048 (![0, 1, 2] : Fin 3 → Fin S4x8192x2048.rank)
  concatenates_S4x24x128_S4x1x128_S4x25x128_d1 : Shape.Concatenates [S4x24x128, S4x1x128] S4x25x128 1
  dot_S4x8192x2048_S1x2048_S4x8192x1_2_1_01_0_n_n_wf : DotDims.WF S4x8192x2048 S1x2048 S4x8192x1 [2] [1] [0, 1] [0] [] []
  dot_S4x2048_S2048x128_S4x128_1_0_0_1_n_n_wf : DotDims.WF S4x2048 S2048x128 S4x128 [1] [0] [0] [1] [] []
  dot_S4x8192x2048_S128x2048_S4x8192x128_2_1_01_0_n_n_wf : DotDims.WF S4x8192x2048 S128x2048 S4x8192x128 [2] [1] [0, 1] [0] [] []
  dot_S4x8192x128_S4x25x128_S4x8192x25_2_2_1_1_0_0_wf : DotDims.WF S4x8192x128 S4x25x128 S4x8192x25 [2] [2] [1] [1] [0] [0]
  dot_S4x8192x25_S4x25x128_S4x8192x128_2_1_1_2_0_0_wf : DotDims.WF S4x8192x25 S4x25x128 S4x8192x128 [2] [1] [1] [2] [0] [0]
  dot_S4x8192x128_S2048x128_S4x8192x2048_2_1_01_0_n_n_wf : DotDims.WF S4x8192x128 S2048x128 S4x8192x2048 [2] [1] [0, 1] [0] [] []

variable [Facts₀]

def dot_S4x8192x2048_S1x2048_S4x8192x1_2_1_01_0_n_n : DotDims S4x8192x2048 S1x2048 S4x8192x1 where
  lhsContracting := [2]
  rhsContracting := [1]
  lhsNonContracting := [0, 1]
  rhsNonContracting := [0]
  lhsBatch := []
  rhsBatch := []
  wf := dot_S4x8192x2048_S1x2048_S4x8192x1_2_1_01_0_n_n_wf
def dot_S4x2048_S2048x128_S4x128_1_0_0_1_n_n : DotDims S4x2048 S2048x128 S4x128 where
  lhsContracting := [1]
  rhsContracting := [0]
  lhsNonContracting := [0]
  rhsNonContracting := [1]
  lhsBatch := []
  rhsBatch := []
  wf := dot_S4x2048_S2048x128_S4x128_1_0_0_1_n_n_wf
def dot_S4x8192x2048_S128x2048_S4x8192x128_2_1_01_0_n_n : DotDims S4x8192x2048 S128x2048 S4x8192x128 where
  lhsContracting := [2]
  rhsContracting := [1]
  lhsNonContracting := [0, 1]
  rhsNonContracting := [0]
  lhsBatch := []
  rhsBatch := []
  wf := dot_S4x8192x2048_S128x2048_S4x8192x128_2_1_01_0_n_n_wf
def dot_S4x8192x128_S4x25x128_S4x8192x25_2_2_1_1_0_0 : DotDims S4x8192x128 S4x25x128 S4x8192x25 where
  lhsContracting := [2]
  rhsContracting := [2]
  lhsNonContracting := [1]
  rhsNonContracting := [1]
  lhsBatch := [0]
  rhsBatch := [0]
  wf := dot_S4x8192x128_S4x25x128_S4x8192x25_2_2_1_1_0_0_wf
def dot_S4x8192x25_S4x25x128_S4x8192x128_2_1_1_2_0_0 : DotDims S4x8192x25 S4x25x128 S4x8192x128 where
  lhsContracting := [2]
  rhsContracting := [1]
  lhsNonContracting := [1]
  rhsNonContracting := [2]
  lhsBatch := [0]
  rhsBatch := [0]
  wf := dot_S4x8192x25_S4x25x128_S4x8192x128_2_1_1_2_0_0_wf
def dot_S4x8192x128_S2048x128_S4x8192x2048_2_1_01_0_n_n : DotDims S4x8192x128 S2048x128 S4x8192x2048 where
  lhsContracting := [2]
  rhsContracting := [1]
  lhsNonContracting := [0, 1]
  rhsNonContracting := [0]
  lhsBatch := []
  rhsBatch := []
  wf := dot_S4x8192x128_S2048x128_S4x8192x2048_2_1_01_0_n_n_wf

class Facts : Prop extends Facts₀ where

variable [Facts]
-- ==== Proof.K.PoolRuns.lean ====
import proofs.«111059_j9234179686589_1_alg».proof.Proof.Gen.Kernel.Launch
import proofs.«111059_j9234179686589_1_alg».proof.Proof.Gen.Kernel.Skeleton
import proofs.«111059_j9234179686589_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # The pooling region: what its three cases are stated over

The grid is 4 batches by 8 row tiles, 32 points in row-major order: point `t` works on tile `t % 8` of batch
`t / 8`. At a point the body reads the tile `x` (1024 rows of 2048 entries) and the weight row `w` (2048 entries),
forms for each row `r` the gate `g r = logistic (Σ j, x r j * w j)`, and updates two accumulators it keeps from point
to point: `acc_xg j` grows by `Σ r, x r j * g r` and `acc_g` grows by `Σ r, g r`.
There are three cases. At the first tile of a batch (`t % 8 = 0`) both accumulators are reset to zero and then
grow by the tile's sums. At a middle tile they grow by the tile's sums over what the point before left. At the last
tile (`t % 8 = 7`) they grow likewise, and then `acc_xg j / (acc_g + ε)` is stored into the batch's output row; at
every other point the output row is left as it was and is not written back.

Here: each window's block at a point, read off the arrays as the region finds them; the two conditions in closed
form over the grid; where the output window is idle; the memrefs the body is handed; and the region's invariant
with the two accumulators named apart from the other buffers it carries. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Pool

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Pool

/-! ## The body's branch conditions -/

/-- The condition of the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional, from the grid coordinates. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- At the points of case A output 2 is idle: the case stores nothing into it. -/
theorem idleAt0_2_A : ∀ t : Fin cfg0.N, cond0_0 (grid0.coords t) → ¬cond0_1 (grid0.coords t) → cfg0.idle 2 (grid0.coords t) = true := by decide +kernel
/-- At the points of case A output 2's block is not written back. -/
theorem noFlush0_2_A : ∀ t : Fin cfg0.N, cond0_0 (grid0.coords t) → ¬cond0_1 (grid0.coords t) → (cfg0.win 2).flush t = false := by decide +kernel
/-- At the points of case B output 2 is idle: the case stores nothing into it. -/
theorem idleAt0_2_B : ∀ t : Fin cfg0.N, ¬cond0_0 (grid0.coords t) → ¬cond0_1 (grid0.coords t) → cfg0.idle 2 (grid0.coords t) = true := by decide +kernel
/-- At the points of case B output 2's block is not written back. -/
theorem noFlush0_2_B : ∀ t : Fin cfg0.N, ¬cond0_0 (grid0.coords t) → ¬cond0_1 (grid0.coords t) → (cfg0.win 2).flush t = false := by decide +kernel
/-- At the points of case C output 2 is live: the case stores into it. -/
theorem liveAt0_2_C : ∀ t : Fin cfg0.N, ¬cond0_0 (grid0.coords t) → cond0_1 (grid0.coords t) → cfg0.idle 2 (grid0.coords t) = false := by decide +kernel

/-! ## The staging and scratch memrefs -/

/-- One staging buffer of output window 2, through which its contents are stated. -/
abbrev VO0_2 : View sig .tc .vmem S1x1x2048 .f32 := (Memref.whole cc0_stg2_0 : Memref sig .tc .vmem S1x1x2048 .f32).view
/-- Each window's current staging memref at point `t`, and its wholeness. -/
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S1x2048 .f32 := Memref.whole cc0_scratch0
abbrev scM0_1 : Memref sig .tc .vmem S1x1 .f32 := Memref.whole cc0_scratch1
/-- The two scratch operands the kernel carries between points, as views. -/
abbrev VS0_0 : View sig .tc .vmem S1x2048 .f32 := scM0_0.view
abbrev VS0_1 : View sig .tc .vmem S1x1 .f32 := scM0_1.view

/-- The scoped buffers of the core that are neither a staging buffer of this region nor one of its two scratch
    operands (the staging buffers of the other region), each whole at some contents. -/
abbrev rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's invariant with the two scratch operands as memrefs owned at some contents, the other scoped
    buffers at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest8 (F := F) c) ∗ (∃ r, prngReg c r)) := by
  unfold Pipeline.ΦA; rw [scopedRest0_eq]; simp only [scM0_0, scM0_1, owns_whole]; try rfl

end Cert.Kernel.Hand

end
-- ==== Proof.K.PoolRunA.lean ====
import proofs.«111059_j9234179686589_1_alg».proof.Proof.K.PoolRuns

/-! # The pooling body at the first tile of a batch

The grid is 4 batches by 8 row tiles, 32 points in row-major order: point `t` works on tile `t % 8` of batch
`t / 8`. At a point the body reads the tile `x` (1024 rows of 2048 entries) and the weight row `w` (2048 entries),
forms for each row `r` the gate `g r = logistic (Σ j, x r j * w j)`, and updates two accumulators it keeps from point
to point: `acc_xg j` grows by `Σ r, x r j * g r` and `acc_g` grows by `Σ r, g r`.
At the first tile of a batch (`t % 8 = 0`) whatever the accumulators held is discarded: both are reset to zero and
then grow by this tile's sums, so they end at `0 + Σ r, x r j * g r` and `0 + Σ r, g r`. Nothing is stored into the
output row, which is handed back as it was found.

Here: the body's triple in this case, with the stores it leaves in each accumulator as its witness. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the body's stores leave in the output's staging memref and in the two scratch operands, as pieces (last
    first), at a point where the first conditional is taken and the second is not — with the proof that on whole
    staging memrefs, the inputs' at their contents, the output's at contents handed back untouched, both scratch
    operands at anything, the body runs to the continuation holding the inputs' and the output's as they were and
    each scratch operand with its pieces written. -/
noncomputable def kernelRun0_A (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x1024x2048 .f32) (x1 : Vec F S1x2048 .f32) :
    Σ' (L2 : List (View.Piece (Elt F) S1x1x2048 .f32)) (LS0 : List (View.Piece (Elt F) S1x2048 .f32)), { LS1 : List (View.Piece (Elt F) S1x1 .f32) //
      ∀ (xi2 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__pool_kernel i arg2 harg2 arg3 harg3 arg4 harg4 arg5 harg5 arg6 harg6) K } := by
  refine ⟨[], ?_, ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.K.PoolRunB.lean ====
import proofs.«111059_j9234179686589_1_alg».proof.Proof.K.PoolRunA

/-! # The pooling body at a middle tile of a batch

The grid is 4 batches by 8 row tiles, 32 points in row-major order: point `t` works on tile `t % 8` of batch
`t / 8`. At a point the body reads the tile `x` (1024 rows of 2048 entries) and the weight row `w` (2048 entries),
forms for each row `r` the gate `g r = logistic (Σ j, x r j * w j)`, and updates two accumulators it keeps from point
to point: `acc_xg j` grows by `Σ r, x r j * g r` and `acc_g` grows by `Σ r, g r`.
At a middle tile (`t % 8` neither 0 nor 7) the accumulators hold what the point before left, `a` and `b`, and end
at `a j + Σ r, x r j * g r` and `b + Σ r, g r`. Nothing is stored into the output row, which is handed back as it was
found.

Here: the body's triple in this case, with the stores it leaves in each accumulator as its witness. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the body's stores leave in the output's staging memref and in the two scratch operands, as pieces (last
    first), at a point where neither conditional is taken — with the proof that on whole staging memrefs, the inputs'
    at their contents, the output's at contents handed back untouched, the scratch operands at the contents the
    point before left, the body runs to the continuation holding the inputs' and the output's as they were and each
    scratch operand with its pieces written. -/
noncomputable def kernelRun0_B (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x1024x2048 .f32) (x1 : Vec F S1x2048 .f32) (xs0 : Vec F S1x2048 .f32) (xs1 : Vec F S1x1 .f32) :
    Σ' (L2 : List (View.Piece (Elt F) S1x1x2048 .f32)) (LS0 : List (View.Piece (Elt F) S1x2048 .f32)), { LS1 : List (View.Piece (Elt F) S1x1 .f32) //
      ∀ (xi2 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__pool_kernel i arg2 harg2 arg3 harg3 arg4 harg4 arg5 harg5 arg6 harg6) K } := by
  refine ⟨[], ?_, ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.K.PoolRunC.lean ====
import proofs.«111059_j9234179686589_1_alg».proof.Proof.K.PoolRunB

/-! # The pooling body at the last tile of a batch

The grid is 4 batches by 8 row tiles, 32 points in row-major order: point `t` works on tile `t % 8` of batch
`t / 8`. At a point the body reads the tile `x` (1024 rows of 2048 entries) and the weight row `w` (2048 entries),
forms for each row `r` the gate `g r = logistic (Σ j, x r j * w j)`, and updates two accumulators it keeps from point
to point: `acc_xg j` grows by `Σ r, x r j * g r` and `acc_g` grows by `Σ r, g r`.
At the last tile (`t % 8 = 7`) the accumulators hold what the point before left, `a` and `b`, and end at
`a' j = a j + Σ r, x r j * g r` and `b' = b + Σ r, g r`; then `a' j / (b' + ε)` is stored into the batch's output row,
whatever that row held.

Here: the body's triple in this case, with the stores it leaves in the output row and in each accumulator as its
witness. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the body's stores leave in the output's staging memref and in the two scratch operands, as pieces (last
    first), at a point where the first conditional is not taken and the second is — with the proof that on whole
    staging memrefs, the inputs' at their contents, the output's at anything, the scratch operands at the contents
    the point before left, the body runs to the continuation holding the inputs' as they were and the output's buffer
    and each scratch operand with its pieces written. -/
noncomputable def kernelRun0_C (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x2048 .f32) (x1 : Vec F S1x2048 .f32) (xs0 : Vec F S1x2048 .f32) (xs1 : Vec F S1x1 .f32) :
    Σ' (L2 : List (View.Piece (Elt F) S1x1x2048 .f32)) (LS0 : List (View.Piece (Elt F) S1x2048 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__pool_kernel i arg2 harg2 arg3 harg3 arg4 harg4 arg5 harg5 arg6 harg6) K } := by
  refine ⟨?_, ?_, ?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.K.PoolFrame.lean ====
import proofs.«111059_j9234179686589_1_alg».proof.Proof.K.PoolRunC
import Idealize.ShloMosaic.Lib.Pipeline.Value

/-! # The pooling region, point by point

The grid is 4 batches by 8 row tiles, 32 points in row-major order: point `t` works on tile `t % 8` of batch
`t / 8`. At a point the body reads the tile `x` (1024 rows of 2048 entries) and the weight row `w` (2048 entries),
forms for each row `r` the gate `g r = logistic (Σ j, x r j * w j)`, and updates two accumulators it keeps from point
to point: `acc_xg j` grows by `Σ r, x r j * g r` and `acc_g` grows by `Σ r, g r`.
At the first tile of a batch (`t % 8 = 0`) both accumulators are first reset to zero; at the last tile
(`t % 8 = 7`) the quotient `acc_xg j / (acc_g + ε)` is then stored into the batch's output row; at every other
point the output row is untouched and is not written back.

`outsAt0 V c n` is what the output row's buffer and the two accumulators hold after point `n`, by recursion on
`n`: at a first tile the reset case run on the point's blocks; otherwise the middle or last case run on the point's
blocks and on the accumulators' components of `outsAt0 V c (n - 1)`. So the accumulators' components restart at each
batch and the output component is meaningful at last tiles only, where it is the quotient of that point's own
accumulator components.

`PhiS V c n` is the invariant before point `n`: before the first point every buffer the region keeps is at
anything; before any later point the two accumulators are at their components of `outsAt0 V c (n - 1)`, the other
buffers it keeps at anything, and the generator register at some state. The proof data takes it as its invariant,
each input window's block as what the body leaves there, and the output component of `outsAt0` as what it leaves in
the output window; the body obligation is then the three cases, selected by the closed forms of the conditions.
The last three statements read the accumulators' and the output's components as the body's arithmetic on the
point's blocks. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Pool

variable (V : (c : Dev nD) → (b : Ref sig .tc) → Buf (Elt F) ((c : Thread nD τ).loc b))

/-- What case A leaves in output 2's staging buffer: its pieces read back over junk (none: a placeholder nothing consults, the window being idle and not written back at the case's points). -/
def out0_A_2 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x1024x2048 .f32) (x1 : Vec F S1x2048 .f32) : Vec F S1x1x2048 .f32 :=
  VO0_2.read (Elt F) (VO0_2.writes (Elt F) VO0_2.junk (kernelRun0_A c i arg2 harg2 arg3 harg3 arg4 harg4 arg5 harg5 arg6 harg6 hc0 hc1 x0 x1).1)

/-- Case A's pieces for the first scratch operand cover it. -/
theorem scover0_A_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x1024x2048 .f32) (x1 : Vec F S1x2048 .f32) (y : S1x2048.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1x2048.size (by sl_kernel_rfl) y

/-- What case A leaves in the first scratch operand: its pieces read back over junk. -/
def sout0_A_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x1024x2048 .f32) (x1 : Vec F S1x2048 .f32) : Vec F S1x2048 .f32 :=
  VS0_0.read (Elt F) (VS0_0.writes (Elt F) VS0_0.junk (kernelRun0_A c i arg2 harg2 arg3 harg3 arg4 harg4 arg5 harg5 arg6 harg6 hc0 hc1 x0 x1).2.1)

/-- Case A's pieces for the second scratch operand cover it. -/
theorem scover0_A_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x1024x2048 .f32) (x1 : Vec F S1x2048 .f32) (y : S1x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1x1.size (by sl_kernel_rfl) y

/-- What case A leaves in the second scratch operand: its pieces read back over junk. -/
def sout0_A_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x1024x2048 .f32) (x1 : Vec F S1x2048 .f32) : Vec F S1x1 .f32 :=
  VS0_1.read (Elt F) (VS0_1.writes (Elt F) VS0_1.junk (kernelRun0_A c i arg2 harg2 arg3 harg3 arg4 harg4 arg5 harg5 arg6 harg6 hc0 hc1 x0 x1).2.2.1)

/-- What case B leaves in output 2's staging buffer: its pieces read back over junk (none: a placeholder nothing consults, the window being idle and not written back at the case's points). -/
def out0_B_2 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x1024x2048 .f32) (x1 : Vec F S1x2048 .f32) (xs0 : Vec F S1x2048 .f32) (xs1 : Vec F S1x1 .f32) : Vec F S1x1x2048 .f32 :=
  VO0_2.read (Elt F) (VO0_2.writes (Elt F) VO0_2.junk (kernelRun0_B c i arg2 harg2 arg3 harg3 arg4 harg4 arg5 harg5 arg6 harg6 hc0 hc1 x0 x1 xs0 xs1).1)

/-- Case B's pieces for the first scratch operand cover it. -/
theorem scover0_B_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x1024x2048 .f32) (x1 : Vec F S1x2048 .f32) (xs0 : Vec F S1x2048 .f32) (xs1 : Vec F S1x1 .f32) (y : S1x2048.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S1x2048.size (by sl_kernel_rfl) y

/-- What case B leaves in the first scratch operand: its pieces read back over junk. -/
def sout0_B_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x1024x2048 .f32) (x1 : Vec F S1x2048 .f32) (xs0 : Vec F S1x2048 .f32) (xs1 : Vec F S1x1 .f32) : Vec F S1x2048 .f32 :=
  VS0_0.read (Elt F) (VS0_0.writes (Elt F) VS0_0.junk (kernelRun0_B c i arg2 harg2 arg3 harg3 arg4 harg4 arg5 harg5 arg6 harg6 hc0 hc1 x0 x1 xs0 xs1).2.1)

/-- Case B's pieces for the second scratch operand cover it. -/
theorem scover0_B_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x1024x2048 .f32) (x1 : Vec F S1x2048 .f32) (xs0 : Vec F S1x2048 .f32) (xs1 : Vec F S1x1 .f32) (y : S1x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S1x1.size (by sl_kernel_rfl) y

/-- What case B leaves in the second scratch operand: its pieces read back over junk. -/
def sout0_B_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x1024x2048 .f32) (x1 : Vec F S1x2048 .f32) (xs0 : Vec F S1x2048 .f32) (xs1 : Vec F S1x1 .f32) : Vec F S1x1 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-- Case C's pieces for output 2 tile its block, so they cover it. -/
theorem cover0_C_2 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x2048 .f32) (x1 : Vec F S1x2048 .f32) (xs0 : Vec F S1x2048 .f32) (xs1 : Vec F S1x1 .f32) (y : S1x1x2048.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1x1x2048.size (by sl_kernel_rfl) y

/-- What case C leaves in output 2's staging buffer: its pieces read back over junk. -/
def out0_C_2 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x2048 .f32) (x1 : Vec F S1x2048 .f32) (xs0 : Vec F S1x2048 .f32) (xs1 : Vec F S1x1 .f32) : Vec F S1x1x2048 .f32 :=
  VO0_2.read (Elt F) (VO0_2.writes (Elt F) VO0_2.junk (kernelRun0_C c i arg2 harg2 arg3 harg3 arg4 harg4 arg5 harg5 arg6 harg6 hc0 hc1 x0 x1 xs0 xs1).1)

/-- Case C's pieces for the first scratch operand cover it. -/
theorem scover0_C_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x2048 .f32) (x1 : Vec F S1x2048 .f32) (xs0 : Vec F S1x2048 .f32) (xs1 : Vec F S1x1 .f32) (y : S1x2048.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S1x2048.size (by sl_kernel_rfl) y

/-- What case C leaves in the first scratch operand: its pieces read back over junk. -/
def sout0_C_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x2048 .f32) (x1 : Vec F S1x2048 .f32) (xs0 : Vec F S1x2048 .f32) (xs1 : Vec F S1x1 .f32) : Vec F S1x2048 .f32 :=
  VS0_0.read (Elt F) (VS0_0.writes (Elt F) VS0_0.junk (kernelRun0_C c i arg2 harg2 arg3 harg3 arg4 harg4 arg5 harg5 arg6 harg6 hc0 hc1 x0 x1 xs0 xs1).2.1)

/-- Case C's pieces for the second scratch operand cover it. -/
theorem scover0_C_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x2048 .f32) (x1 : Vec F S1x2048 .f32) (xs0 : Vec F S1x2048 .f32) (xs1 : Vec F S1x1 .f32) (y : S1x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S1x1.size (by sl_kernel_rfl) y

/-- What case C leaves in the second scratch operand: its pieces read back over junk. -/
def sout0_C_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x2048 .f32) (x1 : Vec F S1x2048 .f32) (xs0 : Vec F S1x2048 .f32) (xs1 : Vec F S1x1 .f32) : Vec F S1x1 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

/-! ## What the output and the scratch operands hold after each point -/

/-- THE ACCUMULATION. What output 2's staging buffer and the two scratch operands hold after the body at position
    `n`: the case the closed forms select at `n`, run at the point's memrefs and input blocks, the scratch operands at
    what this leaves at `n - 1`. -/
def outsAt0 (c : Dev nD) : (n : ℕ) → n < cfg0.N → Vec F S1x1x2048 .f32 × Vec F S1x2048 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer at anything; afterwards
    the two scratch operands at what the point before left in them, the other scoped buffers at anything, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest8 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the scratch operands at that point's contents. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest8 (F := F) c) ∗ (∃ r, prngReg c r)) := rfl

/-- Before a point that is not the first: the scratch operands at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest8 (F := F) c) ∗ (∃ r, prngReg c r)) := by
  cases n with
  | zero => exact absurd rfl hz
  | succ n => rfl

/-! ## The pipeline's proof data -/

/-- The proof data of the pipeline on core `c`: the arrays as the region finds them; after the body at point `t`
    each input's buffer at its block and the output's at its component of `outsAt0`; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in;
    so that case's run applies; the invariant hands the body the two scratch operands at what the point before left
    (at anything at the first point), the other scoped buffers and the generator register at some state, and takes
    the scratch operands back at this point's contents; the core owes nothing throughout. -/
theorem sound_body0 (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _)
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, HS1, HR⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _)
            iexact HR
          iexact Hg
        isplitl [Ho]; · iexact Ho
        isplitl [H0]; · iexact H0
        isplitl [H1]; · iexact H1
        iexists _; iexact H2
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0 sout0_C_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩⟩
        iapply ((kernelRun0_C c (grid0.coords t) _ _ _ _ _ _ _ _ _ _ (fun h => h0 ((hcond0_0 t).mp h)) ((hcond0_1 t).mpr h1) (iblk0 V c 0 t) (iblk0 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the scratch operands' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

/-! ## The value-facing equations -/

theorem hz2 : (![0, 0] : Fin 2 → ℕ) = fun _ => 0 := by funext a; fin_cases a <;> rfl
theorem hz3 : (![0, 0, 0] : Fin 3 → ℕ) = fun _ => 0 := by funext a; fin_cases a <;> rfl

/-- Case A leaves in the first scratch operand the update of the reset value by this point's blocks. -/
theorem sout0_A_0_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i) (x0 : Vec F S1x1024x2048 .f32) (x1 : Vec F S1x2048 .f32) :
    sout0_A_0 c i arg2 harg2 arg3 harg3 arg4 harg4 arg5 harg5 arg6 harg6 hc0 hc1 x0 x1 = k0_pay5 x0 x1 k0_pay1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x2048) hz2]
  simp only [View.readAt_eq_ld, harg2.read_unread, harg3.read_unread, harg5.read_unread, harg6.read_unread, View.ld_unit_zero (S := S1x1024x2048) hz3, View.ld_unit_zero (S := S1x2048) hz2, View.ld_unit_zero (S := S1x1) hz2, View.readCov_unit_zero (S := S1x2048) _ hz2, View.readCov_unit_zero (S := S1x1) _ hz2]

/-- Case A leaves in the second scratch operand the update of the reset value by this point's blocks. -/
theorem sout0_A_1_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i) (x0 : Vec F S1x1024x2048 .f32) (x1 : Vec F S1x2048 .f32) :
    sout0_A_1 c i arg2 harg2 arg3 harg3 arg4 harg4 arg5 harg5 arg6 harg6 hc0 hc1 x0 x1 = k0_pay6 x0 x1 k0_pay2 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1x1) hz2]
  simp only [View.readAt_eq_ld, harg2.read_unread, harg3.read_unread, harg5.read_unread, harg6.read_unread, View.ld_unit_zero (S := S1x1024x2048) hz3, View.ld_unit_zero (S := S1x2048) hz2, View.ld_unit_zero (S := S1x1) hz2, View.readCov_unit_zero (S := S1x2048) _ hz2, View.readCov_unit_zero (S := S1x1) _ hz2]

/-- Case B leaves in the first scratch operand the update of what it held by this point's blocks. -/
theorem sout0_B_0_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i) (x0 : Vec F S1x1024x2048 .f32) (x1 : Vec F S1x2048 .f32) (xs0 : Vec F S1x2048 .f32) (xs1 : Vec F S1x1 .f32) :
    sout0_B_0 c i arg2 harg2 arg3 harg3 arg4 harg4 arg5 harg5 arg6 harg6 hc0 hc1 x0 x1 xs0 xs1 = k0_pay5 x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero (S := S1x2048) hz2]
  simp only [View.readAt_eq_ld, harg2.read_unread, harg3.read_unread, harg5.read_unread, harg6.read_unread, View.ld_unit_zero (S := S1x1024x2048) hz3, View.ld_unit_zero (S := S1x2048) hz2, View.ld_unit_zero (S := S1x1) hz2, View.readCov_unit_zero (S := S1x2048) _ hz2, View.readCov_unit_zero (S := S1x1) _ hz2]

/-- Case B leaves in the second scratch operand the update of what it held by this point's blocks. -/
theorem sout0_B_1_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i) (x0 : Vec F S1x1024x2048 .f32) (x1 : Vec F S1x2048 .f32) (xs0 : Vec F S1x2048 .f32) (xs1 : Vec F S1x1 .f32) :
    sout0_B_1 c i arg2 harg2 arg3 harg3 arg4 harg4 arg5 harg5 arg6 harg6 hc0 hc1 x0 x1 xs0 xs1 = k0_pay6 x0 x1 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero (S := S1x1) hz2]
  simp only [View.readAt_eq_ld, harg2.read_unread, harg3.read_unread, harg5.read_unread, harg6.read_unread, View.ld_unit_zero (S := S1x1024x2048) hz3, View.ld_unit_zero (S := S1x2048) hz2, View.ld_unit_zero (S := S1x1) hz2, View.readCov_unit_zero (S := S1x2048) _ hz2, View.readCov_unit_zero (S := S1x1) _ hz2]

/-- Case C leaves in the first scratch operand the update of what it held by this point's blocks. -/
theorem sout0_C_0_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i) (x0 : Vec F S1x1024x2048 .f32) (x1 : Vec F S1x2048 .f32) (xs0 : Vec F S1x2048 .f32) (xs1 : Vec F S1x1 .f32) :
    sout0_C_0 c i arg2 harg2 arg3 harg3 arg4 harg4 arg5 harg5 arg6 harg6 hc0 hc1 x0 x1 xs0 xs1 = k0_pay5 x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero (S := S1x2048) hz2]
  simp only [View.readAt_eq_ld, harg2.read_unread, harg3.read_unread, harg5.read_unread, harg6.read_unread, View.ld_unit_zero (S := S1x1024x2048) hz3, View.ld_unit_zero (S := S1x2048) hz2, View.ld_unit_zero (S := S1x1) hz2, View.readCov_unit_zero (S := S1x2048) _ hz2, View.readCov_unit_zero (S := S1x1) _ hz2]

/-- Case C leaves in the second scratch operand the update of what it held by this point's blocks. -/
theorem sout0_C_1_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i) (x0 : Vec F S1x1024x2048 .f32) (x1 : Vec F S1x2048 .f32) (xs0 : Vec F S1x2048 .f32) (xs1 : Vec F S1x1 .f32) :
    sout0_C_1 c i arg2 harg2 arg3 harg3 arg4 harg4 arg5 harg5 arg6 harg6 hc0 hc1 x0 x1 xs0 xs1 = k0_pay6 x0 x1 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero (S := S1x1) hz2]
  simp only [View.readAt_eq_ld, harg2.read_unread, harg3.read_unread, harg5.read_unread, harg6.read_unread, View.ld_unit_zero (S := S1x1024x2048) hz3, View.ld_unit_zero (S := S1x2048) hz2, View.ld_unit_zero (S := S1x1) hz2, View.readCov_unit_zero (S := S1x2048) _ hz2, View.readCov_unit_zero (S := S1x1) _ hz2]

/-- Case C stores into the output the quotient computed from the two updated scratch operands. -/
theorem out0_C_2_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i) (x0 : Vec F S1x1024x2048 .f32) (x1 : Vec F S1x2048 .f32) (xs0 : Vec F S1x2048 .f32) (xs1 : Vec F S1x1 .f32) :
    out0_C_2 c i arg2 harg2 arg3 harg3 arg4 harg4 arg5 harg5 arg6 harg6 hc0 hc1 x0 x1 xs0 xs1 = k0_pay7 (k0_pay5 x0 x1 xs0) (k0_pay6 x0 x1 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero (S := S1x1x2048) hz3]
  simp only [View.readAt_eq_ld, harg2.read_unread, harg3.read_unread, harg5.read_unread, harg6.read_unread, View.ld_unit_zero (S := S1x1024x2048) hz3, View.ld_unit_zero (S := S1x2048) hz2, View.ld_unit_zero (S := S1x1) hz2, View.readCov_unit_zero (S := S1x2048) _ hz2, View.readCov_unit_zero (S := S1x1) _ hz2]

/-- At a point that resets, the scratch operands end at the update of the reset values by the point's blocks. -/
theorem outsAt0_first (c : Dev nD) (t : Fin cfg0.N) (h : t.val % 8 = 0) : (outsAt0 V c t.val t.isLt).2 = (k0_pay5 (iblk0 V c 0 t) (iblk0 V c 1 t) k0_pay1, k0_pay6 (iblk0 V c 0 t) (iblk0 V c 1 t) k0_pay2) := by
  have h1 : ¬t.val % 8 = 7 := by omega
  rw [outsAt0_A V c t h h1]
  dsimp only
  exact congrArg₂ Prod.mk
    (sout0_A_0_eq c (grid0.coords t) (ms0_0 t) (hs0_0 t) (ms0_1 t) (hs0_1 t) (ms0_2 t) (hs0_2 t) scM0_0 (Memref.isWhole_whole _) scM0_1 (Memref.isWhole_whole _) ((hcond0_0 t).mpr h) (fun h => h1 ((hcond0_1 t).mp h)) (iblk0 V c 0 t) (iblk0 V c 1 t))
    (sout0_A_1_eq c (grid0.coords t) (ms0_0 t) (hs0_0 t) (ms0_1 t) (hs0_1 t) (ms0_2 t) (hs0_2 t) scM0_0 (Memref.isWhole_whole _) scM0_1 (Memref.isWhole_whole _) ((hcond0_0 t).mpr h) (fun h => h1 ((hcond0_1 t).mp h)) (iblk0 V c 0 t) (iblk0 V c 1 t))

/-- At any other point, the scratch operands end at the update of what the point before left by the point's blocks. -/
theorem outsAt0_next (c : Dev nD) (t : Fin cfg0.N) (h : t.val % 8 ≠ 0) : (outsAt0 V c t.val t.isLt).2 = (k0_pay5 (iblk0 V c 0 t) (iblk0 V c 1 t) (outsAt0 V c (t.val - 1) (by omega)).2.1, k0_pay6 (iblk0 V c 0 t) (iblk0 V c 1 t) (outsAt0 V c (t.val - 1) (by omega)).2.2) := by
  have h0 : ¬t.val % 8 = 0 := h
  by_cases h1 : t.val % 8 = 7
  · rw [outsAt0_C V c t h0 h1]
    dsimp only
    exact congrArg₂ Prod.mk
      (sout0_C_0_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
      (sout0_C_1_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
  · rw [outsAt0_B V c t h0 h1]
    dsimp only
    exact congrArg₂ Prod.mk
      (sout0_B_0_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
      (sout0_B_1_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)

/-- At a point that stores the output, it is the quotient computed from the scratch operands as that point leaves them. -/
theorem outsAt0_last (c : Dev nD) (t : Fin cfg0.N) (h : t.val % 8 = 7) : (outsAt0 V c t.val t.isLt).1 = k0_pay7 (outsAt0 V c t.val t.isLt).2.1 (outsAt0 V c t.val t.isLt).2.2 := by
  have h0 : ¬t.val % 8 = 0 := by omega
  rw [outsAt0_C V c t h0 h]
  dsimp only
  rw [sout0_C_0_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
    sout0_C_1_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2]
  exact out0_C_2_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2

end Pool

end Cert.Kernel.Hand

end
-- ==== Proof.K.MainFrame.lean ====
/- The main kernel's frame half, at any float model: at a PARAMETER `V` (the TensorCore's buffer contents when the
   region is entered) each window's block at a point, what the body leaves in the output window's buffer from the four
   input blocks, the body's triple, the pipeline's proof data and its body obligation. -/
import proofs.«111059_j9234179686589_1_alg».proof.Proof.Gen.Kernel.Launch
import proofs.«111059_j9234179686589_1_alg».proof.Proof.Gen.Kernel.Skeleton
import proofs.«111059_j9234179686589_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

-- membership in a rectangle of long extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s and whose body leaves the block in place: unfetched, the index has not moved; the
    window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s and whose body leaves the block in place: unfetched, the index has not moved; the
    window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s and whose body leaves the block in place: unfetched, the index has not moved; the
    window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s and whose body leaves the block in place: unfetched, the index has not moved; the
    window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1x512x2048 := Rect.unit (s := S1x512x2048) ![0, 0, 0] S1x512x2048.size inb_S1x512x2048_S1x512x2048_0_0_0
abbrev r1_1 : Rect S128x2048 := Rect.unit (s := S128x2048) ![0, 0] S128x2048.size inb_S128x2048_S128x2048_0_0
abbrev r1_2 : Rect S1x25x128 := Rect.unit (s := S1x25x128) ![0, 0, 0] S1x25x128.size inb_S1x25x128_S1x25x128_0_0_0
abbrev r1_3 : Rect S2048x128 := Rect.unit (s := S2048x128) ![0, 0] S2048x128.size inb_S2048x128_S2048x128_0_0

/-- The accesses' offsets are all zero, on two axes and on three. -/
theorem off2_zero : (![0, 0] : Fin 2 → Nat) = fun _ => 0 := funext fun a => by fin_cases a <;> rfl
theorem off3_zero : (![0, 0, 0] : Fin 3 → Nat) = fun _ => 0 := funext fun a => by fin_cases a <;> rfl

/-! ## What the body leaves in the output window's buffer -/

/-- Window 4's staging buffer after the body, from the input windows' blocks: its one store of the whole block, the
    payload over what the four loads read. -/
def out1_4 (x0 : Vec F S1x512x2048 .f32) (x1 : Vec F S128x2048 .f32) (x2 : Vec F S1x25x128 .f32) (x3 : Vec F S2048x128 .f32) : Vec F S1x512x2048 .f32 :=
  View.canon [⟨r1_0, k1_pay1 (View.ld x0 r1_0) (View.ld x1 r1_1) (View.ld x2 r1_2) (View.ld x3 r1_3)⟩]

/-- The one store covers the buffer. -/
theorem cover1_4 (p0 : Vec F S1x512x2048 .f32) (y : S1x512x2048.Idx) :
    ∃ pc ∈ ([⟨r1_0, p0⟩] : List (View.Piece (Elt F) S1x512x2048 .f32)), y ∈ pc.1.set :=
  ⟨_, List.mem_singleton_self _, View.mem_set_unit_zero off3_zero inb_S1x512x2048_S1x512x2048_0_0_0 y⟩

/-- Every access being of a whole buffer at zero offsets, the loads read the blocks and the store leaves its payload:
    the output buffer holds the payload of the four blocks. -/
theorem out1_4_eq (x0 : Vec F S1x512x2048 .f32) (x1 : Vec F S128x2048 .f32) (x2 : Vec F S1x25x128 .f32) (x3 : Vec F S2048x128 .f32) :
    out1_4 x0 x1 x2 x3 = k1_pay1 x0 x1 x2 x3 := by
  unfold out1_4
  rw [View.canon_unit_zero off3_zero]
  simp only [View.ld_unit_zero (S := S1x512x2048) off3_zero, View.ld_unit_zero (S := S128x2048) off2_zero,
    View.ld_unit_zero (S := S1x25x128) off3_zero, View.ld_unit_zero (S := S2048x128) off2_zero]

/-! ## The body's triple -/

set_option maxHeartbeats 1000000 in
/-- The kernel body on whole staging memrefs, the inputs' at read contents and the output's at anything, runs to the
    continuation holding the inputs' as they were and the output's at `out1_4` of the inputs'. -/
theorem sound_kernel1 (c : Dev nD) (E : Set ℕ) (i : grid1.Coords)
    (arg2 : Memref sig .tc .vmem S1x512x2048 .f32) (harg2 : arg2.IsWhole) (arg3 : Memref sig .tc .vmem S128x2048 .f32) (harg3 : arg3.IsWhole)
    (arg4 : Memref sig .tc .vmem S1x25x128 .f32) (harg4 : arg4.IsWhole) (arg5 : Memref sig .tc .vmem S2048x128 .f32) (harg5 : arg5.IsWhole)
    (arg6 : Memref sig .tc .vmem S1x512x2048 .f32) (harg6 : arg6.IsWhole)
    (x0 : Vec F S1x512x2048 .f32) (x1 : Vec F S128x2048 .f32) (x2 : Vec F S1x25x128 .f32) (x3 : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the main kernel's pipeline on core `c`: the arrays as the region finds them (`V`); after the
    body at point `t` each input's buffer at its block and the output's at `out1_4` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Run.lean ====
import proofs.«111059_j9234179686589_1_alg».proof.Proof.K.PoolFrame
import proofs.«111059_j9234179686589_1_alg».proof.Proof.K.MainFrame
import Idealize.ShloMosaic.Lib.Pipeline.RegionsLoop
import Idealize.ShloMosaic.Lib.Pipeline.FrameSuffix

/-! The run of @main: the pooling region, the host stretch that publishes and normalises the pool and
scales the modulation weights, the attention region, and the host stretch that appends the summary to the
cache. Between two items every unscoped buffer of the core is held at contents named here: the launch
memory, then each region's arrays at what its write-backs leave and each host stretch applied. Every weakly
fair execution terminates with every unscoped buffer at the last of these contents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: what the pooling region is entered from. -/
abbrev W0 : Dev nD → Valuation τ sig (Elt F) := fun c b => (s₀ m ρ).mem ((c : Dev nD), b)
/-- The same read at the TensorCore's references. -/
abbrev Vin0 : (c : Dev nD) → (b : Ref sig .tc) → Buf (Elt F) ((c : Thread nD τ).loc b) := fun c b => W0 m ρ c b
/-- After the pooling region: its arrays at what its write-backs leave, every other buffer as entered. -/
def W1 (c : Dev nD) : Valuation τ sig (Elt F) :=
  Pipeline.withArrays spec0 c (W0 m ρ c) fun w => (dat0 (Vin0 m ρ) c).arrAt w cfg0.N
theorem W1_arr (c : Dev nD) (w : Fin cfg0.W) :
    W1 m ρ c (Proc.devRef .tc (Pipeline.arrRef spec0 w)) = (dat0 (Vin0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vout0 : (c : Dev nD) → (b : Ref sig .tc) → Buf (Elt F) ((c : Thread nD τ).loc b) := fun c b => W1 m ρ c b
theorem hF0 (c : Dev nD) (w : Fin cfg0.W) : (dat0 (Vin0 m ρ) c).arrAt w cfg0.N = Vout0 m ρ c (Pipeline.arrRef spec0 w) :=
  (W1_arr m ρ c w).symm
theorem hrest0 (c : Dev nD) : ∀ b, b ∉ Finset.univ.image (Pipeline.arrRef spec0) → Vout0 m ρ c b = Vin0 m ρ c b :=
  fun b hb => W1_of_ne m ρ c b fun w e => hb (Finset.mem_image.mpr ⟨w, Finset.mem_univ _, e⟩)

/-- After the first host stretch: what the attention region is entered from. -/
abbrev W2 : Dev nD → Valuation τ sig (Elt F) := fun c => StableHlo.after hostOps1 (W1 m ρ c)
abbrev Vin1 : (c : Dev nD) → (b : Ref sig .tc) → Buf (Elt F) ((c : Thread nD τ).loc b) := fun c b => W2 m ρ c b
/-- After the attention region. -/
def W3 (c : Dev nD) : Valuation τ sig (Elt F) :=
  Pipeline.withArrays spec1 c (W2 m ρ c) fun w => (dat1 (Vin1 m ρ) c).arrAt w cfg1.N
theorem W3_arr (c : Dev nD) (w : Fin cfg1.W) :
    W3 m ρ c (Proc.devRef .tc (Pipeline.arrRef spec1 w)) = (dat1 (Vin1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vout1 : (c : Dev nD) → (b : Ref sig .tc) → Buf (Elt F) ((c : Thread nD τ).loc b) := fun c b => W3 m ρ c b
theorem hF1 (c : Dev nD) (w : Fin cfg1.W) : (dat1 (Vin1 m ρ) c).arrAt w cfg1.N = Vout1 m ρ c (Pipeline.arrRef spec1 w) :=
  (W3_arr m ρ c w).symm
theorem hrest1 (c : Dev nD) : ∀ b, b ∉ Finset.univ.image (Pipeline.arrRef spec1) → Vout1 m ρ c b = Vin1 m ρ c b :=
  fun b hb => W3_of_ne m ρ c b fun w e => hb (Finset.mem_image.mpr ⟨w, Finset.mem_univ _, e⟩)
/-- After the second host stretch: the contents at the return. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Neither host stretch allocates a buffer. -/
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

/-- What the launch hands the pooling region makes the invariant its first point starts from. -/
theorem PhiA0_in (c : Dev nD) :
    (iprop((∃ r, prngReg c r) ∗ Pipeline.prefHeld (pcfgs (F := F) 0).pre c (fun _ => fullShare) (adm (F := F) 0).1 ∗ Pipeline.scopedRest spec0 c) : sProp 𝕄)
      ⊢ Pipeline.ΦA spec0 c := by
  unfold Pipeline.ΦA
  iintro ⟨Hp, -, Hr⟩
  isplitl [Hr]; · iexact Hr
  iexact Hp
/-- And the invariant gives the same back. -/
theorem PhiA0_out (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

set_option backward.isDefEq.respectTransparency.types false in
/-- The pooling region over the thread state: entered from every unscoped buffer at the launch contents, left with
    its arrays at what its write-backs leave; the generator register and the scoped buffers into its invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun w => (A_eq0 (Vin0 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA0_in c).trans (hin0 (Vin0 m ρ) c)
  hout c := by
    rw [Pipeline.ownSems0_none]
    exact (hout0 (Vin0 m ρ) c).trans (PhiA0_out c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer after the first host stretch, left
    with its arrays at what its write-backs leave. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun w => (A_eq1 (Vin1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub fresh1 (W1 m ρ)),
    .region (reg1 m ρ),
    .host (hseg hostOps2 hostOps2_sub fresh2 (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final memory holds every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => show iprop(StableHlo.held (c : Thread nD τ) (Pipeline.ucRefs τ sig) (W4 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.K.Frame.lean ====
import proofs.«111059_j9234179686589_1_alg».proof.Proof.K.Run
import proofs.«111059_j9234179686589_1_alg».proof.Proof.Gen.Kernel.Regions

/-! Every argument array reaches the return holding its launch contents: the contents at each boundary
are read back, item by item, to the launch memory. With the run this is the program's frame. -/

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- `main_arg0` reaches the return as launched: no host stretch writes it and a region only reads it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := (W3_arr m ρ c 0).trans (((dat1 (Vin1 m ρ) c).arrAt_in 0 rfl _).trans (A_eq1 (Vin1 m ρ) c 0))
    _ = W1 m ρ c (Proc.devRef .tc main_arg0) := StableHlo.after_of_writes_sub hostOps1 _ hostOps1_writes (by decide)
    _ = W0 m ρ c (Proc.devRef .tc main_arg0) := (W1_arr m ρ c 0).trans (((dat0 (Vin0 m ρ) c).arrAt_in 0 rfl _).trans (A_eq0 (Vin0 m ρ) c 0))
    _ = m ((c : Thread nD τ).loc main_arg0) := rfl

/-- `main_arg1` reaches the return as launched: no host stretch writes it and a region only reads it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl

/-- `main_arg2` reaches the return as launched: no host stretch writes it and a region only reads it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl

/-- `main_arg3` reaches the return as launched: no host stretch writes it and a region only reads it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := (W3_arr m ρ c 1).trans (((dat1 (Vin1 m ρ) c).arrAt_in 1 rfl _).trans (A_eq1 (Vin1 m ρ) c 1))
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

/-- `main_arg4` reaches the return as launched: no host stretch writes it and a region only reads it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

/-- `main_arg5` reaches the return as launched: no host stretch writes it and a region only reads it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := (W1_arr m ρ c 1).trans (((dat0 (Vin0 m ρ) c).arrAt_in 1 rfl _).trans (A_eq0 (Vin0 m ρ) c 1))
    _ = m ((c : Thread nD τ).loc main_arg5) := rfl

/-- `main_arg6` reaches the return as launched: no host stretch writes it and a region only reads it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := StableHlo.after_of_writes_sub hostOps1 _ hostOps1_writes (by decide)
    _ = W0 m ρ c (Proc.devRef .tc main_arg6) := W1_of_ne m ρ c main_arg6 (by decide)
    _ = m ((c : Thread nD τ).loc main_arg6) := rfl

/-- THE FRAME at any float instance: every weakly fair execution of @main terminates, nothing faulting, and every
    argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_main m ρ)

end Cert.Kernel.Hand

end
-- ==== Proof.KI.PoolRuns.lean ====
import proofs.«111059_j9234179686589_1_alg».proof.Proof.Gen.KernelIdeal.Launch
import proofs.«111059_j9234179686589_1_alg».proof.Proof.Gen.KernelIdeal.Skeleton
import proofs.«111059_j9234179686589_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # The pooling region: what its three cases are stated over

The grid is 4 batches by 8 row tiles, 32 points in row-major order: point `t` works on tile `t % 8` of batch
`t / 8`. At a point the body reads the tile `x` (1024 rows of 2048 entries) and the weight row `w` (2048 entries),
forms for each row `r` the gate `g r = logistic (Σ j, x r j * w j)`, and updates two accumulators it keeps from point
to point: `acc_xg j` grows by `Σ r, x r j * g r` and `acc_g` grows by `Σ r, g r`.
There are three cases. At the first tile of a batch (`t % 8 = 0`) both accumulators are reset to zero and then
grow by the tile's sums. At a middle tile they grow by the tile's sums over what the point before left. At the last
tile (`t % 8 = 7`) they grow likewise, and then `acc_xg j / (acc_g + ε)` is stored into the batch's output row; at
every other point the output row is left as it was and is not written back.

Here: each window's block at a point, read off the arrays as the region finds them; the two conditions in closed
form over the grid; where the output window is idle; the memrefs the body is handed; and the region's invariant
with the two accumulators named apart from the other buffers it carries. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Pool

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Pool

/-! ## The body's branch conditions -/

/-- The condition of the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional, from the grid coordinates. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- At the points of case A output 2 is idle: the case stores nothing into it. -/
theorem idleAt0_2_A : ∀ t : Fin cfg0.N, cond0_0 (grid0.coords t) → ¬cond0_1 (grid0.coords t) → cfg0.idle 2 (grid0.coords t) = true := by decide +kernel
/-- At the points of case A output 2's block is not written back. -/
theorem noFlush0_2_A : ∀ t : Fin cfg0.N, cond0_0 (grid0.coords t) → ¬cond0_1 (grid0.coords t) → (cfg0.win 2).flush t = false := by decide +kernel
/-- At the points of case B output 2 is idle: the case stores nothing into it. -/
theorem idleAt0_2_B : ∀ t : Fin cfg0.N, ¬cond0_0 (grid0.coords t) → ¬cond0_1 (grid0.coords t) → cfg0.idle 2 (grid0.coords t) = true := by decide +kernel
/-- At the points of case B output 2's block is not written back. -/
theorem noFlush0_2_B : ∀ t : Fin cfg0.N, ¬cond0_0 (grid0.coords t) → ¬cond0_1 (grid0.coords t) → (cfg0.win 2).flush t = false := by decide +kernel
/-- At the points of case C output 2 is live: the case stores into it. -/
theorem liveAt0_2_C : ∀ t : Fin cfg0.N, ¬cond0_0 (grid0.coords t) → cond0_1 (grid0.coords t) → cfg0.idle 2 (grid0.coords t) = false := by decide +kernel

/-! ## The staging and scratch memrefs -/

/-- One staging buffer of output window 2, through which its contents are stated. -/
abbrev VO0_2 : View sig .tc .vmem S1x1x2048 .f32 := (Memref.whole cc0_stg2_0 : Memref sig .tc .vmem S1x1x2048 .f32).view
/-- Each window's current staging memref at point `t`, and its wholeness. -/
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S1x2048 .f32 := Memref.whole cc0_scratch0
abbrev scM0_1 : Memref sig .tc .vmem S1x1 .f32 := Memref.whole cc0_scratch1
/-- The two scratch operands the kernel carries between points, as views. -/
abbrev VS0_0 : View sig .tc .vmem S1x2048 .f32 := scM0_0.view
abbrev VS0_1 : View sig .tc .vmem S1x1 .f32 := scM0_1.view

/-- The scoped buffers of the core that are neither a staging buffer of this region nor one of its two scratch
    operands (the staging buffers of the other region), each whole at some contents. -/
abbrev rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's invariant with the two scratch operands as memrefs owned at some contents, the other scoped
    buffers at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest8 (F := F) c) ∗ (∃ r, prngReg c r)) := by
  unfold Pipeline.ΦA; rw [scopedRest0_eq]; simp only [scM0_0, scM0_1, owns_whole]; try rfl

end Cert.KernelIdeal.Hand

end
-- ==== Proof.KI.PoolRunA.lean ====
import proofs.«111059_j9234179686589_1_alg».proof.Proof.KI.PoolRuns

/-! # The pooling body at the first tile of a batch

The grid is 4 batches by 8 row tiles, 32 points in row-major order: point `t` works on tile `t % 8` of batch
`t / 8`. At a point the body reads the tile `x` (1024 rows of 2048 entries) and the weight row `w` (2048 entries),
forms for each row `r` the gate `g r = logistic (Σ j, x r j * w j)`, and updates two accumulators it keeps from point
to point: `acc_xg j` grows by `Σ r, x r j * g r` and `acc_g` grows by `Σ r, g r`.
At the first tile of a batch (`t % 8 = 0`) whatever the accumulators held is discarded: both are reset to zero and
then grow by this tile's sums, so they end at `0 + Σ r, x r j * g r` and `0 + Σ r, g r`. Nothing is stored into the
output row, which is handed back as it was found.

Here: the body's triple in this case, with the stores it leaves in each accumulator as its witness. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave in the output's staging memref and in the two scratch operands, as pieces (last
    first), at a point where the first conditional is taken and the second is not — with the proof that on whole
    staging memrefs, the inputs' at their contents, the output's at contents handed back untouched, both scratch
    operands at anything, the body runs to the continuation holding the inputs' and the output's as they were and
    each scratch operand with its pieces written. -/
noncomputable def kernelRun0_A (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x1024x2048 .f32) (x1 : Vec F S1x2048 .f32) :
    Σ' (L2 : List (View.Piece (Elt F) S1x1x2048 .f32)) (LS0 : List (View.Piece (Elt F) S1x2048 .f32)), { LS1 : List (View.Piece (Elt F) S1x1 .f32) //
      ∀ (xi2 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__pool_kernel i arg2 harg2 arg3 harg3 arg4 harg4 arg5 harg5 arg6 harg6) K } := by
  refine ⟨[], ?_, ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KI.PoolRunB.lean ====
import proofs.«111059_j9234179686589_1_alg».proof.Proof.KI.PoolRunA

/-! # The pooling body at a middle tile of a batch

The grid is 4 batches by 8 row tiles, 32 points in row-major order: point `t` works on tile `t % 8` of batch
`t / 8`. At a point the body reads the tile `x` (1024 rows of 2048 entries) and the weight row `w` (2048 entries),
forms for each row `r` the gate `g r = logistic (Σ j, x r j * w j)`, and updates two accumulators it keeps from point
to point: `acc_xg j` grows by `Σ r, x r j * g r` and `acc_g` grows by `Σ r, g r`.
At a middle tile (`t % 8` neither 0 nor 7) the accumulators hold what the point before left, `a` and `b`, and end
at `a j + Σ r, x r j * g r` and `b + Σ r, g r`. Nothing is stored into the output row, which is handed back as it was
found.

Here: the body's triple in this case, with the stores it leaves in each accumulator as its witness. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave in the output's staging memref and in the two scratch operands, as pieces (last
    first), at a point where neither conditional is taken — with the proof that on whole staging memrefs, the inputs'
    at their contents, the output's at contents handed back untouched, the scratch operands at the contents the
    point before left, the body runs to the continuation holding the inputs' and the output's as they were and each
    scratch operand with its pieces written. -/
noncomputable def kernelRun0_B (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x1024x2048 .f32) (x1 : Vec F S1x2048 .f32) (xs0 : Vec F S1x2048 .f32) (xs1 : Vec F S1x1 .f32) :
    Σ' (L2 : List (View.Piece (Elt F) S1x1x2048 .f32)) (LS0 : List (View.Piece (Elt F) S1x2048 .f32)), { LS1 : List (View.Piece (Elt F) S1x1 .f32) //
      ∀ (xi2 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__pool_kernel i arg2 harg2 arg3 harg3 arg4 harg4 arg5 harg5 arg6 harg6) K } := by
  refine ⟨[], ?_, ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KI.PoolRunC.lean ====
import proofs.«111059_j9234179686589_1_alg».proof.Proof.KI.PoolRunB

/-! # The pooling body at the last tile of a batch

The grid is 4 batches by 8 row tiles, 32 points in row-major order: point `t` works on tile `t % 8` of batch
`t / 8`. At a point the body reads the tile `x` (1024 rows of 2048 entries) and the weight row `w` (2048 entries),
forms for each row `r` the gate `g r = logistic (Σ j, x r j * w j)`, and updates two accumulators it keeps from point
to point: `acc_xg j` grows by `Σ r, x r j * g r` and `acc_g` grows by `Σ r, g r`.
At the last tile (`t % 8 = 7`) the accumulators hold what the point before left, `a` and `b`, and end at
`a' j = a j + Σ r, x r j * g r` and `b' = b + Σ r, g r`; then `a' j / (b' + ε)` is stored into the batch's output row,
whatever that row held.

Here: the body's triple in this case, with the stores it leaves in the output row and in each accumulator as its
witness. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave in the output's staging memref and in the two scratch operands, as pieces (last
    first), at a point where the first conditional is not taken and the second is — with the proof that on whole
    staging memrefs, the inputs' at their contents, the output's at anything, the scratch operands at the contents
    the point before left, the body runs to the continuation holding the inputs' as they were and the output's buffer
    and each scratch operand with its pieces written. -/
noncomputable def kernelRun0_C (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x2048 .f32) (x1 : Vec F S1x2048 .f32) (xs0 : Vec F S1x2048 .f32) (xs1 : Vec F S1x1 .f32) :
    Σ' (L2 : List (View.Piece (Elt F) S1x1x2048 .f32)) (LS0 : List (View.Piece (Elt F) S1x2048 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__pool_kernel i arg2 harg2 arg3 harg3 arg4 harg4 arg5 harg5 arg6 harg6) K } := by
  refine ⟨?_, ?_, ?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.KI.PoolFrame.lean ====
import proofs.«111059_j9234179686589_1_alg».proof.Proof.KI.PoolRunC
import Idealize.ShloMosaic.Lib.Pipeline.Value

/-! # The pooling region, point by point

The grid is 4 batches by 8 row tiles, 32 points in row-major order: point `t` works on tile `t % 8` of batch
`t / 8`. At a point the body reads the tile `x` (1024 rows of 2048 entries) and the weight row `w` (2048 entries),
forms for each row `r` the gate `g r = logistic (Σ j, x r j * w j)`, and updates two accumulators it keeps from point
to point: `acc_xg j` grows by `Σ r, x r j * g r` and `acc_g` grows by `Σ r, g r`.
At the first tile of a batch (`t % 8 = 0`) both accumulators are first reset to zero; at the last tile
(`t % 8 = 7`) the quotient `acc_xg j / (acc_g + ε)` is then stored into the batch's output row; at every other
point the output row is untouched and is not written back.

`outsAt0 V c n` is what the output row's buffer and the two accumulators hold after point `n`, by recursion on
`n`: at a first tile the reset case run on the point's blocks; otherwise the middle or last case run on the point's
blocks and on the accumulators' components of `outsAt0 V c (n - 1)`. So the accumulators' components restart at each
batch and the output component is meaningful at last tiles only, where it is the quotient of that point's own
accumulator components.

`PhiS V c n` is the invariant before point `n`: before the first point every buffer the region keeps is at
anything; before any later point the two accumulators are at their components of `outsAt0 V c (n - 1)`, the other
buffers it keeps at anything, and the generator register at some state. The proof data takes it as its invariant,
each input window's block as what the body leaves there, and the output component of `outsAt0` as what it leaves in
the output window; the body obligation is then the three cases, selected by the closed forms of the conditions.
The last three statements read the accumulators' and the output's components as the body's arithmetic on the
point's blocks. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Pool

variable (V : (c : Dev nD) → (b : Ref sig .tc) → Buf (Elt F) ((c : Thread nD τ).loc b))

/-- What case A leaves in output 2's staging buffer: its pieces read back over junk (none: a placeholder nothing consults, the window being idle and not written back at the case's points). -/
def out0_A_2 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x1024x2048 .f32) (x1 : Vec F S1x2048 .f32) : Vec F S1x1x2048 .f32 :=
  VO0_2.read (Elt F) (VO0_2.writes (Elt F) VO0_2.junk (kernelRun0_A c i arg2 harg2 arg3 harg3 arg4 harg4 arg5 harg5 arg6 harg6 hc0 hc1 x0 x1).1)

/-- Case A's pieces for the first scratch operand cover it. -/
theorem scover0_A_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x1024x2048 .f32) (x1 : Vec F S1x2048 .f32) (y : S1x2048.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1x2048.size (by sl_kernel_rfl) y

/-- What case A leaves in the first scratch operand: its pieces read back over junk. -/
def sout0_A_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x1024x2048 .f32) (x1 : Vec F S1x2048 .f32) : Vec F S1x2048 .f32 :=
  VS0_0.read (Elt F) (VS0_0.writes (Elt F) VS0_0.junk (kernelRun0_A c i arg2 harg2 arg3 harg3 arg4 harg4 arg5 harg5 arg6 harg6 hc0 hc1 x0 x1).2.1)

/-- Case A's pieces for the second scratch operand cover it. -/
theorem scover0_A_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x1024x2048 .f32) (x1 : Vec F S1x2048 .f32) (y : S1x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1x1.size (by sl_kernel_rfl) y

/-- What case A leaves in the second scratch operand: its pieces read back over junk. -/
def sout0_A_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x1024x2048 .f32) (x1 : Vec F S1x2048 .f32) : Vec F S1x1 .f32 :=
  VS0_1.read (Elt F) (VS0_1.writes (Elt F) VS0_1.junk (kernelRun0_A c i arg2 harg2 arg3 harg3 arg4 harg4 arg5 harg5 arg6 harg6 hc0 hc1 x0 x1).2.2.1)

/-- What case B leaves in output 2's staging buffer: its pieces read back over junk (none: a placeholder nothing consults, the window being idle and not written back at the case's points). -/
def out0_B_2 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x1024x2048 .f32) (x1 : Vec F S1x2048 .f32) (xs0 : Vec F S1x2048 .f32) (xs1 : Vec F S1x1 .f32) : Vec F S1x1x2048 .f32 :=
  VO0_2.read (Elt F) (VO0_2.writes (Elt F) VO0_2.junk (kernelRun0_B c i arg2 harg2 arg3 harg3 arg4 harg4 arg5 harg5 arg6 harg6 hc0 hc1 x0 x1 xs0 xs1).1)

/-- Case B's pieces for the first scratch operand cover it. -/
theorem scover0_B_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x1024x2048 .f32) (x1 : Vec F S1x2048 .f32) (xs0 : Vec F S1x2048 .f32) (xs1 : Vec F S1x1 .f32) (y : S1x2048.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S1x2048.size (by sl_kernel_rfl) y

/-- What case B leaves in the first scratch operand: its pieces read back over junk. -/
def sout0_B_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x1024x2048 .f32) (x1 : Vec F S1x2048 .f32) (xs0 : Vec F S1x2048 .f32) (xs1 : Vec F S1x1 .f32) : Vec F S1x2048 .f32 :=
  VS0_0.read (Elt F) (VS0_0.writes (Elt F) VS0_0.junk (kernelRun0_B c i arg2 harg2 arg3 harg3 arg4 harg4 arg5 harg5 arg6 harg6 hc0 hc1 x0 x1 xs0 xs1).2.1)

/-- Case B's pieces for the second scratch operand cover it. -/
theorem scover0_B_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x1024x2048 .f32) (x1 : Vec F S1x2048 .f32) (xs0 : Vec F S1x2048 .f32) (xs1 : Vec F S1x1 .f32) (y : S1x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S1x1.size (by sl_kernel_rfl) y

/-- What case B leaves in the second scratch operand: its pieces read back over junk. -/
def sout0_B_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x1024x2048 .f32) (x1 : Vec F S1x2048 .f32) (xs0 : Vec F S1x2048 .f32) (xs1 : Vec F S1x1 .f32) : Vec F S1x1 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-- Case C's pieces for output 2 tile its block, so they cover it. -/
theorem cover0_C_2 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x2048 .f32) (x1 : Vec F S1x2048 .f32) (xs0 : Vec F S1x2048 .f32) (xs1 : Vec F S1x1 .f32) (y : S1x1x2048.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1x1x2048.size (by sl_kernel_rfl) y

/-- What case C leaves in output 2's staging buffer: its pieces read back over junk. -/
def out0_C_2 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x2048 .f32) (x1 : Vec F S1x2048 .f32) (xs0 : Vec F S1x2048 .f32) (xs1 : Vec F S1x1 .f32) : Vec F S1x1x2048 .f32 :=
  VO0_2.read (Elt F) (VO0_2.writes (Elt F) VO0_2.junk (kernelRun0_C c i arg2 harg2 arg3 harg3 arg4 harg4 arg5 harg5 arg6 harg6 hc0 hc1 x0 x1 xs0 xs1).1)

/-- Case C's pieces for the first scratch operand cover it. -/
theorem scover0_C_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x2048 .f32) (x1 : Vec F S1x2048 .f32) (xs0 : Vec F S1x2048 .f32) (xs1 : Vec F S1x1 .f32) (y : S1x2048.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S1x2048.size (by sl_kernel_rfl) y

/-- What case C leaves in the first scratch operand: its pieces read back over junk. -/
def sout0_C_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x2048 .f32) (x1 : Vec F S1x2048 .f32) (xs0 : Vec F S1x2048 .f32) (xs1 : Vec F S1x1 .f32) : Vec F S1x2048 .f32 :=
  VS0_0.read (Elt F) (VS0_0.writes (Elt F) VS0_0.junk (kernelRun0_C c i arg2 harg2 arg3 harg3 arg4 harg4 arg5 harg5 arg6 harg6 hc0 hc1 x0 x1 xs0 xs1).2.1)

/-- Case C's pieces for the second scratch operand cover it. -/
theorem scover0_C_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x2048 .f32) (x1 : Vec F S1x2048 .f32) (xs0 : Vec F S1x2048 .f32) (xs1 : Vec F S1x1 .f32) (y : S1x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S1x1.size (by sl_kernel_rfl) y

/-- What case C leaves in the second scratch operand: its pieces read back over junk. -/
def sout0_C_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x2048 .f32) (x1 : Vec F S1x2048 .f32) (xs0 : Vec F S1x2048 .f32) (xs1 : Vec F S1x1 .f32) : Vec F S1x1 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

/-! ## What the output and the scratch operands hold after each point -/

/-- THE ACCUMULATION. What output 2's staging buffer and the two scratch operands hold after the body at position
    `n`: the case the closed forms select at `n`, run at the point's memrefs and input blocks, the scratch operands at
    what this leaves at `n - 1`. -/
def outsAt0 (c : Dev nD) : (n : ℕ) → n < cfg0.N → Vec F S1x1x2048 .f32 × Vec F S1x2048 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer at anything; afterwards
    the two scratch operands at what the point before left in them, the other scoped buffers at anything, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest8 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the scratch operands at that point's contents. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest8 (F := F) c) ∗ (∃ r, prngReg c r)) := rfl

/-- Before a point that is not the first: the scratch operands at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest8 (F := F) c) ∗ (∃ r, prngReg c r)) := by
  cases n with
  | zero => exact absurd rfl hz
  | succ n => rfl

/-! ## The pipeline's proof data -/

/-- The proof data of the pipeline on core `c`: the arrays as the region finds them; after the body at point `t`
    each input's buffer at its block and the output's at its component of `outsAt0`; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in;
    so that case's run applies; the invariant hands the body the two scratch operands at what the point before left
    (at anything at the first point), the other scoped buffers and the generator register at some state, and takes
    the scratch operands back at this point's contents; the core owes nothing throughout. -/
theorem sound_body0 (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _)
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, HS1, HR⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _)
            iexact HR
          iexact Hg
        isplitl [Ho]; · iexact Ho
        isplitl [H0]; · iexact H0
        isplitl [H1]; · iexact H1
        iexists _; iexact H2
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0 sout0_C_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩⟩
        iapply ((kernelRun0_C c (grid0.coords t) _ _ _ _ _ _ _ _ _ _ (fun h => h0 ((hcond0_0 t).mp h)) ((hcond0_1 t).mpr h1) (iblk0 V c 0 t) (iblk0 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the scratch operands' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

/-! ## The value-facing equations -/

theorem hz2 : (![0, 0] : Fin 2 → ℕ) = fun _ => 0 := by funext a; fin_cases a <;> rfl
theorem hz3 : (![0, 0, 0] : Fin 3 → ℕ) = fun _ => 0 := by funext a; fin_cases a <;> rfl

/-- Case A leaves in the first scratch operand the update of the reset value by this point's blocks. -/
theorem sout0_A_0_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i) (x0 : Vec F S1x1024x2048 .f32) (x1 : Vec F S1x2048 .f32) :
    sout0_A_0 c i arg2 harg2 arg3 harg3 arg4 harg4 arg5 harg5 arg6 harg6 hc0 hc1 x0 x1 = k0_pay5 x0 x1 k0_pay1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x2048) hz2]
  simp only [View.readAt_eq_ld, harg2.read_unread, harg3.read_unread, harg5.read_unread, harg6.read_unread, View.ld_unit_zero (S := S1x1024x2048) hz3, View.ld_unit_zero (S := S1x2048) hz2, View.ld_unit_zero (S := S1x1) hz2, View.readCov_unit_zero (S := S1x2048) _ hz2, View.readCov_unit_zero (S := S1x1) _ hz2]

/-- Case A leaves in the second scratch operand the update of the reset value by this point's blocks. -/
theorem sout0_A_1_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i) (x0 : Vec F S1x1024x2048 .f32) (x1 : Vec F S1x2048 .f32) :
    sout0_A_1 c i arg2 harg2 arg3 harg3 arg4 harg4 arg5 harg5 arg6 harg6 hc0 hc1 x0 x1 = k0_pay6 x0 x1 k0_pay2 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1x1) hz2]
  simp only [View.readAt_eq_ld, harg2.read_unread, harg3.read_unread, harg5.read_unread, harg6.read_unread, View.ld_unit_zero (S := S1x1024x2048) hz3, View.ld_unit_zero (S := S1x2048) hz2, View.ld_unit_zero (S := S1x1) hz2, View.readCov_unit_zero (S := S1x2048) _ hz2, View.readCov_unit_zero (S := S1x1) _ hz2]

/-- Case B leaves in the first scratch operand the update of what it held by this point's blocks. -/
theorem sout0_B_0_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i) (x0 : Vec F S1x1024x2048 .f32) (x1 : Vec F S1x2048 .f32) (xs0 : Vec F S1x2048 .f32) (xs1 : Vec F S1x1 .f32) :
    sout0_B_0 c i arg2 harg2 arg3 harg3 arg4 harg4 arg5 harg5 arg6 harg6 hc0 hc1 x0 x1 xs0 xs1 = k0_pay5 x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero (S := S1x2048) hz2]
  simp only [View.readAt_eq_ld, harg2.read_unread, harg3.read_unread, harg5.read_unread, harg6.read_unread, View.ld_unit_zero (S := S1x1024x2048) hz3, View.ld_unit_zero (S := S1x2048) hz2, View.ld_unit_zero (S := S1x1) hz2, View.readCov_unit_zero (S := S1x2048) _ hz2, View.readCov_unit_zero (S := S1x1) _ hz2]

/-- Case B leaves in the second scratch operand the update of what it held by this point's blocks. -/
theorem sout0_B_1_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i) (x0 : Vec F S1x1024x2048 .f32) (x1 : Vec F S1x2048 .f32) (xs0 : Vec F S1x2048 .f32) (xs1 : Vec F S1x1 .f32) :
    sout0_B_1 c i arg2 harg2 arg3 harg3 arg4 harg4 arg5 harg5 arg6 harg6 hc0 hc1 x0 x1 xs0 xs1 = k0_pay6 x0 x1 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero (S := S1x1) hz2]
  simp only [View.readAt_eq_ld, harg2.read_unread, harg3.read_unread, harg5.read_unread, harg6.read_unread, View.ld_unit_zero (S := S1x1024x2048) hz3, View.ld_unit_zero (S := S1x2048) hz2, View.ld_unit_zero (S := S1x1) hz2, View.readCov_unit_zero (S := S1x2048) _ hz2, View.readCov_unit_zero (S := S1x1) _ hz2]

/-- Case C leaves in the first scratch operand the update of what it held by this point's blocks. -/
theorem sout0_C_0_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i) (x0 : Vec F S1x1024x2048 .f32) (x1 : Vec F S1x2048 .f32) (xs0 : Vec F S1x2048 .f32) (xs1 : Vec F S1x1 .f32) :
    sout0_C_0 c i arg2 harg2 arg3 harg3 arg4 harg4 arg5 harg5 arg6 harg6 hc0 hc1 x0 x1 xs0 xs1 = k0_pay5 x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero (S := S1x2048) hz2]
  simp only [View.readAt_eq_ld, harg2.read_unread, harg3.read_unread, harg5.read_unread, harg6.read_unread, View.ld_unit_zero (S := S1x1024x2048) hz3, View.ld_unit_zero (S := S1x2048) hz2, View.ld_unit_zero (S := S1x1) hz2, View.readCov_unit_zero (S := S1x2048) _ hz2, View.readCov_unit_zero (S := S1x1) _ hz2]

/-- Case C leaves in the second scratch operand the update of what it held by this point's blocks. -/
theorem sout0_C_1_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i) (x0 : Vec F S1x1024x2048 .f32) (x1 : Vec F S1x2048 .f32) (xs0 : Vec F S1x2048 .f32) (xs1 : Vec F S1x1 .f32) :
    sout0_C_1 c i arg2 harg2 arg3 harg3 arg4 harg4 arg5 harg5 arg6 harg6 hc0 hc1 x0 x1 xs0 xs1 = k0_pay6 x0 x1 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero (S := S1x1) hz2]
  simp only [View.readAt_eq_ld, harg2.read_unread, harg3.read_unread, harg5.read_unread, harg6.read_unread, View.ld_unit_zero (S := S1x1024x2048) hz3, View.ld_unit_zero (S := S1x2048) hz2, View.ld_unit_zero (S := S1x1) hz2, View.readCov_unit_zero (S := S1x2048) _ hz2, View.readCov_unit_zero (S := S1x1) _ hz2]

/-- Case C stores into the output the quotient computed from the two updated scratch operands. -/
theorem out0_C_2_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i) (x0 : Vec F S1x1024x2048 .f32) (x1 : Vec F S1x2048 .f32) (xs0 : Vec F S1x2048 .f32) (xs1 : Vec F S1x1 .f32) :
    out0_C_2 c i arg2 harg2 arg3 harg3 arg4 harg4 arg5 harg5 arg6 harg6 hc0 hc1 x0 x1 xs0 xs1 = k0_pay7 (k0_pay5 x0 x1 xs0) (k0_pay6 x0 x1 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero (S := S1x1x2048) hz3]
  simp only [View.readAt_eq_ld, harg2.read_unread, harg3.read_unread, harg5.read_unread, harg6.read_unread, View.ld_unit_zero (S := S1x1024x2048) hz3, View.ld_unit_zero (S := S1x2048) hz2, View.ld_unit_zero (S := S1x1) hz2, View.readCov_unit_zero (S := S1x2048) _ hz2, View.readCov_unit_zero (S := S1x1) _ hz2]

/-- At a point that resets, the scratch operands end at the update of the reset values by the point's blocks. -/
theorem outsAt0_first (c : Dev nD) (t : Fin cfg0.N) (h : t.val % 8 = 0) : (outsAt0 V c t.val t.isLt).2 = (k0_pay5 (iblk0 V c 0 t) (iblk0 V c 1 t) k0_pay1, k0_pay6 (iblk0 V c 0 t) (iblk0 V c 1 t) k0_pay2) := by
  have h1 : ¬t.val % 8 = 7 := by omega
  rw [outsAt0_A V c t h h1]
  dsimp only
  exact congrArg₂ Prod.mk
    (sout0_A_0_eq c (grid0.coords t) (ms0_0 t) (hs0_0 t) (ms0_1 t) (hs0_1 t) (ms0_2 t) (hs0_2 t) scM0_0 (Memref.isWhole_whole _) scM0_1 (Memref.isWhole_whole _) ((hcond0_0 t).mpr h) (fun h => h1 ((hcond0_1 t).mp h)) (iblk0 V c 0 t) (iblk0 V c 1 t))
    (sout0_A_1_eq c (grid0.coords t) (ms0_0 t) (hs0_0 t) (ms0_1 t) (hs0_1 t) (ms0_2 t) (hs0_2 t) scM0_0 (Memref.isWhole_whole _) scM0_1 (Memref.isWhole_whole _) ((hcond0_0 t).mpr h) (fun h => h1 ((hcond0_1 t).mp h)) (iblk0 V c 0 t) (iblk0 V c 1 t))

/-- At any other point, the scratch operands end at the update of what the point before left by the point's blocks. -/
theorem outsAt0_next (c : Dev nD) (t : Fin cfg0.N) (h : t.val % 8 ≠ 0) : (outsAt0 V c t.val t.isLt).2 = (k0_pay5 (iblk0 V c 0 t) (iblk0 V c 1 t) (outsAt0 V c (t.val - 1) (by omega)).2.1, k0_pay6 (iblk0 V c 0 t) (iblk0 V c 1 t) (outsAt0 V c (t.val - 1) (by omega)).2.2) := by
  have h0 : ¬t.val % 8 = 0 := h
  by_cases h1 : t.val % 8 = 7
  · rw [outsAt0_C V c t h0 h1]
    dsimp only
    exact congrArg₂ Prod.mk
      (sout0_C_0_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
      (sout0_C_1_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
  · rw [outsAt0_B V c t h0 h1]
    dsimp only
    exact congrArg₂ Prod.mk
      (sout0_B_0_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
      (sout0_B_1_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)

/-- At a point that stores the output, it is the quotient computed from the scratch operands as that point leaves them. -/
theorem outsAt0_last (c : Dev nD) (t : Fin cfg0.N) (h : t.val % 8 = 7) : (outsAt0 V c t.val t.isLt).1 = k0_pay7 (outsAt0 V c t.val t.isLt).2.1 (outsAt0 V c t.val t.isLt).2.2 := by
  have h0 : ¬t.val % 8 = 0 := by omega
  rw [outsAt0_C V c t h0 h]
  dsimp only
  rw [sout0_C_0_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
    sout0_C_1_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2]
  exact out0_C_2_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2

end Pool

end Cert.KernelIdeal.Hand

end
-- ==== Proof.KI.MainFrame.lean ====
/- The main kernel's frame half, at any float model: at a PARAMETER `V` (the TensorCore's buffer contents when the
   region is entered) each window's block at a point, what the body leaves in the output window's buffer from the four
   input blocks, the body's triple, the pipeline's proof data and its body obligation. -/
import proofs.«111059_j9234179686589_1_alg».proof.Proof.Gen.KernelIdeal.Launch
import proofs.«111059_j9234179686589_1_alg».proof.Proof.Gen.KernelIdeal.Skeleton
import proofs.«111059_j9234179686589_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- membership in a rectangle of long extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s and whose body leaves the block in place: unfetched, the index has not moved; the
    window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s and whose body leaves the block in place: unfetched, the index has not moved; the
    window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s and whose body leaves the block in place: unfetched, the index has not moved; the
    window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s and whose body leaves the block in place: unfetched, the index has not moved; the
    window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1x512x2048 := Rect.unit (s := S1x512x2048) ![0, 0, 0] S1x512x2048.size inb_S1x512x2048_S1x512x2048_0_0_0
abbrev r1_1 : Rect S128x2048 := Rect.unit (s := S128x2048) ![0, 0] S128x2048.size inb_S128x2048_S128x2048_0_0
abbrev r1_2 : Rect S1x25x128 := Rect.unit (s := S1x25x128) ![0, 0, 0] S1x25x128.size inb_S1x25x128_S1x25x128_0_0_0
abbrev r1_3 : Rect S2048x128 := Rect.unit (s := S2048x128) ![0, 0] S2048x128.size inb_S2048x128_S2048x128_0_0

/-- The accesses' offsets are all zero, on two axes and on three. -/
theorem off2_zero : (![0, 0] : Fin 2 → Nat) = fun _ => 0 := funext fun a => by fin_cases a <;> rfl
theorem off3_zero : (![0, 0, 0] : Fin 3 → Nat) = fun _ => 0 := funext fun a => by fin_cases a <;> rfl

/-! ## What the body leaves in the output window's buffer -/

/-- Window 4's staging buffer after the body, from the input windows' blocks: its one store of the whole block, the
    payload over what the four loads read. -/
def out1_4 (x0 : Vec F S1x512x2048 .f32) (x1 : Vec F S128x2048 .f32) (x2 : Vec F S1x25x128 .f32) (x3 : Vec F S2048x128 .f32) : Vec F S1x512x2048 .f32 :=
  View.canon [⟨r1_0, k1_pay1 (View.ld x0 r1_0) (View.ld x1 r1_1) (View.ld x2 r1_2) (View.ld x3 r1_3)⟩]

/-- The one store covers the buffer. -/
theorem cover1_4 (p0 : Vec F S1x512x2048 .f32) (y : S1x512x2048.Idx) :
    ∃ pc ∈ ([⟨r1_0, p0⟩] : List (View.Piece (Elt F) S1x512x2048 .f32)), y ∈ pc.1.set :=
  ⟨_, List.mem_singleton_self _, View.mem_set_unit_zero off3_zero inb_S1x512x2048_S1x512x2048_0_0_0 y⟩

/-- Every access being of a whole buffer at zero offsets, the loads read the blocks and the store leaves its payload:
    the output buffer holds the payload of the four blocks. -/
theorem out1_4_eq (x0 : Vec F S1x512x2048 .f32) (x1 : Vec F S128x2048 .f32) (x2 : Vec F S1x25x128 .f32) (x3 : Vec F S2048x128 .f32) :
    out1_4 x0 x1 x2 x3 = k1_pay1 x0 x1 x2 x3 := by
  unfold out1_4
  rw [View.canon_unit_zero off3_zero]
  simp only [View.ld_unit_zero (S := S1x512x2048) off3_zero, View.ld_unit_zero (S := S128x2048) off2_zero,
    View.ld_unit_zero (S := S1x25x128) off3_zero, View.ld_unit_zero (S := S2048x128) off2_zero]

/-! ## The body's triple -/

set_option maxHeartbeats 1000000 in
/-- The kernel body on whole staging memrefs, the inputs' at read contents and the output's at anything, runs to the
    continuation holding the inputs' as they were and the output's at `out1_4` of the inputs'. -/
theorem sound_kernel1 (c : Dev nD) (E : Set ℕ) (i : grid1.Coords)
    (arg2 : Memref sig .tc .vmem S1x512x2048 .f32) (harg2 : arg2.IsWhole) (arg3 : Memref sig .tc .vmem S128x2048 .f32) (harg3 : arg3.IsWhole)
    (arg4 : Memref sig .tc .vmem S1x25x128 .f32) (harg4 : arg4.IsWhole) (arg5 : Memref sig .tc .vmem S2048x128 .f32) (harg5 : arg5.IsWhole)
    (arg6 : Memref sig .tc .vmem S1x512x2048 .f32) (harg6 : arg6.IsWhole)
    (x0 : Vec F S1x512x2048 .f32) (x1 : Vec F S128x2048 .f32) (x2 : Vec F S1x25x128 .f32) (x3 : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the main kernel's pipeline on core `c`: the arrays as the region finds them (`V`); after the
    body at point `t` each input's buffer at its block and the output's at `out1_4` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Run.lean ====
import proofs.«111059_j9234179686589_1_alg».proof.Proof.KI.PoolFrame
import proofs.«111059_j9234179686589_1_alg».proof.Proof.KI.MainFrame
import Idealize.ShloMosaic.Lib.Pipeline.RegionsLoop
import Idealize.ShloMosaic.Lib.Pipeline.FrameSuffix

/-! The run of @main: the pooling region, the host stretch that publishes and normalises the pool and
scales the modulation weights, the attention region, and the host stretch that appends the summary to the
cache. Between two items every unscoped buffer of the core is held at contents named here: the launch
memory, then each region's arrays at what its write-backs leave and each host stretch applied. Every weakly
fair execution terminates with every unscoped buffer at the last of these contents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: what the pooling region is entered from. -/
abbrev W0 : Dev nD → Valuation τ sig (Elt F) := fun c b => (s₀ m ρ).mem ((c : Dev nD), b)
/-- The same read at the TensorCore's references. -/
abbrev Vin0 : (c : Dev nD) → (b : Ref sig .tc) → Buf (Elt F) ((c : Thread nD τ).loc b) := fun c b => W0 m ρ c b
/-- After the pooling region: its arrays at what its write-backs leave, every other buffer as entered. -/
def W1 (c : Dev nD) : Valuation τ sig (Elt F) :=
  Pipeline.withArrays spec0 c (W0 m ρ c) fun w => (dat0 (Vin0 m ρ) c).arrAt w cfg0.N
theorem W1_arr (c : Dev nD) (w : Fin cfg0.W) :
    W1 m ρ c (Proc.devRef .tc (Pipeline.arrRef spec0 w)) = (dat0 (Vin0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vout0 : (c : Dev nD) → (b : Ref sig .tc) → Buf (Elt F) ((c : Thread nD τ).loc b) := fun c b => W1 m ρ c b
theorem hF0 (c : Dev nD) (w : Fin cfg0.W) : (dat0 (Vin0 m ρ) c).arrAt w cfg0.N = Vout0 m ρ c (Pipeline.arrRef spec0 w) :=
  (W1_arr m ρ c w).symm
theorem hrest0 (c : Dev nD) : ∀ b, b ∉ Finset.univ.image (Pipeline.arrRef spec0) → Vout0 m ρ c b = Vin0 m ρ c b :=
  fun b hb => W1_of_ne m ρ c b fun w e => hb (Finset.mem_image.mpr ⟨w, Finset.mem_univ _, e⟩)

/-- After the first host stretch: what the attention region is entered from. -/
abbrev W2 : Dev nD → Valuation τ sig (Elt F) := fun c => StableHlo.after hostOps1 (W1 m ρ c)
abbrev Vin1 : (c : Dev nD) → (b : Ref sig .tc) → Buf (Elt F) ((c : Thread nD τ).loc b) := fun c b => W2 m ρ c b
/-- After the attention region. -/
def W3 (c : Dev nD) : Valuation τ sig (Elt F) :=
  Pipeline.withArrays spec1 c (W2 m ρ c) fun w => (dat1 (Vin1 m ρ) c).arrAt w cfg1.N
theorem W3_arr (c : Dev nD) (w : Fin cfg1.W) :
    W3 m ρ c (Proc.devRef .tc (Pipeline.arrRef spec1 w)) = (dat1 (Vin1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vout1 : (c : Dev nD) → (b : Ref sig .tc) → Buf (Elt F) ((c : Thread nD τ).loc b) := fun c b => W3 m ρ c b
theorem hF1 (c : Dev nD) (w : Fin cfg1.W) : (dat1 (Vin1 m ρ) c).arrAt w cfg1.N = Vout1 m ρ c (Pipeline.arrRef spec1 w) :=
  (W3_arr m ρ c w).symm
theorem hrest1 (c : Dev nD) : ∀ b, b ∉ Finset.univ.image (Pipeline.arrRef spec1) → Vout1 m ρ c b = Vin1 m ρ c b :=
  fun b hb => W3_of_ne m ρ c b fun w e => hb (Finset.mem_image.mpr ⟨w, Finset.mem_univ _, e⟩)
/-- After the second host stretch: the contents at the return. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Neither host stretch allocates a buffer. -/
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

/-- What the launch hands the pooling region makes the invariant its first point starts from. -/
theorem PhiA0_in (c : Dev nD) :
    (iprop((∃ r, prngReg c r) ∗ Pipeline.prefHeld (pcfgs (F := F) 0).pre c (fun _ => fullShare) (adm (F := F) 0).1 ∗ Pipeline.scopedRest spec0 c) : sProp 𝕄)
      ⊢ Pipeline.ΦA spec0 c := by
  unfold Pipeline.ΦA
  iintro ⟨Hp, -, Hr⟩
  isplitl [Hr]; · iexact Hr
  iexact Hp
/-- And the invariant gives the same back. -/
theorem PhiA0_out (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

set_option backward.isDefEq.respectTransparency.types false in
/-- The pooling region over the thread state: entered from every unscoped buffer at the launch contents, left with
    its arrays at what its write-backs leave; the generator register and the scoped buffers into its invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun w => (A_eq0 (Vin0 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA0_in c).trans (hin0 (Vin0 m ρ) c)
  hout c := by
    rw [Pipeline.ownSems0_none]
    exact (hout0 (Vin0 m ρ) c).trans (PhiA0_out c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer after the first host stretch, left
    with its arrays at what its write-backs leave. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun w => (A_eq1 (Vin1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub fresh1 (W1 m ρ)),
    .region (reg1 m ρ),
    .host (hseg hostOps2 hostOps2_sub fresh2 (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final memory holds every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => show iprop(StableHlo.held (c : Thread nD τ) (Pipeline.ucRefs τ sig) (W4 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KI.Frame.lean ====
import proofs.«111059_j9234179686589_1_alg».proof.Proof.KI.Run
import proofs.«111059_j9234179686589_1_alg».proof.Proof.Gen.KernelIdeal.Regions

/-! Every argument array reaches the return holding its launch contents: the contents at each boundary
are read back, item by item, to the launch memory. With the run this is the program's frame. -/

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- `main_arg0` reaches the return as launched: no host stretch writes it and a region only reads it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := (W3_arr m ρ c 0).trans (((dat1 (Vin1 m ρ) c).arrAt_in 0 rfl _).trans (A_eq1 (Vin1 m ρ) c 0))
    _ = W1 m ρ c (Proc.devRef .tc main_arg0) := StableHlo.after_of_writes_sub hostOps1 _ hostOps1_writes (by decide)
    _ = W0 m ρ c (Proc.devRef .tc main_arg0) := (W1_arr m ρ c 0).trans (((dat0 (Vin0 m ρ) c).arrAt_in 0 rfl _).trans (A_eq0 (Vin0 m ρ) c 0))
    _ = m ((c : Thread nD τ).loc main_arg0) := rfl

/-- `main_arg1` reaches the return as launched: no host stretch writes it and a region only reads it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl

/-- `main_arg2` reaches the return as launched: no host stretch writes it and a region only reads it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl

/-- `main_arg3` reaches the return as launched: no host stretch writes it and a region only reads it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := (W3_arr m ρ c 1).trans (((dat1 (Vin1 m ρ) c).arrAt_in 1 rfl _).trans (A_eq1 (Vin1 m ρ) c 1))
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

/-- `main_arg4` reaches the return as launched: no host stretch writes it and a region only reads it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

/-- `main_arg5` reaches the return as launched: no host stretch writes it and a region only reads it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := (W1_arr m ρ c 1).trans (((dat0 (Vin0 m ρ) c).arrAt_in 1 rfl _).trans (A_eq0 (Vin0 m ρ) c 1))
    _ = m ((c : Thread nD τ).loc main_arg5) := rfl

/-- `main_arg6` reaches the return as launched: no host stretch writes it and a region only reads it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := StableHlo.after_of_writes_sub hostOps1 _ hostOps1_writes (by decide)
    _ = W0 m ρ c (Proc.devRef .tc main_arg6) := W1_of_ne m ρ c main_arg6 (by decide)
    _ = m ((c : Thread nD τ).loc main_arg6) := rfl

/-- THE FRAME at any float instance: every weakly fair execution of @main terminates, nothing faulting, and every
    argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_main m ρ)

end Cert.KernelIdeal.Hand

end
-- ==== Proof.Spec.lean ====
import Idealize.ShloMosaic.PureOps.Ideal
import Idealize.ShloMosaic.Lib.ValueIdx

/-! The mathematics both programs compute, over the extended reals, index by index.

Inputs: x [4,8192,2048], cache [4,24,128], wp [128,2048] (publish), wq [128,2048] (query),
wm [2048,128] (modulate), wg [1,2048] (pool gate), gt [1] (gate).

* g(b,s)    = σ(Σ_d x(b,s,d)·wg(0,d))                         the pooling weight of row s
* xp(b,d)   = (Σ_s x(b,s,d)·g(b,s)) / (Σ_s g(b,s) + ε_pool)   the attentive pool
* v(b,o)    = Σ_d xp(b,d)·wp(o,d)                             the published vector
* sm(b,o)   = v(b,o) / max(√(Σ_o v(b,o)²), ε_norm)            its unit normalisation
* aug(b,l,o) = sm(b,o) for l = 0, cache(b,l-1,o) for l ≥ 1
* q(b,s,o)  = Σ_d x(b,s,d)·wq(o,d)
* sc(b,s,l) = (Σ_o q(b,s,o)·aug(b,l,o))·scale
* mx(b,s)   = max(-∞, max_l sc(b,s,l));  e = exp(sc - mx);  at = e / Σ_l e
* ga(b,s,o) = Σ_l at(b,s,l)·aug(b,l,o)
* out(b,s,d) = x(b,s,d) + Σ_o ga(b,s,o)·(wm(d,o)·σ(gt))        (the kernel's arrangement)
*            = x(b,s,d) + (Σ_o ga(b,s,o)·wm(d,o))·σ(gt)        (the reference's)
* cache'(b,l,o) = cache(b,l,o) for l < 24, sm(b,o) for l = 24. -/

noncomputable section

namespace Cert.Spec

open Idealize.ShloMosaic Idealize.ShloMosaic.ValueIdx

abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- ε of the pool's denominator, the float nearest 1e-6. -/
def epsPool : EReal := Ideal.ofBits .f32 0x358637BD#32
/-- ε of the normalisation, the float nearest 1e-12. -/
def epsNorm : EReal := Ideal.ofBits .f32 0x2B8CBCCC#32
/-- The attention scale, the float nearest 1/√128 (the same word in both programs). -/
def scale : EReal := Ideal.ofBits .f32 0x3DB504F3#32
/-- The float -∞ the row maximum starts from. -/
def negInf : EReal := Ideal.ofBits .f32 0xFF800000#32

/-- The pooling weight of row s of batch b. -/
def g (x : A3 4 8192 2048) (wg : A2 1 2048) (b : Fin 4) (s : Fin 8192) : EReal :=
  Ideal.logistic (∑ d : Fin 2048, x (ix3 b s d) * wg (ix2 0 d))

/-- The attentive pool [4,2048]. -/
def xp (x : A3 4 8192 2048) (wg : A2 1 2048) (b : Fin 4) (d : Fin 2048) : EReal :=
  Ideal.div (∑ s : Fin 8192, x (ix3 b s d) * g x wg b s) ((∑ s : Fin 8192, g x wg b s) + epsPool)

/-- The pool as the [4,1,2048] array the first kernel writes. -/
def xpArr (x : A3 4 8192 2048) (wg : A2 1 2048) : A3 4 1 2048 := fun j => xp x wg (j 0) (j 2)

/-- The published vector [4,128] of a pooled [4,2048]. -/
def pub (p : Fin 4 → Fin 2048 → EReal) (wp : A2 128 2048) (b : Fin 4) (o : Fin 128) : EReal :=
  ∑ d : Fin 2048, p b d * wp (ix2 o d)

/-- A [4,128] matrix with each row divided by max(its length, ε_norm). -/
def unitRows (v : Fin 4 → Fin 128 → EReal) (b : Fin 4) (o : Fin 128) : EReal :=
  Ideal.div (v b o) (max (Ideal.sqrt (∑ o' : Fin 128, v b o' * v b o')) epsNorm)

/-- The layer's summary [4,128]. -/
def sm (x : A3 4 8192 2048) (wg : A2 1 2048) (wp : A2 128 2048) (b : Fin 4) (o : Fin 128) : EReal :=
  unitRows (pub (xp x wg) wp) b o

/-- The summary put in front of the cache: [4,25,128]. -/
def augOf (s : Fin 4 → Fin 128 → EReal) (cache : A3 4 24 128) : A3 4 25 128 := fun j =>
  if h : (j 1).val = 0 then s (j 0) (j 2) else cache (ix3 (j 0) ⟨(j 1).val - 1, by have := (j 1).isLt; simp at this ⊢; omega⟩ (j 2))

/-- The cache with the summary appended: [4,25,128]. -/
def cacheOf (s : Fin 4 → Fin 128 → EReal) (cache : A3 4 24 128) : A3 4 25 128 := fun j =>
  if h : (j 1).val < 24 then cache (ix3 (j 0) ⟨(j 1).val, h⟩ (j 2)) else s (j 0) (j 2)

/-- σ(gate). -/
def sg (gt : A1 1) : EReal := Ideal.logistic (gt (ix1 0))

/-- The query [4,8192,128]. -/
def q (x : A3 4 8192 2048) (wq : A2 128 2048) (b : Fin 4) (s : Fin 8192) (o : Fin 128) : EReal :=
  ∑ d : Fin 2048, x (ix3 b s d) * wq (ix2 o d)

/-- The scaled scores [4,8192,25] against an augmented bus. -/
def sc (x : A3 4 8192 2048) (wq : A2 128 2048) (aug : A3 4 25 128) (b : Fin 4) (s : Fin 8192) (l : Fin 25) : EReal :=
  (∑ o : Fin 128, q x wq b s o * aug (ix3 b l o)) * scale

/-- The row maximum the softmax subtracts, started from -∞ and clamped below by -∞ once more. -/
def mx (x : A3 4 8192 2048) (wq : A2 128 2048) (aug : A3 4 25 128) (b : Fin 4) (s : Fin 8192) : EReal :=
  max negInf (Finset.univ.fold max negInf fun l : Fin 25 => sc x wq aug b s l)

/-- exp(score - row maximum). -/
def ex (x : A3 4 8192 2048) (wq : A2 128 2048) (aug : A3 4 25 128) (b : Fin 4) (s : Fin 8192) (l : Fin 25) : EReal :=
  Ideal.exp (sc x wq aug b s l - mx x wq aug b s)

/-- The attention weights. -/
def at_ (x : A3 4 8192 2048) (wq : A2 128 2048) (aug : A3 4 25 128) (b : Fin 4) (s : Fin 8192) (l : Fin 25) : EReal :=
  Ideal.div (ex x wq aug b s l) (∑ l' : Fin 25, ex x wq aug b s l')

/-- The gathered bus vector [4,8192,128]. -/
def ga (x : A3 4 8192 2048) (wq : A2 128 2048) (aug : A3 4 25 128) (b : Fin 4) (s : Fin 8192) (o : Fin 128) : EReal :=
  ∑ l : Fin 25, at_ x wq aug b s l * aug (ix3 b l o)

/-- The output with the modulation weights scaled FIRST (what the second kernel computes from a scaled wm). -/
def outK (x : A3 4 8192 2048) (wq : A2 128 2048) (aug : A3 4 25 128) (wms : A2 2048 128) : A3 4 8192 2048 := fun j =>
  x j + ∑ o : Fin 128, ga x wq aug (j 0) (j 1) o * wms (ix2 (j 2) o)

/-- The output with the modulation scaled LAST (the reference). -/
def outR (x : A3 4 8192 2048) (wq : A2 128 2048) (aug : A3 4 25 128) (wm : A2 2048 128) (c : EReal) : A3 4 8192 2048 := fun j =>
  x j + (∑ o : Fin 128, ga x wq aug (j 0) (j 1) o * wm (ix2 (j 2) o)) * c

/-- The modulation weights times a scalar. -/
def scaled (wm : A2 2048 128) (c : EReal) : A2 2048 128 := fun j => wm j * c

end Cert.Spec

end
-- ==== Proof.PoolPay.lean ====
import proofs.«111059_j9234179686589_1_alg».proof.Proof.Gen.KernelIdeal.Skeleton
import proofs.«111059_j9234179686589_1_alg».proof.Proof.Spec
import Idealize.ShloMosaic.Lib.ValueLayout
import Idealize.ShloMosaic.PureOps.Ideal.Laws

/-! The pool kernel's payloads read at an index, over the extended reals.

One tile of 1024 rows of x (a [1,1024,2048] block) and the gate weights wg (a [1,2048] row) give, row by row,
the pooling weight σ(Σ_d x(r,d)·wg(d)); the two running sums take, lane by lane, Σ_r x(r,d)·weight(r) and
Σ_r weight(r); the last step divides the first running sum by the second plus ε. -/

noncomputable section

namespace Cert.KernelIdeal.Hand

open Idealize.ShloMosaic Idealize.ShloMosaic.ValueIdx
open Cert.KernelIdeal Cert.KernelIdeal.Gen

/-! ## Column forms of the layout operations -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three sums -/

/-- The sum along the lanes of a [1024, 2048] tile, at row `r`. -/
theorem sum_lanes_apply (src : FVec Ideal S1024x2048 .f32) (r : Fin 1024) :
    multiReduction (F := Ideal) .add [1] S1024 src 0x00000000#32 reduces_S1024x2048_S1024 (.inl rfl) rfl (ix1 r)
      = ∑ d : Fin 2048, src (ix2 r d) := by
  refine (Ideal.multiReduction_add_single src 0x00000000#32 reduces_S1024x2048_S1024 (.inl rfl) rfl (ix1 r)).trans ?_
  show ∑ d : Fin 2048, src (reduces_S1024x2048_S1024.lift (ix1 r) d) = _
  refine Finset.sum_congr rfl fun d _ => congrArg src ?_
  funext a
  apply Fin.ext
  match a with
  | ⟨0, _⟩ => rfl
  | ⟨1, _⟩ => rfl

/-- The sum along the rows of a [1024, 2048] tile, at lane `d`. -/
theorem sum_rows_apply (src : FVec Ideal S1024x2048 .f32) (d : Fin 2048) :
    multiReduction (F := Ideal) .add [0] S2048 src 0x00000000#32 reduces_S1024x2048_S2048 (.inl rfl) rfl (ix1 d)
      = ∑ r : Fin 1024, src (ix2 r d) := by
  refine (Ideal.multiReduction_add_single src 0x00000000#32 reduces_S1024x2048_S2048 (.inl rfl) rfl (ix1 d)).trans ?_
  show ∑ r : Fin 1024, src (reduces_S1024x2048_S2048.lift (ix1 d) r) = _
  refine Finset.sum_congr rfl fun r _ => congrArg src ?_
  funext a
  apply Fin.ext
  match a with
  | ⟨0, _⟩ => rfl
  | ⟨1, _⟩ => rfl

/-- The sum of a [1024, 1] column. -/
theorem sum_col_apply (src : FVec Ideal S1024x1 .f32) (u : Fin 1) :
    multiReduction (F := Ideal) .add [0] S1 src 0x00000000#32 reduces_S1024x1_S1 (.inl rfl) rfl (ix1 u)
      = ∑ r : Fin 1024, src (ix2 r (0 : Fin 1)) := by
  refine (Ideal.multiReduction_add_single src 0x00000000#32 reduces_S1024x1_S1 (.inl rfl) rfl (ix1 u)).trans ?_
  show ∑ r : Fin 1024, src (reduces_S1024x1_S1.lift (ix1 u) r) = _
  refine Finset.sum_congr rfl fun r _ => congrArg src ?_
  funext a
  apply Fin.ext
  match a with
  | ⟨0, _⟩ => rfl
  | ⟨1, _⟩ => show u.val = 0; omega

/-! ## The payloads -/

/-- The tile without its leading unit axis. -/
theorem pay3_apply (v3 : Vec Ideal S1x1024x2048 .f32) (r : Fin 1024) (d : Fin 2048) :
    k0_pay3 v3 (ix2 r d) = v3 (ix3 (0 : Fin 1) r d) :=
  shapeCast_1ab_ab_apply v3 shapeCasts_S1x1024x2048_S1024x2048 r d

/-- The pooling weight of row `r` of the tile. -/
theorem pay4_apply (v3 : Vec Ideal S1x1024x2048 .f32) (v5 : Vec Ideal S1x2048 .f32) (r : Fin 1024) :
    k0_pay4 v3 v5 (ix2 r (0 : Fin 1))
      = Ideal.logistic (∑ d : Fin 2048, v3 (ix3 (0 : Fin 1) r d) * v5 (ix2 (0 : Fin 1) d)) := by
  unfold k0_pay4
  dsimp only
  refine congrArg Ideal.logistic ?_
  refine (shapeCast_a_a1_apply _ shapeCasts_S1024_S1024x1 r 0).trans ?_
  refine (sum_lanes_apply _ r).trans ?_
  refine Finset.sum_congr rfl fun d _ => ?_
  show k0_pay3 v3 (ix2 r d) * broadcastTo S1024x2048 v5 broadcasts_S1x2048_S1024x2048 (ix2 r d) = _
  rw [pay3_apply, broadcastTo_1b_ab_apply]

/-- The first running sum after one more tile, at lane `d`. -/
theorem pay5_apply (v3 : Vec Ideal S1x1024x2048 .f32) (v5 : Vec Ideal S1x2048 .f32) (acc : Vec Ideal S1x2048 .f32)
    (d : Fin 2048) :
    k0_pay5 v3 v5 acc (ix2 (0 : Fin 1) d)
      = acc (ix2 (0 : Fin 1) d) + ∑ r : Fin 1024, v3 (ix3 (0 : Fin 1) r d) * k0_pay4 v3 v5 (ix2 r (0 : Fin 1)) := by
  unfold k0_pay5
  dsimp only
  rw [shapeCast_self]
  show acc (ix2 (0 : Fin 1) d) + shapeCast S1x2048 _ shapeCasts_S2048_S1x2048 (ix2 (0 : Fin 1) d) = _
  refine congrArg (acc (ix2 (0 : Fin 1) d) + ·) ?_
  refine (shapeCast_a_1a_apply _ shapeCasts_S2048_S1x2048 0 d).trans ?_
  refine (sum_rows_apply _ d).trans ?_
  refine Finset.sum_congr rfl fun r _ => ?_
  show k0_pay3 v3 (ix2 r d) * broadcastTo S1024x2048 (k0_pay4 v3 v5) broadcasts_S1024x1_S1024x2048 (ix2 r d) = _
  rw [pay3_apply, broadcastTo_a1_ab_apply]

/-- The second running sum after one more tile. -/
theorem pay6_apply (v3 : Vec Ideal S1x1024x2048 .f32) (v5 : Vec Ideal S1x2048 .f32) (acc : Vec Ideal S1x1 .f32) :
    k0_pay6 v3 v5 acc (ix2 (0 : Fin 1) (0 : Fin 1))
      = acc (ix2 (0 : Fin 1) (0 : Fin 1)) + ∑ r : Fin 1024, k0_pay4 v3 v5 (ix2 r (0 : Fin 1)) := by
  unfold k0_pay6
  dsimp only
  rw [shapeCast_self]
  show acc (ix2 (0 : Fin 1) (0 : Fin 1)) + shapeCast S1x1 _ shapeCasts_S1_S1x1 (ix2 (0 : Fin 1) (0 : Fin 1)) = _
  refine congrArg (acc (ix2 (0 : Fin 1) (0 : Fin 1)) + ·) ?_
  refine (shapeCast_a_1a_apply _ shapeCasts_S1_S1x1 0 0).trans ?_
  exact sum_col_apply _ 0

/-- The two running sums start from zero. -/
theorem pay1_apply (j : S1x2048.Idx) : (k0_pay1 (F := Ideal)) j = 0 := by
  unfold k0_pay1
  rw [shapeCast_self]
  exact Ideal.ofBits_zero_f32

theorem pay2_apply (j : S1x1.Idx) : (k0_pay2 (F := Ideal)) j = 0 := by
  unfold k0_pay2
  rw [shapeCast_self]
  exact Ideal.ofBits_zero_f32

/-- The pool's last step: the first running sum over the second plus ε, lane by lane. -/
theorem pay7_apply (s0 : Vec Ideal S1x2048 .f32) (s1 : Vec Ideal S1x1 .f32) (d : Fin 2048) :
    k0_pay7 s0 s1 (ix3 (0 : Fin 1) (0 : Fin 1) d)
      = Ideal.div (s0 (ix2 (0 : Fin 1) d)) (s1 (ix2 (0 : Fin 1) (0 : Fin 1)) + Cert.Spec.epsPool) := by
  unfold k0_pay7
  refine (shapeCast_ab_1ab_apply _ shapeCasts_S1x2048_S1x1x2048 0 0 d).trans ?_
  show Ideal.div (s0 (ix2 (0 : Fin 1) d)) (broadcastTo S1x2048 _ broadcasts_S1x1_S1x2048 (ix2 (0 : Fin 1) d)) = _
  refine congrArg (Ideal.div (s0 (ix2 (0 : Fin 1) d))) ?_
  refine (broadcastTo_a1_ab_apply _ broadcasts_S1x1_S1x2048 0 d).trans ?_
  rfl

end Cert.KernelIdeal.Hand

end
-- ==== Proof.PoolSum.lean ====
import Mathlib.Algebra.BigOperators.Fin
import Mathlib.Logic.Equiv.Fin.Basic

/-! A sum over 8192 rows, regrouped as eight consecutive tiles of 1024 rows: plain algebra in an additive commutative monoid. -/

namespace Cert.KernelIdeal.Hand

open scoped BigOperators

/-- Row `r` of tile `j` as a row of the whole; past the eighth tile it reads row 0, which no sum below uses. -/
def tileRow (j : ℕ) (r : Fin 1024) : Fin 8192 :=
  if h : j < 8 then ⟨1024 * j + r.val, by have := r.isLt; omega⟩ else ⟨0, by omega⟩

theorem tileRow_val (j : ℕ) (h : j < 8) (r : Fin 1024) : (tileRow j r).val = 1024 * j + r.val := by
  unfold tileRow
  rw [dif_pos h]

/-- The sum of `f` over the rows of tile `j`. -/
def tileSum {M : Type*} [AddCommMonoid M] (f : Fin 8192 → M) (j : ℕ) : M := ∑ r : Fin 1024, f (tileRow j r)

/-- The whole sum is the sum of the eight tiles' sums. -/
theorem sum_eq_sum_tiles {M : Type*} [AddCommMonoid M] (f : Fin 8192 → M) :
    ∑ s : Fin 8192, f s = ∑ j ∈ Finset.range 8, tileSum f j := by
  have e : ∑ s : Fin 8192, f s = ∑ p : Fin 8 × Fin 1024, f (tileRow p.1.val p.2) := by
    refine ((finProdFinEquiv (m := 8) (n := 1024)).sum_comp f).symm.trans ?_
    refine Finset.sum_congr rfl fun p _ => congrArg f (Fin.ext ?_)
    rw [tileRow_val _ p.1.isLt]
    show p.2.val + 1024 * p.1.val = 1024 * p.1.val + p.2.val
    omega
  rw [e, Fintype.sum_prod_type, ← Fin.sum_univ_eq_sum_range (fun j => tileSum f j) 8]
  rfl

end Cert.KernelIdeal.Hand
-- ==== Proof.PoolTile.lean ====
import proofs.«111059_j9234179686589_1_alg».proof.Proof.PoolPay
import proofs.«111059_j9234179686589_1_alg».proof.Proof.PoolSum

/-! One tile's step of the pool, in the specification's terms: on a tile whose rows are rows of batch `b` of x, the
row weights are the pooling weights g, and the two running sums grow by the tile's sums of x·g and of g. -/

noncomputable section

namespace Cert.KernelIdeal.Hand

open Idealize.ShloMosaic Idealize.ShloMosaic.ValueIdx
open Cert.KernelIdeal Cert.KernelIdeal.Gen Cert.Spec

/-- The weight of row `r` of a tile holding rows `ρ r` of batch `b`. -/
theorem tile_weight (X : A3 4 8192 2048) (W : A2 1 2048) (b : Fin 4) (ρ : Fin 1024 → Fin 8192)
    (v3 : Vec Ideal S1x1024x2048 .f32) (v5 : Vec Ideal S1x2048 .f32)
    (h3 : ∀ (r : Fin 1024) (d : Fin 2048), v3 (ix3 (0 : Fin 1) r d) = X (ix3 b (ρ r) d))
    (h5 : ∀ d : Fin 2048, v5 (ix2 (0 : Fin 1) d) = W (ix2 (0 : Fin 1) d)) (r : Fin 1024) :
    k0_pay4 v3 v5 (ix2 r (0 : Fin 1)) = g X W b (ρ r) := by
  refine (pay4_apply v3 v5 r).trans ?_
  unfold g
  refine congrArg Ideal.logistic (Finset.sum_congr rfl fun d _ => ?_)
  rw [h3 r d, h5 d]

/-- The first running sum grows by the tile's sum of x·g, lane by lane. -/
theorem tile_step_xg (X : A3 4 8192 2048) (W : A2 1 2048) (b : Fin 4) (k : ℕ)
    (v3 : Vec Ideal S1x1024x2048 .f32) (v5 : Vec Ideal S1x2048 .f32)
    (h3 : ∀ (r : Fin 1024) (d : Fin 2048), v3 (ix3 (0 : Fin 1) r d) = X (ix3 b (tileRow k r) d))
    (h5 : ∀ d : Fin 2048, v5 (ix2 (0 : Fin 1) d) = W (ix2 (0 : Fin 1) d))
    (acc : Vec Ideal S1x2048 .f32) (d : Fin 2048) :
    k0_pay5 v3 v5 acc (ix2 (0 : Fin 1) d)
      = acc (ix2 (0 : Fin 1) d) + tileSum (fun s => X (ix3 b s d) * g X W b s) k := by
  refine (pay5_apply v3 v5 acc d).trans ?_
  unfold tileSum
  refine congrArg (acc (ix2 (0 : Fin 1) d) + ·) (Finset.sum_congr rfl fun r _ => ?_)
  rw [h3 r d, tile_weight X W b (tileRow k) v3 v5 h3 h5 r]

/-- The second running sum grows by the tile's sum of g. -/
theorem tile_step_g (X : A3 4 8192 2048) (W : A2 1 2048) (b : Fin 4) (k : ℕ)
    (v3 : Vec Ideal S1x1024x2048 .f32) (v5 : Vec Ideal S1x2048 .f32)
    (h3 : ∀ (r : Fin 1024) (d : Fin 2048), v3 (ix3 (0 : Fin 1) r d) = X (ix3 b (tileRow k r) d))
    (h5 : ∀ d : Fin 2048, v5 (ix2 (0 : Fin 1) d) = W (ix2 (0 : Fin 1) d))
    (acc : Vec Ideal S1x1 .f32) :
    k0_pay6 v3 v5 acc (ix2 (0 : Fin 1) (0 : Fin 1))
      = acc (ix2 (0 : Fin 1) (0 : Fin 1)) + tileSum (fun s => g X W b s) k := by
  refine (pay6_apply v3 v5 acc).trans ?_
  unfold tileSum
  refine congrArg (acc (ix2 (0 : Fin 1) (0 : Fin 1)) + ·) (Finset.sum_congr rfl fun r _ => ?_)
  exact tile_weight X W b (tileRow k) v3 v5 h3 h5 r

/-- The last step on the finished sums is the pool, at any index of the output array in batch `b`'s block. -/
theorem pool_last (X : A3 4 8192 2048) (W : A2 1 2048) (b : Fin 4)
    (s0 : Vec Ideal S1x2048 .f32) (s1 : Vec Ideal S1x1 .f32)
    (h0 : ∀ d : Fin 2048, s0 (ix2 (0 : Fin 1) d) = ∑ s : Fin 8192, X (ix3 b s d) * g X W b s)
    (h1 : s1 (ix2 (0 : Fin 1) (0 : Fin 1)) = ∑ s : Fin 8192, g X W b s)
    (j : S1x1x2048.Idx) (i : S4x1x2048.Idx) (hi0 : (i 0).val = b.val) (hi2 : (i 2).val = (j 2).val) :
    k0_pay7 s0 s1 j = xpArr X W i := by
  obtain ⟨u, v, d, rfl⟩ : ∃ (u : Fin 1) (v : Fin 1) (d : Fin 2048), j = ix3 u v d := ⟨j 0, j 1, j 2, eq_ix3 j⟩
  obtain ⟨b', u', d', rfl⟩ : ∃ (b' : Fin 4) (u' : Fin 1) (d' : Fin 2048), i = ix3 b' u' d' := ⟨i 0, i 1, i 2, eq_ix3 i⟩
  obtain rfl : b' = b := Fin.ext hi0
  obtain rfl : d' = d := Fin.ext hi2
  obtain rfl : u = 0 := Subsingleton.elim _ _
  obtain rfl : v = 0 := Subsingleton.elim _ _
  refine (pay7_apply s0 s1 d').trans ?_
  rw [h0 d', h1]
  rfl

end Cert.KernelIdeal.Hand

end
-- ==== Proof.PoolBlk.lean ====
import proofs.«111059_j9234179686589_1_alg».proof.Proof.KI.PoolRuns
import proofs.«111059_j9234179686589_1_alg».proof.Proof.PoolSum
import Idealize.ShloMosaic.Lib.Pipeline.Value
import Idealize.ShloMosaic.Lib.ValueIdx

/-! Where the pool region's blocks lie in their arrays: at point t = 8·b + k the tile of x is rows 1024·k … 1024·k + 1023
of batch b, the gate weights are read whole, and the output block is row b of the [4,1,2048] result; the output's blocks
at the points 8·b + 7 cover the result. -/

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-- The three windows' block indices at every point of the grid. -/
theorem pool_index : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 3) = t.val / 8 ∧ win0_2.index t (1 : Fin 3) = 0 ∧ win0_2.index t (2 : Fin 3) = 0 :=
  (by decide +kernel : ∀ t : Fin grid0.N, _)

/-- The tile of x at point `t`: row `x 1` of the tile is row `1024·(t mod 8) + x 1` of batch `t / 8`. -/
theorem xblk_apply (c : Dev nD) (t : Fin cfg0.N) (x : S1x1024x2048.Idx) (i : S4x8192x2048.Idx)
    (h0 : (i 0).val = t.val / 8) (h1 : (i 1).val = 1024 * (t.val % 8) + (x 1).val) (h2 : (i 2).val = (x 2).val) :
    (iblk0 V c 0 t : Vec F S1x1024x2048 .f32) x = (V c main_arg0 : S4x8192x2048.Idx → Elt F .f32) i := by
  obtain ⟨e0, e1, e2, -⟩ := pool_index t
  have hx0 : (x 0).val < 1 := (x 0).isLt
  unfold iblk0
  rw [View.read_apply]
  show V c main_arg0 _ = V c main_arg0 _
  congr 1
  funext a
  apply Fin.ext
  match a with
  | ⟨0, _⟩ => show win0_0.index t (0 : Fin 3) * 1 + 1 * (x 0).val = (i 0).val; rw [e0, h0]; omega
  | ⟨1, _⟩ => show win0_0.index t (1 : Fin 3) * 1024 + 1 * (x 1).val = (i 1).val; rw [e1, h1]; omega
  | ⟨2, _⟩ => show win0_0.index t (2 : Fin 3) * 2048 + 1 * (x 2).val = (i 2).val; rw [e2, h2]; omega

/-- The gate weights' block at any point is the whole row. -/
theorem wblk_apply (c : Dev nD) (t : Fin cfg0.N) (x : S1x2048.Idx) :
    (iblk0 V c 1 t : Vec F S1x2048 .f32) x = (V c main_arg5 : S1x2048.Idx → Elt F .f32) x := by
  obtain ⟨-, -, -, e0, e1, -⟩ := pool_index t
  unfold iblk0
  rw [View.read_apply]
  show V c main_arg5 _ = V c main_arg5 _
  congr 1
  funext a
  apply Fin.ext
  match a with
  | ⟨0, _⟩ => show win0_1.index t (0 : Fin 2) * 1 + 1 * (x 0).val = (x 0).val; rw [e0]; omega
  | ⟨1, _⟩ => show win0_1.index t (1 : Fin 2) * 2048 + 1 * (x 1).val = (x 1).val; rw [e1]; omega

/-- An element of the output block at point `t` sits in row `t / 8` of the result, at its own lane. -/
theorem oblk_emb (t : Fin cfg0.N) (j : S1x1x2048.Idx) :
    ((((cfg0.win 2).blk t).view.emb j : S4x1x2048.Idx) 0).val = t.val / 8
    ∧ ((((cfg0.win 2).blk t).view.emb j : S4x1x2048.Idx) 2).val = (j 2).val := by
  obtain ⟨-, -, -, -, -, e0, e1, e2⟩ := pool_index t
  have hj0 : (j 0).val < 1 := (j 0).isLt
  constructor
  · show win0_2.index t (0 : Fin 3) * 1 + 1 * (j 0).val = t.val / 8; rw [e0]; omega
  · show win0_2.index t (2 : Fin 3) * 2048 + 1 * (j 2).val = (j 2).val; rw [e2]; omega

/-- An index of the result is in point `t`'s output block iff each coordinate is in the block's range on its axis. -/
theorem mem_oblk (t : Fin cfg0.N) (i : S4x1x2048.Idx) :
    i ∈ ((cfg0.win 2).blk t).view.set ↔ ∀ a : Fin 3, win0_2.index t a * S1x1x2048.size a ≤ (i a).val ∧ (i a).val < win0_2.index t a * S1x1x2048.size a + S1x1x2048.size a := by
  show i ∈ ((View.whole main_v0).slice (win0_2.rect t)).set ↔ _
  rw [View.set_slice_whole, Rect.mem_set_unit]
  exact Iff.rfl

/-- Every index of the result lies in the output block of a point that writes back: row `b` in that of point 8·b + 7. -/
theorem oblk_cover (i : S4x1x2048.Idx) :
    ∃ t : Fin cfg0.N, (cfg0.win 2).flush t = true ∧ i ∈ ((cfg0.win 2).blk t).view.set := by
  have hN : cfg0.N = 32 := N_0
  have hi0 : (i 0).val < 4 := (i 0).isLt
  have hi1 : (i 1).val < 1 := (i 1).isLt
  have hi2 : (i 2).val < 2048 := (i 2).isLt
  have ht : 8 * (i 0).val + 7 < cfg0.N := by omega
  obtain ⟨-, -, -, -, -, e0, e1, e2⟩ := pool_index ⟨8 * (i 0).val + 7, ht⟩
  refine ⟨⟨8 * (i 0).val + 7, ht⟩, (flush0_2 _).mpr (by show (8 * (i 0).val + 7) % 8 = 7; omega), ?_⟩
  rw [mem_oblk]
  intro a
  match a with
  | ⟨0, _⟩ =>
    show win0_2.index ⟨8 * (i 0).val + 7, ht⟩ (0 : Fin 3) * 1 ≤ (i 0).val ∧ (i 0).val < win0_2.index ⟨8 * (i 0).val + 7, ht⟩ (0 : Fin 3) * 1 + 1
    rw [e0]
    show (8 * (i 0).val + 7) / 8 * 1 ≤ (i 0).val ∧ (i 0).val < (8 * (i 0).val + 7) / 8 * 1 + 1
    omega
  | ⟨1, _⟩ =>
    show win0_2.index ⟨8 * (i 0).val + 7, ht⟩ (1 : Fin 3) * 1 ≤ (i 1).val ∧ (i 1).val < win0_2.index ⟨8 * (i 0).val + 7, ht⟩ (1 : Fin 3) * 1 + 1
    rw [e1]
    omega
  | ⟨2, _⟩ =>
    show win0_2.index ⟨8 * (i 0).val + 7, ht⟩ (2 : Fin 3) * 2048 ≤ (i 2).val ∧ (i 2).val < win0_2.index ⟨8 * (i 0).val + 7, ht⟩ (2 : Fin 3) * 2048 + 2048
    rw [e2]
    omega

end Cert.KernelIdeal.Hand

end
-- ==== Proof.PoolValue.lean ====
import proofs.«111059_j9234179686589_1_alg».proof.Proof.KI.PoolFrame
import proofs.«111059_j9234179686589_1_alg».proof.Proof.PoolTile
import proofs.«111059_j9234179686589_1_alg».proof.Proof.PoolBlk

/-! What the pool region leaves in its output array: the attentive pool of x under the gate weights.

Within batch `b` the two running sums hold, after the tile k, the sums of x·g and of g over the rows of tiles 0 … k
(by induction on k); after the eighth tile they are the sums over all 8192 rows, the last step divides them, and the
block written back at that point is row `b` of the pool; those blocks cover the [4,1,2048] result. -/

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

/-- x as the region finds it. -/
abbrev xarr (c : Dev nD) : A3 4 8192 2048 := V c main_arg0
/-- The gate weights as the region finds them. -/
abbrev warr (c : Dev nD) : A2 1 2048 := V c main_arg5
/-- The tile of x at point `t`. -/
abbrev xblk (c : Dev nD) (t : Fin cfg0.N) : Vec Ideal S1x1024x2048 .f32 := iblk0 V c 0 t
/-- The gate weights' block at point `t`. -/
abbrev wblk (c : Dev nD) (t : Fin cfg0.N) : Vec Ideal S1x2048 .f32 := iblk0 V c 1 t

/-- At point 8·b + k the tile holds the rows of tile k of batch b. -/
theorem xblk_rows (c : Dev nD) (t : Fin cfg0.N) (b : Fin 4) (k : ℕ) (hk : k < 8) (ht : t.val = 8 * b.val + k)
    (r : Fin 1024) (d : Fin 2048) :
    xblk V c t (ix3 (0 : Fin 1) r d) = xarr V c (ix3 b (tileRow k r) d) :=
  xblk_apply V c t (ix3 (0 : Fin 1) r d) (ix3 b (tileRow k r) d)
    (by show b.val = t.val / 8; omega)
    (by show (tileRow k r).val = 1024 * (t.val % 8) + r.val; rw [tileRow_val k hk]; omega)
    rfl

/-- At every point the gate weights' block is the gate weights. -/
theorem wblk_row (c : Dev nD) (t : Fin cfg0.N) (d : Fin 2048) :
    wblk V c t (ix2 (0 : Fin 1) d) = warr V c (ix2 (0 : Fin 1) d) :=
  wblk_apply V c t (ix2 (0 : Fin 1) d)

/-- THE RUNNING SUMS. After point 8·b + k they hold the sums of x·g and of g over the rows of tiles 0 … k of batch b. -/
theorem scratch_sums (c : Dev nD) (b : Fin 4) :
    ∀ (k : ℕ) (hk : k < 8) (t : Fin cfg0.N) (ht : t.val = 8 * b.val + k),
      (∀ d : Fin 2048, (outsAt0 V c t.val t.isLt).2.1 (ix2 (0 : Fin 1) d)
          = ∑ j ∈ Finset.range (k + 1), tileSum (fun s => xarr V c (ix3 b s d) * g (xarr V c) (warr V c) b s) j)
      ∧ (outsAt0 V c t.val t.isLt).2.2 (ix2 (0 : Fin 1) (0 : Fin 1))
          = ∑ j ∈ Finset.range (k + 1), tileSum (fun s => g (xarr V c) (warr V c) b s) j
  | 0, hk, t, ht => by
    have h0 : t.val % 8 = 0 := by omega
    have e := outsAt0_first V c t h0
    constructor
    · intro d
      rw [e]
      dsimp only
      refine (tile_step_xg (xarr V c) (warr V c) b 0 (xblk V c t) (wblk V c t) (xblk_rows V c t b 0 hk ht)
        (wblk_row V c t) (k0_pay1 (F := Ideal)) d).trans ?_
      rw [pay1_apply, zero_add, Finset.sum_range_one]
    · rw [e]
      dsimp only
      refine (tile_step_g (xarr V c) (warr V c) b 0 (xblk V c t) (wblk V c t) (xblk_rows V c t b 0 hk ht)
        (wblk_row V c t) (k0_pay2 (F := Ideal))).trans ?_
      rw [pay2_apply, zero_add, Finset.sum_range_one]
  | k + 1, hk, t, ht => by
    have hN : cfg0.N = 32 := N_0
    have hne : t.val % 8 ≠ 0 := by omega
    have hlt : t.val - 1 < cfg0.N := by have := t.isLt; omega
    obtain ⟨ih0, ih1⟩ := scratch_sums c b k (by omega) ⟨t.val - 1, hlt⟩ (by show t.val - 1 = 8 * b.val + k; omega)
    have e := outsAt0_next V c t hne
    constructor
    · intro d
      rw [e]
      dsimp only
      refine (tile_step_xg (xarr V c) (warr V c) b (k + 1) (xblk V c t) (wblk V c t) (xblk_rows V c t b (k + 1) hk ht)
        (wblk_row V c t) (outsAt0 V c (t.val - 1) hlt).2.1 d).trans ?_
      rw [Finset.sum_range_succ _ (k + 1)]
      exact congrArg (· + tileSum (fun s => xarr V c (ix3 b s d) * g (xarr V c) (warr V c) b s) (k + 1)) (ih0 d)
    · rw [e]
      dsimp only
      refine (tile_step_g (xarr V c) (warr V c) b (k + 1) (xblk V c t) (wblk V c t) (xblk_rows V c t b (k + 1) hk ht)
        (wblk_row V c t) (outsAt0 V c (t.val - 1) hlt).2.2).trans ?_
      rw [Finset.sum_range_succ _ (k + 1)]
      exact congrArg (· + tileSum (fun s => g (xarr V c) (warr V c) b s) (k + 1)) ih1

/-- WHAT A WRITING POINT WRITES BACK is its block of the pool. -/
theorem pool_flushed (c : Dev nD) (t : Fin cfg0.N) (hf : (cfg0.win 2).flush t = true) :
    (dat0 V c).flushed 2 t = ((cfg0.win 2).blk t).view.read (Elt Ideal) (xpArr (xarr V c) (warr V c)) := by
  have hN : cfg0.N = 32 := N_0
  have h7 : t.val % 8 = 7 := (flush0_2 t).mp hf
  have hb : t.val / 8 < 4 := by have := t.isLt; omega
  obtain ⟨i0, i1⟩ := scratch_sums V c ⟨t.val / 8, hb⟩ 7 (by omega) t (by show t.val = 8 * (t.val / 8) + 7; omega)
  show (cfg0.win 2).cut (grid0.coords t) ((dat0 V c).after 2 t) = _
  rw [after0_2, outsAt0_last V c t h7]
  funext j
  show k0_pay7 (outsAt0 V c t.val t.isLt).2.1 (outsAt0 V c t.val t.isLt).2.2 j
    = xpArr (xarr V c) (warr V c) (((cfg0.win 2).blk t).view.emb j)
  exact pool_last (xarr V c) (warr V c) ⟨t.val / 8, hb⟩ (outsAt0 V c t.val t.isLt).2.1 (outsAt0 V c t.val t.isLt).2.2
    (fun d => (i0 d).trans (sum_eq_sum_tiles _).symm) (i1.trans (sum_eq_sum_tiles _).symm)
    j (((cfg0.win 2).blk t).view.emb j) (oblk_emb t j).1 (oblk_emb t j).2

/-- THE RESULT: the region's output array ends holding the attentive pool of x under the gate weights. -/
theorem pool_final (c : Dev nD) :
    ((dat0 V c).arrAt 2 cfg0.N : S4x1x2048.Idx → EReal) = Cert.Spec.xpArr (V c main_arg0) (V c main_arg5) :=
  (dat0 V c).arrAt_eq_of_cover 2 (xpArr (xarr V c) (warr V c)) (pool_flushed V c) fun i => oblk_cover i

end Cert.KernelIdeal.Hand

end
-- ==== Proof.SpecRow.lean ====
import proofs.«111059_j9234179686589_1_alg».proof.Proof.Spec

/-! The attention output one row at a time: row (b,s) of the output depends on row (b,s) of x, on batch b
of the augmented bus, and on the two weight matrices only. The functions below are the whole-array ones
of the specification restricted to one row; the last theorem says so. -/

noncomputable section

namespace Cert.Spec

open Idealize.ShloMosaic Idealize.ShloMosaic.ValueIdx

/-- The query of one row. -/
def qRow (xr : Fin 2048 → EReal) (wq : A2 128 2048) (o : Fin 128) : EReal := ∑ d : Fin 2048, xr d * wq (ix2 o d)
/-- Its scaled scores against one batch of the bus. -/
def scRow (xr : Fin 2048 → EReal) (wq : A2 128 2048) (ab : Fin 25 → Fin 128 → EReal) (l : Fin 25) : EReal :=
  (∑ o : Fin 128, qRow xr wq o * ab l o) * scale
/-- The maximum the softmax subtracts. -/
def mxRow (xr : Fin 2048 → EReal) (wq : A2 128 2048) (ab : Fin 25 → Fin 128 → EReal) : EReal :=
  max negInf (Finset.univ.fold max negInf fun l : Fin 25 => scRow xr wq ab l)
def exRow (xr : Fin 2048 → EReal) (wq : A2 128 2048) (ab : Fin 25 → Fin 128 → EReal) (l : Fin 25) : EReal :=
  Ideal.exp (scRow xr wq ab l - mxRow xr wq ab)
def atRow (xr : Fin 2048 → EReal) (wq : A2 128 2048) (ab : Fin 25 → Fin 128 → EReal) (l : Fin 25) : EReal :=
  Ideal.div (exRow xr wq ab l) (∑ l' : Fin 25, exRow xr wq ab l')
def gaRow (xr : Fin 2048 → EReal) (wq : A2 128 2048) (ab : Fin 25 → Fin 128 → EReal) (o : Fin 128) : EReal :=
  ∑ l : Fin 25, atRow xr wq ab l * ab l o
/-- One row of the output, the modulation weights already scaled. -/
def rowOut (xr : Fin 2048 → EReal) (wq : A2 128 2048) (ab : Fin 25 → Fin 128 → EReal) (wms : A2 2048 128) (d : Fin 2048) : EReal :=
  xr d + ∑ o : Fin 128, gaRow xr wq ab o * wms (ix2 d o)

/-- The whole-array output at (b,s,d) is the row function of row (b,s) of x and batch b of the bus. -/
theorem outK_row (x : A3 4 8192 2048) (wq : A2 128 2048) (aug : A3 4 25 128) (wms : A2 2048 128) (b : Fin 4) (s : Fin 8192) (d : Fin 2048) :
    outK x wq aug wms (ix3 b s d) = rowOut (fun d' => x (ix3 b s d')) wq (fun l o => aug (ix3 b l o)) wms d := rfl

end Cert.Spec

end
-- ==== Proof.MainValueDots.lean ====
/- The four matrix products of the main kernel's body, each into a zero accumulator, read at a row and a column as
   the sum over the contracted coordinate of the operands' products. -/
import proofs.«111059_j9234179686589_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## The query product: [512,2048] by [2048,128] -/

theorem lhs_q_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhs_q_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhs_q_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhs_q_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The product into a zero accumulator, read at row r and column c: the sum over the contracted coordinate. -/
theorem dot_q_apply (a : FVec Ideal S512x2048 .f32) (b : FVec Ideal S2048x128 .f32) (r : Fin 512) (c : Fin 128) :
    matmul dot_S512x2048_S2048x128_S512x128_1_0_0_1_n_n none a b (constant (F := Ideal) S512x128 .f32 0x00000000#32) (ix2 r c)
      = ∑ k : Fin 2048, a (ix2 r k) * b (ix2 k c) := by
  simp only [matmul]
  rw [Ideal.matmul_constant_zero_apply, ← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 r c) ((ValueIdx.contrEquiv1 dot_S512x2048_S2048x128_S512x128_1_0_0_1_n_n 2048 rfl rfl).symm k) = ix2 r k := funext fun a => Fin.ext (by
    match a with
    | ⟨0, _⟩ => exact lhs_q_0 _ _
    | ⟨1, _⟩ => exact (lhs_q_1 _ _).trans hk)
  have er : dot_S512x2048_S2048x128_S512x128_1_0_0_1_n_n.rhsIdx (ix2 r c) ((ValueIdx.contrEquiv1 dot_S512x2048_S2048x128_S512x128_1_0_0_1_n_n 2048 rfl rfl).symm k) = ix2 k c := funext fun a => Fin.ext (by
    match a with
    | ⟨0, _⟩ => exact (rhs_q_0 _ _).trans hk
    | ⟨1, _⟩ => exact rhs_q_1 _ _)
  rw [el, er]

/-! ## The score product: [512,128] by [128,25] -/

theorem lhs_sc_0 (i : S512x25.Idx) (q : dot_S512x128_S128x25_S512x25_1_0_0_1_n_n.contr.Idx) :
    (dot_S512x128_S128x25_S512x25_1_0_0_1_n_n.lhsIdx i q 0).val = (i 0).val := by
  unfold DotDims.lhsIdx
  rw [dif_neg (show ¬(0 : Fin S512x128.rank) ∈ dot_S512x128_S128x25_S512x25_1_0_0_1_n_n.lhsBatch by decide), dif_pos (show (0 : Fin S512x128.rank) ∈ dot_S512x128_S128x25_S512x25_1_0_0_1_n_n.lhsNonContracting by decide)]
  rfl
theorem lhs_sc_1 (i : S512x25.Idx) (q : dot_S512x128_S128x25_S512x25_1_0_0_1_n_n.contr.Idx) :
    (dot_S512x128_S128x25_S512x25_1_0_0_1_n_n.lhsIdx i q 1).val = (q ⟨0, by decide⟩).val :=
  dot_S512x128_S128x25_S512x25_1_0_0_1_n_n.lhsIdx_val_of_single rfl i q
theorem rhs_sc_0 (i : S512x25.Idx) (q : dot_S512x128_S128x25_S512x25_1_0_0_1_n_n.contr.Idx) :
    (dot_S512x128_S128x25_S512x25_1_0_0_1_n_n.rhsIdx i q 0).val = (q ⟨0, by decide⟩).val :=
  dot_S512x128_S128x25_S512x25_1_0_0_1_n_n.rhsIdx_val_of_single rfl i q
theorem rhs_sc_1 (i : S512x25.Idx) (q : dot_S512x128_S128x25_S512x25_1_0_0_1_n_n.contr.Idx) :
    (dot_S512x128_S128x25_S512x25_1_0_0_1_n_n.rhsIdx i q 1).val = (i 1).val := by
  unfold DotDims.rhsIdx
  rw [dif_neg (show ¬(1 : Fin S128x25.rank) ∈ dot_S512x128_S128x25_S512x25_1_0_0_1_n_n.rhsBatch by decide), dif_pos (show (1 : Fin S128x25.rank) ∈ dot_S512x128_S128x25_S512x25_1_0_0_1_n_n.rhsNonContracting by decide)]
  rfl

/-- The product into a zero accumulator, read at row r and column c: the sum over the contracted coordinate. -/
theorem dot_sc_apply (a : FVec Ideal S512x128 .f32) (b : FVec Ideal S128x25 .f32) (r : Fin 512) (c : Fin 25) :
    matmul dot_S512x128_S128x25_S512x25_1_0_0_1_n_n none a b (constant (F := Ideal) S512x25 .f32 0x00000000#32) (ix2 r c)
      = ∑ k : Fin 128, a (ix2 r k) * b (ix2 k c) := by
  simp only [matmul]
  rw [Ideal.matmul_constant_zero_apply, ← Equiv.sum_comp (ValueIdx.contrEquiv1 dot_S512x128_S128x25_S512x25_1_0_0_1_n_n 128 rfl rfl).symm]
  refine Finset.sum_congr rfl fun k _ => ?_
  have hk := ValueIdx.contrEquiv1_symm_val dot_S512x128_S128x25_S512x25_1_0_0_1_n_n 128 rfl rfl k
  have el : dot_S512x128_S128x25_S512x25_1_0_0_1_n_n.lhsIdx (ix2 r c) ((ValueIdx.contrEquiv1 dot_S512x128_S128x25_S512x25_1_0_0_1_n_n 128 rfl rfl).symm k) = ix2 r k := funext fun a => Fin.ext (by
    match a with
    | ⟨0, _⟩ => exact lhs_sc_0 _ _
    | ⟨1, _⟩ => exact (lhs_sc_1 _ _).trans hk)
  have er : dot_S512x128_S128x25_S512x25_1_0_0_1_n_n.rhsIdx (ix2 r c) ((ValueIdx.contrEquiv1 dot_S512x128_S128x25_S512x25_1_0_0_1_n_n 128 rfl rfl).symm k) = ix2 k c := funext fun a => Fin.ext (by
    match a with
    | ⟨0, _⟩ => exact (rhs_sc_0 _ _).trans hk
    | ⟨1, _⟩ => exact rhs_sc_1 _ _)
  rw [el, er]

/-! ## The gather product: [512,25] by [25,128] -/

theorem lhs_ga_0 (i : S512x128.Idx) (q : dot_S512x25_S25x128_S512x128_1_0_0_1_n_n.contr.Idx) :
    (dot_S512x25_S25x128_S512x128_1_0_0_1_n_n.lhsIdx i q 0).val = (i 0).val := by
  unfold DotDims.lhsIdx
  rw [dif_neg (show ¬(0 : Fin S512x25.rank) ∈ dot_S512x25_S25x128_S512x128_1_0_0_1_n_n.lhsBatch by decide), dif_pos (show (0 : Fin S512x25.rank) ∈ dot_S512x25_S25x128_S512x128_1_0_0_1_n_n.lhsNonContracting by decide)]
  rfl
theorem lhs_ga_1 (i : S512x128.Idx) (q : dot_S512x25_S25x128_S512x128_1_0_0_1_n_n.contr.Idx) :
    (dot_S512x25_S25x128_S512x128_1_0_0_1_n_n.lhsIdx i q 1).val = (q ⟨0, by decide⟩).val :=
  dot_S512x25_S25x128_S512x128_1_0_0_1_n_n.lhsIdx_val_of_single rfl i q
theorem rhs_ga_0 (i : S512x128.Idx) (q : dot_S512x25_S25x128_S512x128_1_0_0_1_n_n.contr.Idx) :
    (dot_S512x25_S25x128_S512x128_1_0_0_1_n_n.rhsIdx i q 0).val = (q ⟨0, by decide⟩).val :=
  dot_S512x25_S25x128_S512x128_1_0_0_1_n_n.rhsIdx_val_of_single rfl i q
theorem rhs_ga_1 (i : S512x128.Idx) (q : dot_S512x25_S25x128_S512x128_1_0_0_1_n_n.contr.Idx) :
    (dot_S512x25_S25x128_S512x128_1_0_0_1_n_n.rhsIdx i q 1).val = (i 1).val := by
  unfold DotDims.rhsIdx
  rw [dif_neg (show ¬(1 : Fin S25x128.rank) ∈ dot_S512x25_S25x128_S512x128_1_0_0_1_n_n.rhsBatch by decide), dif_pos (show (1 : Fin S25x128.rank) ∈ dot_S512x25_S25x128_S512x128_1_0_0_1_n_n.rhsNonContracting by decide)]
  rfl

/-- The product into a zero accumulator, read at row r and column c: the sum over the contracted coordinate. -/
theorem dot_ga_apply (a : FVec Ideal S512x25 .f32) (b : FVec Ideal S25x128 .f32) (r : Fin 512) (c : Fin 128) :
    matmul dot_S512x25_S25x128_S512x128_1_0_0_1_n_n none a b (constant (F := Ideal) S512x128 .f32 0x00000000#32) (ix2 r c)
      = ∑ k : Fin 25, a (ix2 r k) * b (ix2 k c) := by
  simp only [matmul]
  rw [Ideal.matmul_constant_zero_apply, ← Equiv.sum_comp (ValueIdx.contrEquiv1 dot_S512x25_S25x128_S512x128_1_0_0_1_n_n 25 rfl rfl).symm]
  refine Finset.sum_congr rfl fun k _ => ?_
  have hk := ValueIdx.contrEquiv1_symm_val dot_S512x25_S25x128_S512x128_1_0_0_1_n_n 25 rfl rfl k
  have el : dot_S512x25_S25x128_S512x128_1_0_0_1_n_n.lhsIdx (ix2 r c) ((ValueIdx.contrEquiv1 dot_S512x25_S25x128_S512x128_1_0_0_1_n_n 25 rfl rfl).symm k) = ix2 r k := funext fun a => Fin.ext (by
    match a with
    | ⟨0, _⟩ => exact lhs_ga_0 _ _
    | ⟨1, _⟩ => exact (lhs_ga_1 _ _).trans hk)
  have er : dot_S512x25_S25x128_S512x128_1_0_0_1_n_n.rhsIdx (ix2 r c) ((ValueIdx.contrEquiv1 dot_S512x25_S25x128_S512x128_1_0_0_1_n_n 25 rfl rfl).symm k) = ix2 k c := funext fun a => Fin.ext (by
    match a with
    | ⟨0, _⟩ => exact (rhs_ga_0 _ _).trans hk
    | ⟨1, _⟩ => exact rhs_ga_1 _ _)
  rw [el, er]

/-! ## The modulation product: [512,128] by [128,2048] -/

theorem lhs_mo_0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem lhs_mo_1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
theorem rhs_mo_0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
theorem rhs_mo_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- The product into a zero accumulator, read at row r and column c: the sum over the contracted coordinate. -/
theorem dot_mo_apply (a : FVec Ideal S512x128 .f32) (b : FVec Ideal S128x2048 .f32) (r : Fin 512) (c : Fin 2048) :
    matmul dot_S512x128_S128x2048_S512x2048_1_0_0_1_n_n none a b (constant (F := Ideal) S512x2048 .f32 0x00000000#32) (ix2 r c)
      = ∑ k : Fin 128, a (ix2 r k) * b (ix2 k c) := by
  simp only [matmul]
  rw [Ideal.matmul_constant_zero_apply, ← Equiv.sum_comp (ValueIdx.contrEquiv1 dot_S512x128_S128x2048_S512x2048_1_0_0_1_n_n 128 rfl rfl).symm]
  refine Finset.sum_congr rfl fun k _ => ?_
  have hk := ValueIdx.contrEquiv1_symm_val dot_S512x128_S128x2048_S512x2048_1_0_0_1_n_n 128 rfl rfl k
  have el : dot_S512x128_S128x2048_S512x2048_1_0_0_1_n_n.lhsIdx (ix2 r c) ((ValueIdx.contrEquiv1 dot_S512x128_S128x2048_S512x2048_1_0_0_1_n_n 128 rfl rfl).symm k) = ix2 r k := funext fun a => Fin.ext (by
    match a with
    | ⟨0, _⟩ => exact lhs_mo_0 _ _
    | ⟨1, _⟩ => exact (lhs_mo_1 _ _).trans hk)
  have er : dot_S512x128_S128x2048_S512x2048_1_0_0_1_n_n.rhsIdx (ix2 r c) ((ValueIdx.contrEquiv1 dot_S512x128_S128x2048_S512x2048_1_0_0_1_n_n 128 rfl rfl).symm k) = ix2 k c := funext fun a => Fin.ext (by
    match a with
    | ⟨0, _⟩ => exact (rhs_mo_0 _ _).trans hk
    | ⟨1, _⟩ => exact rhs_mo_1 _ _)
  rw [el, er]

end Cert.KernelIdeal.Hand

end
-- ==== Proof.MainValueLayout.lean ====
/- The layout operations and the two row reductions of the main kernel's softmax, read at an index. -/
import proofs.«111059_j9234179686589_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! Layout operations of a row-wise softmax read at an index, and the two row reductions. -/

/-- A vector [512] cast to a column [512,1] reads, at (i, u), the operand at i. -/
theorem shapeCast_S512_S512x1_apply {α : Type} (x : S512.Idx → α) (h : S512.ShapeCasts S512x1) (i : Fin 512) (u : Fin 1) :
    shapeCast S512x1 x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [512,1] broadcast along the rows to [512,25] reads, at (i, j), the operand at (i, 0). -/
theorem broadcastTo_S512x1_S512x25_apply {α : Type} (v : S512x1.Idx → α) (h : S512x1.Broadcasts S512x25) (i : Fin 512) (j : Fin 25) :
    broadcastTo S512x25 v h (ix2 i j) = v (ix2 i (0 : Fin 1)) := by
  refine broadcastTo_apply v h (ix2 i j) (ix2 i (0 : Fin 1)) fun ax => ?_
  match ax with
  | ⟨0, _⟩ => rfl
  | ⟨1, _⟩ => rfl

/-- The keepdims column of a [512] vector, spread over 25 columns, reads the vector at the row. -/
theorem keepdims_S512_S512x25_apply {α : Type} (x : S512.Idx → α) (h : S512.ShapeCasts S512x1) (h' : S512x1.Broadcasts S512x25)
    (i : Fin 512) (j : Fin 25) : broadcastTo S512x25 (shapeCast S512x1 x h) h' (ix2 i j) = x (ix1 i) :=
  (broadcastTo_S512x1_S512x25_apply _ h' i j).trans (shapeCast_S512_S512x1_apply x h i 0)

/-- The maximum along a row of a [512,25] matrix, from the accumulator's value: the fold of max over the row's 25 entries. -/
theorem rowMax_S512x25_apply (s : FVec Ideal S512x25 .f32) (h : S512x25.Reduces [1] S512) (hφ : FKind.Formats .f32)
    (hacc : (0xFF800000#32 : BitVec 32) = FKind.maximumf.neutral .f32 hφ) (r : Fin 512) :
    multiReduction .maximumf [1] S512 s 0xFF800000#32 h hφ hacc (ix1 r)
      = Finset.univ.fold max (Ideal.ofBits .f32 0xFF800000#32) (fun l : Fin 25 => s (ix2 r l)) := by
  refine (Ideal.multiReduction_maximumf_single s _ h hφ hacc (ix1 r)).trans ?_
  show Finset.univ.fold max (Ideal.ofBits .f32 0xFF800000#32) (fun l : Fin 25 => s (h.lift (ix1 r) l)) = _
  refine congrArg (Finset.univ.fold max (Ideal.ofBits .f32 0xFF800000#32)) (funext fun l => congrArg s (funext fun a => Fin.ext ?_))
  match a with
  | ⟨0, _⟩ => rfl
  | ⟨1, _⟩ => rfl

/-- The sum along a row of a [512,25] matrix: the sum of the row's 25 entries. -/
theorem rowSum_S512x25_apply (s : FVec Ideal S512x25 .f32) (h : S512x25.Reduces [1] S512) (hφ : FKind.Formats .f32)
    (hacc : (0x00000000#32 : BitVec 32) = FKind.add.neutral .f32 hφ) (r : Fin 512) :
    multiReduction .add [1] S512 s 0x00000000#32 h hφ hacc (ix1 r) = ∑ l : Fin 25, s (ix2 r l) := by
  refine (Ideal.multiReduction_add_single s _ h hφ hacc (ix1 r)).trans ?_
  show (∑ l : Fin 25, s (h.lift (ix1 r) l)) = _
  refine Finset.sum_congr rfl fun l _ => congrArg s (funext fun a => Fin.ext ?_)
  match a with
  | ⟨0, _⟩ => rfl
  | ⟨1, _⟩ => rfl

end Cert.KernelIdeal.Hand

end
-- ==== Proof.MainPayload.lean ====
/- The main kernel's body read at an index: its stages, each at a row of its tile, and a row of the tile as the
   specification's row function of the loaded tiles. -/
import proofs.«111059_j9234179686589_1_alg».proof.Proof.MainValueDots
import proofs.«111059_j9234179686589_1_alg».proof.Proof.MainValueLayout
import proofs.«111059_j9234179686589_1_alg».proof.Proof.SpecRow

noncomputable section

namespace Cert.KernelIdeal.Hand

open Cert.KernelIdeal Cert.KernelIdeal.Gen Idealize.ShloMosaic Idealize.ShloMosaic.ValueIdx

/-! ## The body's stages, as functions of the loaded tiles -/

/-- The query tile: the x tile times the transposed query weights. -/
def kQ (v0 : Vec Ideal S1x512x2048 .f32) (v2 : Vec Ideal S128x2048 .f32) : FVec Ideal S512x128 .f32 :=
  matmul dot_S512x2048_S2048x128_S512x128_1_0_0_1_n_n none (shapeCast S512x2048 v0 shapeCasts_S1x512x2048_S512x2048 : FVec Ideal S512x2048 .f32)
    (transpose S2048x128 [1, 0] v2 transposes_S128x2048_p1_0_S2048x128 : FVec Ideal S2048x128 .f32) (constant (F := Ideal) S512x128 .f32 0x00000000#32)

/-- The scaled scores: the query tile times the transposed bus, times the scale. -/
def kS (q : FVec Ideal S512x128 .f32) (v3 : Vec Ideal S1x25x128 .f32) : FVec Ideal S512x25 .f32 :=
  mulf (matmul dot_S512x128_S128x25_S512x25_1_0_0_1_n_n none q
      (transpose S128x25 [1, 0] (shapeCast S25x128 v3 shapeCasts_S1x25x128_S25x128 : FVec Ideal S25x128 .f32) transposes_S25x128_p1_0_S128x25 : FVec Ideal S128x25 .f32)
      (constant (F := Ideal) S512x25 .f32 0x00000000#32))
    (broadcast S512x25 (Scalar.ofBits .f32 0x3DB504F3#32))

/-- The row maxima, clamped below by -∞. -/
def kM (s : FVec Ideal S512x25 .f32) : FVec Ideal S512 .f32 :=
  maximumf (broadcast S512 (Scalar.ofBits .f32 0xFF800000#32))
    (multiReduction .maximumf [1] S512 s 0xFF800000#32 reduces_S512x25_S512 (.inl rfl) rfl)

/-- exp(score - row maximum). -/
def kE (s : FVec Ideal S512x25 .f32) : FVec Ideal S512x25 .f32 :=
  exp (subf s (broadcastTo S512x25 (shapeCast S512x1 (kM s) shapeCasts_S512_S512x1) broadcasts_S512x1_S512x25))

/-- Each row divided by its sum. -/
def kA (e : FVec Ideal S512x25 .f32) : FVec Ideal S512x25 .f32 :=
  divf e (broadcastTo S512x25 (shapeCast S512x1
    (multiReduction .add [1] S512 e 0x00000000#32 reduces_S512x25_S512 (.inl rfl) rfl) shapeCasts_S512_S512x1) broadcasts_S512x1_S512x25)

/-- The gathered bus vectors: the weights times the bus. -/
def kG (a : FVec Ideal S512x25 .f32) (v3 : Vec Ideal S1x25x128 .f32) : FVec Ideal S512x128 .f32 :=
  matmul dot_S512x25_S25x128_S512x128_1_0_0_1_n_n none a (shapeCast S25x128 v3 shapeCasts_S1x25x128_S25x128 : FVec Ideal S25x128 .f32)
    (constant (F := Ideal) S512x128 .f32 0x00000000#32)

/-- The output tile: the x tile plus the gathered vectors times the transposed modulation weights. -/
def kO (v0 : Vec Ideal S1x512x2048 .f32) (g : FVec Ideal S512x128 .f32) (v5 : Vec Ideal S2048x128 .f32) : FVec Ideal S1x512x2048 .f32 :=
  shapeCast S1x512x2048 (addf (shapeCast S512x2048 v0 shapeCasts_S1x512x2048_S512x2048 : FVec Ideal S512x2048 .f32)
    (matmul dot_S512x128_S128x2048_S512x2048_1_0_0_1_n_n none g
      (transpose S128x2048 [1, 0] (shapeCast S2048x128 v5 shapeCasts_S2048x128_S2048x128 : FVec Ideal S2048x128 .f32) transposes_S2048x128_p1_0_S128x2048 : FVec Ideal S128x2048 .f32)
      (constant (F := Ideal) S512x2048 .f32 0x00000000#32))) shapeCasts_S512x2048_S1x512x2048

/-- The body's payload is the composition of its stages. -/
theorem k1_pay1_eq (v0 : Vec Ideal S1x512x2048 .f32) (v2 : Vec Ideal S128x2048 .f32) (v3 : Vec Ideal S1x25x128 .f32) (v5 : Vec Ideal S2048x128 .f32) :
    k1_pay1 (F := Ideal) v0 v2 v3 v5 = kO v0 (kG (kA (kE (kS (kQ v0 v2) v3))) v3) v5 := rfl

/-! ## Each stage at a row -/

theorem kQ_apply (v0 : Vec Ideal S1x512x2048 .f32) (v2 : Vec Ideal S128x2048 .f32) (r : Fin 512) (o : Fin 128) :
    kQ v0 v2 (ix2 r o) = ∑ d : Fin 2048, v0 (ix3 (0 : Fin 1) r d) * v2 (ix2 o d) := by
  unfold kQ
  refine (dot_q_apply _ _ r o).trans (Finset.sum_congr rfl fun d _ => ?_)
  exact congrArg₂ (· * ·) (shapeCast_1ab_ab_apply v0 _ r d) (transpose_ix2_apply v2 _ d o)

theorem kS_apply (q : FVec Ideal S512x128 .f32) (v3 : Vec Ideal S1x25x128 .f32) (r : Fin 512) (l : Fin 25) :
    kS q v3 (ix2 r l) = (∑ o : Fin 128, q (ix2 r o) * v3 (ix3 (0 : Fin 1) l o)) * Ideal.ofBits .f32 0x3DB504F3#32 := by
  unfold kS
  refine congrArg (· * Ideal.ofBits .f32 0x3DB504F3#32) ((dot_sc_apply _ _ r l).trans (Finset.sum_congr rfl fun o _ => ?_))
  exact congrArg (q (ix2 r o) * ·) ((transpose_ix2_apply _ _ o l).trans (shapeCast_1ab_ab_apply v3 _ l o))

theorem kM_apply (s : FVec Ideal S512x25 .f32) (r : Fin 512) :
    kM s (ix1 r) = max (Ideal.ofBits .f32 0xFF800000#32)
      (Finset.univ.fold max (Ideal.ofBits .f32 0xFF800000#32) fun l : Fin 25 => s (ix2 r l)) := by
  unfold kM
  exact congrArg (max (Ideal.ofBits .f32 0xFF800000#32)) (rowMax_S512x25_apply s _ _ _ r)

theorem kE_apply (s : FVec Ideal S512x25 .f32) (r : Fin 512) (l : Fin 25) :
    kE s (ix2 r l) = Ideal.exp (s (ix2 r l) - kM s (ix1 r)) := by
  unfold kE
  exact congrArg (fun z => Ideal.exp (s (ix2 r l) - z)) (keepdims_S512_S512x25_apply (kM s) _ _ r l)

theorem kA_apply (e : FVec Ideal S512x25 .f32) (r : Fin 512) (l : Fin 25) :
    kA e (ix2 r l) = Ideal.div (e (ix2 r l)) (∑ l' : Fin 25, e (ix2 r l')) := by
  unfold kA
  exact congrArg (Ideal.div (e (ix2 r l))) ((keepdims_S512_S512x25_apply _ _ _ r l).trans (rowSum_S512x25_apply e _ _ _ r))

theorem kG_apply (a : FVec Ideal S512x25 .f32) (v3 : Vec Ideal S1x25x128 .f32) (r : Fin 512) (o : Fin 128) :
    kG a v3 (ix2 r o) = ∑ l : Fin 25, a (ix2 r l) * v3 (ix3 (0 : Fin 1) l o) := by
  unfold kG
  exact (dot_ga_apply _ _ r o).trans (Finset.sum_congr rfl fun l _ => congrArg (a (ix2 r l) * ·) (shapeCast_1ab_ab_apply v3 _ l o))

theorem kO_apply (v0 : Vec Ideal S1x512x2048 .f32) (g : FVec Ideal S512x128 .f32) (v5 : Vec Ideal S2048x128 .f32)
    (u : Fin 1) (r : Fin 512) (d : Fin 2048) :
    kO v0 g v5 (ix3 u r d) = v0 (ix3 (0 : Fin 1) r d) + ∑ o : Fin 128, g (ix2 r o) * v5 (ix2 d o) := by
  unfold kO
  refine (shapeCast_ab_1ab_apply _ _ u r d).trans ?_
  refine congrArg₂ (· + ·) (shapeCast_1ab_ab_apply v0 _ r d) ((dot_mo_apply _ _ r d).trans (Finset.sum_congr rfl fun o _ => ?_))
  refine congrArg (g (ix2 r o) * ·) ((transpose_ix2_apply _ _ o d).trans ?_)
  rw [shapeCast_self]

/-! ## A row of the tile is the specification's row function -/

/-- Row r of the body's tile: the row function of row r of the x tile, the query weights, the bus tile and the
    modulation weights. -/
theorem pay1_row (v0 : Vec Ideal S1x512x2048 .f32) (v2 : Vec Ideal S128x2048 .f32) (v3 : Vec Ideal S1x25x128 .f32) (v5 : Vec Ideal S2048x128 .f32)
    (r : Fin 512) (d : Fin 2048) :
    k1_pay1 v0 v2 v3 v5 (ix3 0 r d)
      = Cert.Spec.rowOut (fun d' => v0 (ix3 0 r d')) v2 (fun l o => v3 (ix3 0 l o)) v5 d := by
  have hq : ∀ o : Fin 128, kQ v0 v2 (ix2 r o) = Cert.Spec.qRow (fun d' => v0 (ix3 0 r d')) v2 o := fun o =>
    kQ_apply v0 v2 r o
  have hs : ∀ l : Fin 25, kS (kQ v0 v2) v3 (ix2 r l)
      = Cert.Spec.scRow (fun d' => v0 (ix3 0 r d')) v2 (fun l o => v3 (ix3 0 l o)) l := fun l =>
    (kS_apply _ v3 r l).trans (congrArg (· * Ideal.ofBits .f32 0x3DB504F3#32)
      (Finset.sum_congr rfl fun o _ => congrArg (· * v3 (ix3 (0 : Fin 1) l o)) (hq o)))
  have hm : kM (kS (kQ v0 v2) v3) (ix1 r)
      = Cert.Spec.mxRow (fun d' => v0 (ix3 0 r d')) v2 (fun l o => v3 (ix3 0 l o)) :=
    (kM_apply _ r).trans (congrArg (max (Ideal.ofBits .f32 0xFF800000#32))
      (congrArg (Finset.univ.fold max (Ideal.ofBits .f32 0xFF800000#32)) (funext hs)))
  have he : ∀ l : Fin 25, kE (kS (kQ v0 v2) v3) (ix2 r l)
      = Cert.Spec.exRow (fun d' => v0 (ix3 0 r d')) v2 (fun l o => v3 (ix3 0 l o)) l := fun l =>
    (kE_apply _ r l).trans (congrArg₂ (fun y z => Ideal.exp (y - z)) (hs l) hm)
  have ha : ∀ l : Fin 25, kA (kE (kS (kQ v0 v2) v3)) (ix2 r l)
      = Cert.Spec.atRow (fun d' => v0 (ix3 0 r d')) v2 (fun l o => v3 (ix3 0 l o)) l := fun l =>
    (kA_apply _ r l).trans (congrArg₂ Ideal.div (he l) (Finset.sum_congr rfl fun l' _ => he l'))
  have hg : ∀ o : Fin 128, kG (kA (kE (kS (kQ v0 v2) v3))) v3 (ix2 r o)
      = Cert.Spec.gaRow (fun d' => v0 (ix3 0 r d')) v2 (fun l o => v3 (ix3 0 l o)) o := fun o =>
    (kG_apply _ v3 r o).trans (Finset.sum_congr rfl fun l _ => congrArg (· * v3 (ix3 (0 : Fin 1) l o)) (ha l))
  rw [k1_pay1_eq]
  exact (kO_apply v0 _ v5 0 r d).trans (congrArg (v0 (ix3 (0 : Fin 1) r d) + ·)
    (Finset.sum_congr rfl fun o _ => congrArg (· * v5 (ix2 d o)) (hg o)))

end Cert.KernelIdeal.Hand

end
-- ==== Proof.MainValue.lean ====
/- The main kernel's output array after its region, at the ideal model: each input tile as entries of its array, what a
   point writes back as a tile of the specification's output, the tiles' cover, and so the whole array. -/
import proofs.«111059_j9234179686589_1_alg».proof.Proof.KI.MainFrame
import proofs.«111059_j9234179686589_1_alg».proof.Proof.SpecRow
import proofs.«111059_j9234179686589_1_alg».proof.Proof.MainPayload
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The windows' index maps over the grid -/

/-- The printed index maps, decided over the 64 points: at point 16·b + k the activation tile and the output tile are
    block (b, k, 0), the augmented bus block (b, 0, 0), and the two weight matrices whole. -/
theorem idx_facts1 : ∀ t : Fin cfg1.N,
    win1_0.index t (0 : Fin 3) = t.val / 16 ∧ win1_0.index t (1 : Fin 3) = t.val % 16 ∧ win1_0.index t (2 : Fin 3) = 0
    ∧ win1_1.index t (0 : Fin 2) = 0 ∧ win1_1.index t (1 : Fin 2) = 0
    ∧ win1_2.index t (0 : Fin 3) = t.val / 16 ∧ win1_2.index t (1 : Fin 3) = 0 ∧ win1_2.index t (2 : Fin 3) = 0
    ∧ win1_3.index t (0 : Fin 2) = 0 ∧ win1_3.index t (1 : Fin 2) = 0
    ∧ win1_4.index t (0 : Fin 3) = t.val / 16 ∧ win1_4.index t (1 : Fin 3) = t.val % 16 ∧ win1_4.index t (2 : Fin 3) = 0 :=
  (by decide +kernel : ∀ t : Fin grid1.N, _)

/-! ## The input blocks as entries of the arrays -/

/-- The activation tile at point `t`: row r of the tile is row 512·(t mod 16) + r of batch t / 16. -/
theorem iblk1_0_apply (c : Dev nD) (t : Fin cfg1.N) (x : S1x512x2048.Idx) (k : S4x8192x2048.Idx)
    (hk0 : (k 0).val = t.val / 16) (hk1 : (k 1).val = 512 * (t.val % 16) + (x 1).val) (hk2 : (k 2).val = (x 2).val) :
    (iblk1 V c 0 t : Vec Ideal S1x512x2048 .f32) x = (V c main_arg0 : S4x8192x2048.Idx → EReal) k := by
  obtain ⟨e0, e1, e2, -⟩ := idx_facts1 t
  have hx0 : (x 0).val < 1 := (x 0).isLt
  unfold iblk1
  rw [View.read_apply]
  show V c main_arg0 _ = V c main_arg0 _
  congr 1
  funext a
  apply Fin.ext
  match a with
  | ⟨0, _⟩ => show win1_0.index t (0 : Fin 3) * 1 + 1 * (x 0).val = (k 0).val; rw [e0, hk0]; omega
  | ⟨1, _⟩ => show win1_0.index t (1 : Fin 3) * 512 + 1 * (x 1).val = (k 1).val; rw [e1, hk1]; omega
  | ⟨2, _⟩ => show win1_0.index t (2 : Fin 3) * 2048 + 1 * (x 2).val = (k 2).val; rw [e2, hk2]; omega

/-- The augmented bus block at point `t` is batch t / 16 of the bus. -/
theorem iblk1_2_apply (c : Dev nD) (t : Fin cfg1.N) (x : S1x25x128.Idx) (k : S4x25x128.Idx)
    (hk0 : (k 0).val = t.val / 16) (hk1 : (k 1).val = (x 1).val) (hk2 : (k 2).val = (x 2).val) :
    (iblk1 V c 2 t : Vec Ideal S1x25x128 .f32) x = (V c main_v13 : S4x25x128.Idx → EReal) k := by
  obtain ⟨-, -, -, -, -, e0, e1, e2, -⟩ := idx_facts1 t
  have hx0 : (x 0).val < 1 := (x 0).isLt
  unfold iblk1
  rw [View.read_apply]
  show V c main_v13 _ = V c main_v13 _
  congr 1
  funext a
  apply Fin.ext
  match a with
  | ⟨0, _⟩ => show win1_2.index t (0 : Fin 3) * 1 + 1 * (x 0).val = (k 0).val; rw [e0, hk0]; omega
  | ⟨1, _⟩ => show win1_2.index t (1 : Fin 3) * 25 + 1 * (x 1).val = (k 1).val; rw [e1, hk1]; omega
  | ⟨2, _⟩ => show win1_2.index t (2 : Fin 3) * 128 + 1 * (x 2).val = (k 2).val; rw [e2, hk2]; omega

/-- The query weights' block is the whole matrix at every point. -/
theorem iblk1_1_eq (c : Dev nD) (t : Fin cfg1.N) :
    (iblk1 V c 1 t : Vec Ideal S128x2048 .f32) = (V c main_arg3 : S128x2048.Idx → EReal) := by
  obtain ⟨-, -, -, e0, e1, -⟩ := idx_facts1 t
  funext x
  unfold iblk1
  rw [View.read_apply]
  show V c main_arg3 _ = V c main_arg3 x
  congr 1
  funext a
  apply Fin.ext
  match a with
  | ⟨0, _⟩ => show win1_1.index t (0 : Fin 2) * 128 + 1 * (x 0).val = (x 0).val; rw [e0]; omega
  | ⟨1, _⟩ => show win1_1.index t (1 : Fin 2) * 2048 + 1 * (x 1).val = (x 1).val; rw [e1]; omega

/-- The scaled modulation weights' block is the whole matrix at every point. -/
theorem iblk1_3_eq (c : Dev nD) (t : Fin cfg1.N) :
    (iblk1 V c 3 t : Vec Ideal S2048x128 .f32) = (V c main_v22 : S2048x128.Idx → EReal) := by
  obtain ⟨-, -, -, -, -, -, -, -, e0, e1, -⟩ := idx_facts1 t
  funext x
  unfold iblk1
  rw [View.read_apply]
  show V c main_v22 _ = V c main_v22 x
  congr 1
  funext a
  apply Fin.ext
  match a with
  | ⟨0, _⟩ => show win1_3.index t (0 : Fin 2) * 2048 + 1 * (x 0).val = (x 0).val; rw [e0]; omega
  | ⟨1, _⟩ => show win1_3.index t (1 : Fin 2) * 128 + 1 * (x 1).val = (x 1).val; rw [e1]; omega

/-! ## What a point writes back -/

/-- The array the output ends holding: the specification's output of the four arrays as the region finds them. -/
abbrev G1 (c : Dev nD) : S4x8192x2048.Idx → EReal :=
  Cert.Spec.outK (V c main_arg0) (V c main_arg3) (V c main_v13) (V c main_v22)

/-- The row function respects equal arguments. -/
theorem rowOut_congr {xr xr' : Fin 2048 → EReal} {wq wq' : Cert.Spec.A2 128 2048} {ab ab' : Fin 25 → Fin 128 → EReal}
    {wms wms' : Cert.Spec.A2 2048 128} {d d' : Fin 2048} (h1 : xr = xr') (h2 : wq = wq') (h3 : ab = ab') (h4 : wms = wms') (h5 : d = d') :
    Cert.Spec.rowOut xr wq ab wms d = Cert.Spec.rowOut xr' wq' ab' wms' d' := by
  subst h1 h2 h3 h4 h5; rfl

/-- The payload of the four blocks at point `t`, at entry j of the tile, is the specification's output at the entry of
    the array that tile entry is: row 512·(t mod 16) + j₁ of batch t / 16. -/
theorem pay_at (c : Dev nD) (t : Fin cfg1.N) (j : S1x512x2048.Idx) (i : S4x8192x2048.Idx)
    (h0 : (i 0).val = t.val / 16) (h1 : (i 1).val = 512 * (t.val % 16) + (j 1).val) (h2 : (i 2).val = (j 2).val) :
    k1_pay1 (iblk1 V c 0 t) (iblk1 V c 1 t) (iblk1 V c 2 t) (iblk1 V c 3 t) j = G1 V c i := by
  have hj0 : (j 0).val < 1 := (j 0).isLt
  have hj : j = ix3 (n0 := 1) (n1 := 512) (n2 := 2048) 0 (j 1) (j 2) := by
    funext a
    match a with
    | ⟨0, _⟩ => exact Fin.ext (by show (j 0).val = 0; omega)
    | ⟨1, _⟩ => rfl
    | ⟨2, _⟩ => rfl
  have hi : i = ix3 (n0 := 4) (n1 := 8192) (n2 := 2048) (i 0) (i 1) (i 2) := eq_ix3 i
  calc k1_pay1 (iblk1 V c 0 t) (iblk1 V c 1 t) (iblk1 V c 2 t) (iblk1 V c 3 t) j
      = k1_pay1 (iblk1 V c 0 t) (iblk1 V c 1 t) (iblk1 V c 2 t) (iblk1 V c 3 t) (ix3 (n0 := 1) (n1 := 512) (n2 := 2048) 0 (j 1) (j 2)) :=
        congrArg (k1_pay1 (iblk1 V c 0 t) (iblk1 V c 1 t) (iblk1 V c 2 t) (iblk1 V c 3 t)) hj
    _ = Cert.Spec.rowOut (fun d' => (iblk1 V c 0 t : Vec Ideal S1x512x2048 .f32) (ix3 0 (j 1) d')) (iblk1 V c 1 t)
          (fun l o => (iblk1 V c 2 t : Vec Ideal S1x25x128 .f32) (ix3 0 l o)) (iblk1 V c 3 t) (j 2) :=
        pay1_row (iblk1 V c 0 t) (iblk1 V c 1 t) (iblk1 V c 2 t) (iblk1 V c 3 t) (j 1) (j 2)
    _ = Cert.Spec.rowOut (fun d' => (V c main_arg0 : S4x8192x2048.Idx → EReal) (ix3 (i 0) (i 1) d')) (V c main_arg3)
          (fun l o => (V c main_v13 : S4x25x128.Idx → EReal) (ix3 (i 0) l o)) (V c main_v22) (i 2) := by
        refine rowOut_congr ?_ (iblk1_1_eq V c t) ?_ (iblk1_3_eq V c t) (Fin.ext h2.symm)
        · funext d'
          exact iblk1_0_apply V c t (ix3 0 (j 1) d') (ix3 (i 0) (i 1) d') h0 h1 rfl
        · funext l o
          exact iblk1_2_apply V c t (ix3 0 l o) (ix3 (i 0) l o) h0 rfl rfl
    _ = G1 V c (ix3 (n0 := 4) (n1 := 8192) (n2 := 2048) (i 0) (i 1) (i 2)) :=
        (Cert.Spec.outK_row (V c main_arg0) (V c main_arg3) (V c main_v13) (V c main_v22) (i 0) (i 1) (i 2)).symm
    _ = G1 V c i := congrArg (G1 V c) hi.symm

/-- WHAT POINT `t` WRITES BACK is block `t` of the specification's output. -/
theorem flushed1_4_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4, out1_4_eq]
  obtain ⟨-, -, -, -, -, -, -, -, -, -, e0, e1, e2⟩ := idx_facts1 t
  funext j
  rw [View.read_apply]
  have hj0 : (j 0).val < 1 := (j 0).isLt
  refine pay_at V c t j _ ?_ ?_ ?_
  · show win1_4.index t (0 : Fin 3) * 1 + 1 * (j 0).val = t.val / 16; rw [e0]; omega
  · show win1_4.index t (1 : Fin 3) * 512 + 1 * (j 1).val = 512 * (t.val % 16) + (j 1).val; rw [e1]; omega
  · show win1_4.index t (2 : Fin 3) * 2048 + 1 * (j 2).val = (j 2).val; rw [e2]; omega

/-! ## The output's tiles cover the array -/

/-- An entry of the array is in point `t`'s tile iff each coordinate is in the tile's range on its axis. -/
theorem mem_blk1_4 (t : Fin cfg1.N) (i : S4x8192x2048.Idx) :
    i ∈ ((cfg1.win 4).blk t).view.set ↔ ∀ a : Fin 3, win1_4.index t a * S1x512x2048.size a ≤ (i a).val
      ∧ (i a).val < win1_4.index t a * S1x512x2048.size a + S1x512x2048.size a := by
  show i ∈ ((View.whole main_v23).slice (win1_4.rect t)).set ↔ _
  rw [View.set_slice_whole, Rect.mem_set_unit]
  exact Iff.rfl

/-- Row s of batch b lies in the tile of point 16·b + s / 512, and every point writes back. -/
theorem cover1_out (i : S4x8192x2048.Idx) :
    ∃ t : Fin cfg1.N, (cfg1.win 4).flush t = true ∧ i ∈ ((cfg1.win 4).blk t).view.set := by
  have hi0 : (i 0).val < 4 := (i 0).isLt
  have hi1 : (i 1).val < 8192 := (i 1).isLt
  have hi2 : (i 2).val < 2048 := (i 2).isLt
  refine ⟨⟨16 * (i 0).val + (i 1).val / 512, by rw [show cfg1.N = 64 from N_1]; omega⟩, flush1_4 _, ?_⟩
  rw [mem_blk1_4]
  obtain ⟨-, -, -, -, -, -, -, -, -, -, e0, e1, e2⟩ :=
    idx_facts1 ⟨16 * (i 0).val + (i 1).val / 512, by rw [show cfg1.N = 64 from N_1]; omega⟩
  intro a
  match a with
  | ⟨0, _⟩ =>
    show win1_4.index _ (0 : Fin 3) * 1 ≤ (i 0).val ∧ (i 0).val < win1_4.index _ (0 : Fin 3) * 1 + 1
    rw [e0]; show (16 * (i 0).val + (i 1).val / 512) / 16 * 1 ≤ (i 0).val ∧ (i 0).val < (16 * (i 0).val + (i 1).val / 512) / 16 * 1 + 1; omega
  | ⟨1, _⟩ =>
    show win1_4.index _ (1 : Fin 3) * 512 ≤ (i 1).val ∧ (i 1).val < win1_4.index _ (1 : Fin 3) * 512 + 512
    rw [e1]; show (16 * (i 0).val + (i 1).val / 512) % 16 * 512 ≤ (i 1).val ∧ (i 1).val < (16 * (i 0).val + (i 1).val / 512) % 16 * 512 + 512; omega
  | ⟨2, _⟩ =>
    show win1_4.index _ (2 : Fin 3) * 2048 ≤ (i 2).val ∧ (i 2).val < win1_4.index _ (2 : Fin 3) * 2048 + 2048
    rw [e2]; omega

/-! ## The array after the region -/

/-- The output array ends holding the specification's output of the four arrays the region reads. -/
theorem main_final (c : Dev nD) :
    ((dat1 V c).arrAt 4 cfg1.N : S4x8192x2048.Idx → EReal)
      = Cert.Spec.outK (V c main_arg0) (V c main_arg3) (V c main_v13) (V c main_v22) :=
  (dat1 V c).arrAt_eq_of_cover 4 (G1 V c) (fun t _ => flushed1_4_eq V c t) cover1_out

end Cert.KernelIdeal.Hand

end
-- ==== Proof.HostValue.lean ====
import proofs.«111059_j9234179686589_1_alg».proof.Proof.Gen.KernelIdeal.Regions
import proofs.«111059_j9234179686589_1_alg».proof.Proof.Spec
import Idealize.ShloMosaic.Lib.Pipeline.Value
import Idealize.ShloMosaic.Lib.ValueIdx
import Idealize.ShloMosaic.Lib.StableHlo.Run
import Idealize.ShloMosaic.PureOps.Ideal.Laws
import Idealize.ShloMosaic.PureOps.IdealRules

/-! What the two stretches of whole-array operations between the kernel's two grids compute, over the extended
reals, from ANY contents `W` of the buffers before the stretch.

The first stretch: the pooled rows [4,1,2048] read as [4,2048] against the publish weights give the published
matrix v(b,o) = Σ_d xp(b,d)·wp(o,d); each row divided by max(√(Σ_o v(b,o)²), ε) is the summary; the summary put in
front of the cache along the middle axis is the augmented bus; and the modulation weights times
1/(1 + exp(−gate)) = σ(gate) are the scaled weights. The second stretch puts the summary behind the cache.
Each stage is named, shown to be what the stretch leaves in its buffer, and read index by index. Neither stretch
writes an argument, the pool, the summary (second stretch) or the second grid's output. -/

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

/-! ## The stages -/

/-- An f32 array of shape `s` over the extended reals. -/
abbrev Arr (s : Shape) : Type := (⟨s, .f32⟩ : BufTy).Contents (Elt Ideal)

/-- The published matrix: the pooled rows against the publish weights. -/
def pubT (x0 : Arr S4x1x2048) (wp : Arr S128x2048) : Arr S4x128 :=
  Host.dotGeneral (F := Ideal) (φ₁ := .f32) (φ₂ := .f32) dot_S4x2048_S2048x128_S4x128_1_0_0_1_n_n none
    (shapeCast S4x2048 x0 shapeCasts_S4x1x2048_S4x2048)
    (transpose S2048x128 [1, 0] wp transposes_S128x2048_S2048x128_1_0)

/-- The squared row lengths. -/
def sqT (v : Arr S4x128) : Arr S4 :=
  Host.reduceAdd (F := Ideal) (φ := .f32) (mulf (F := Ideal) (φ := .f32) v v) (constant (F := Ideal) S_ .f32 0x00000000#32) reducesTo_S4x128_S4_d1 h_S_

/-- The row lengths clamped below, spread over the columns. -/
def lenT (v : Arr S4x128) : Arr S4x128 :=
  broadcastInDim S4x128 ![0, 1] bcast_S4x1_S4x128_0_1
    (maximumf (F := Ideal) (φ := .f32)
      (Host.sqrt (F := Ideal) (φ := .f32) (broadcastInDim S4x1 ![0] bcast_S4_S4x1_0 (sqT v)))
      (broadcastInDim S4x1 ![] bcast_S_S4x1 (constant (F := Ideal) S_ .f32 0x2B8CBCCC#32)))

/-- The summary: each row over its clamped length. -/
def smT (v : Arr S4x128) : Arr S4x128 :=
  Host.divf (F := Ideal) (φ := .f32) v (lenT v)

/-- The summary put in front of the cache. -/
def augT (s : Arr S4x128) (c : Arr S4x24x128) : Arr S4x25x128 :=
  concatenate S4x25x128 1 [⟨S4x1x128, (broadcastInDim S4x1x128 ![0, 2] bcast_S4x128_S4x1x128_0_2 s : Arr S4x1x128)⟩, ⟨S4x24x128, c⟩]
    concatenates_S4x1x128_S4x24x128_S4x25x128_d1

/-- The cache with the summary appended. -/
def cacheT (s : Arr S4x128) (c : Arr S4x24x128) : Arr S4x25x128 :=
  concatenate S4x25x128 1 [⟨S4x24x128, c⟩, ⟨S4x1x128, (broadcastInDim S4x1x128 ![0, 2] bcast_S4x128_S4x1x128_0_2 s : Arr S4x1x128)⟩]
    concatenates_S4x24x128_S4x1x128_S4x25x128_d1

/-- The gate through the logistic, as printed: one over one plus the exponential of the negation. -/
def sgT (g : Arr S1) : Arr S1 :=
  Host.divf (F := Ideal) (φ := .f32) (broadcastInDim S1 ![] bcast_S_S1 (constant (F := Ideal) S_ .f32 0x3F800000#32))
    (addf (F := Ideal) (φ := .f32) (broadcastInDim S1 ![] bcast_S_S1 (constant (F := Ideal) S_ .f32 0x3F800000#32))
      (Host.exp (F := Ideal) (φ := .f32) (Host.negf (F := Ideal) (φ := .f32) g)))

/-- The modulation weights times the gate's logistic. -/
def scT (wm : Arr S2048x128) (g : Arr S1) : Arr S2048x128 :=
  mulf (F := Ideal) (φ := .f32) wm (broadcastInDim S2048x128 ![] bcast_S_S2048x128 (shapeCast S_ (sgT g) shapeCasts_S1_S_))

/-! ## The stretches' buffers are the stages -/

/-- The summary buffer after the first stretch, as the stages composed. -/
theorem host1_v11_term (W : Valuation τ sig (Elt Ideal)) :
    (StableHlo.after hostOps1 W (Proc.devRef .tc main_v11) : S4x128.Idx → EReal)
      = smT (pubT (W (Proc.devRef .tc main_v0)) (W (Proc.devRef .tc main_arg2))) := by
  dsimp only [hostOps1]
  after_results
  rfl

/-- The bus buffer after the first stretch, as the stages composed. -/
theorem host1_v13_term (W : Valuation τ sig (Elt Ideal)) :
    (StableHlo.after hostOps1 W (Proc.devRef .tc main_v13) : S4x25x128.Idx → EReal)
      = augT (smT (pubT (W (Proc.devRef .tc main_v0)) (W (Proc.devRef .tc main_arg2)))) (W (Proc.devRef .tc main_arg1)) := by
  dsimp only [hostOps1]
  after_results
  rfl

/-- The scaled-weights buffer after the first stretch, as the stages composed. -/
theorem host1_v22_term (W : Valuation τ sig (Elt Ideal)) :
    (StableHlo.after hostOps1 W (Proc.devRef .tc main_v22) : S2048x128.Idx → EReal)
      = scT (W (Proc.devRef .tc main_arg4)) (W (Proc.devRef .tc main_arg6)) := by
  dsimp only [hostOps1]
  after_results
  rfl

/-- The new-cache buffer after the second stretch, as the stages composed. -/
theorem host2_v25_term (W : Valuation τ sig (Elt Ideal)) :
    (StableHlo.after hostOps2 W (Proc.devRef .tc main_v25) : S4x25x128.Idx → EReal)
      = cacheT (W (Proc.devRef .tc main_v11)) (W (Proc.devRef .tc main_arg1)) := by
  dsimp only [hostOps2]
  after_results
  rfl

/-! ## The stages index by index -/

/-- The product's left index at a contraction index: the row, then the contraction coordinate. -/
theorem dotP_lhs0 (i : S4x128.Idx) (q : dot_S4x2048_S2048x128_S4x128_1_0_0_1_n_n.contr.Idx) : (dot_S4x2048_S2048x128_S4x128_1_0_0_1_n_n.lhsIdx i q 0).val = (i 0).val := by
  unfold DotDims.lhsIdx
  rw [dif_neg (show ¬(0 : Fin S4x2048.rank) ∈ dot_S4x2048_S2048x128_S4x128_1_0_0_1_n_n.lhsBatch by decide), dif_pos (show (0 : Fin S4x2048.rank) ∈ dot_S4x2048_S2048x128_S4x128_1_0_0_1_n_n.lhsNonContracting by decide)]
  rfl
/-- The left index's second coordinate is the contraction coordinate. -/
theorem dotP_lhs1 (i : S4x128.Idx) (q : dot_S4x2048_S2048x128_S4x128_1_0_0_1_n_n.contr.Idx) : (dot_S4x2048_S2048x128_S4x128_1_0_0_1_n_n.lhsIdx i q 1).val = (q ⟨0, by decide⟩).val :=
  dot_S4x2048_S2048x128_S4x128_1_0_0_1_n_n.lhsIdx_val_of_single rfl i q
/-- The right index's first coordinate is the contraction coordinate. -/
theorem dotP_rhs0 (i : S4x128.Idx) (q : dot_S4x2048_S2048x128_S4x128_1_0_0_1_n_n.contr.Idx) : (dot_S4x2048_S2048x128_S4x128_1_0_0_1_n_n.rhsIdx i q 0).val = (q ⟨0, by decide⟩).val :=
  dot_S4x2048_S2048x128_S4x128_1_0_0_1_n_n.rhsIdx_val_of_single rfl i q
/-- The right index's second coordinate is the column. -/
theorem dotP_rhs1 (i : S4x128.Idx) (q : dot_S4x2048_S2048x128_S4x128_1_0_0_1_n_n.contr.Idx) : (dot_S4x2048_S2048x128_S4x128_1_0_0_1_n_n.rhsIdx i q 1).val = (i 1).val := by
  unfold DotDims.rhsIdx
  rw [dif_neg (show ¬(1 : Fin S2048x128.rank) ∈ dot_S4x2048_S2048x128_S4x128_1_0_0_1_n_n.rhsBatch by decide), dif_pos (show (1 : Fin S2048x128.rank) ∈ dot_S4x2048_S2048x128_S4x128_1_0_0_1_n_n.rhsNonContracting by decide)]
  rfl

/-- The published matrix at an index: the pooled row against the weight row. -/
theorem pubT_apply (x0 : Arr S4x1x2048) (wp : Arr S128x2048) (j : S4x128.Idx) :
    pubT x0 wp j = ∑ d : Fin 2048, x0 (ix3 (j 0) 0 d) * wp (ix2 (j 1) d) := by
  unfold pubT
  simp only [Host.dotGeneral]
  rw [Ideal.dotGeneral_apply, ← Equiv.sum_comp (ValueIdx.contrEquiv1 dot_S4x2048_S2048x128_S4x128_1_0_0_1_n_n 2048 rfl rfl).symm]
  refine Finset.sum_congr rfl fun k _ => ?_
  have hk := ValueIdx.contrEquiv1_symm_val dot_S4x2048_S2048x128_S4x128_1_0_0_1_n_n 2048 rfl rfl k
  have el : shapeCast S4x2048 x0 shapeCasts_S4x1x2048_S4x2048 (dot_S4x2048_S2048x128_S4x128_1_0_0_1_n_n.lhsIdx j ((ValueIdx.contrEquiv1 dot_S4x2048_S2048x128_S4x128_1_0_0_1_n_n 2048 rfl rfl).symm k))
      = x0 (ix3 (j 0) 0 k) :=
    shapeCast_apply x0 shapeCasts_S4x1x2048_S4x2048 _ _ (by
      rw [Shape.rowMajor_val_three, Shape.rowMajor_val_two, dotP_lhs0, dotP_lhs1, hk]
      show ((j 0).val * 1 + 0) * 2048 + k.val = (j 0).val * 2048 + k.val
      omega)
  have er : transpose S2048x128 [1, 0] wp transposes_S128x2048_S2048x128_1_0 (dot_S4x2048_S2048x128_S4x128_1_0_0_1_n_n.rhsIdx j ((ValueIdx.contrEquiv1 dot_S4x2048_S2048x128_S4x128_1_0_0_1_n_n 2048 rfl rfl).symm k))
      = wp (ix2 (j 1) k) :=
    transpose_apply [1, 0] wp transposes_S128x2048_S2048x128_1_0 _ (ix2 (j 1) k) (fun b => match b with
      | ⟨0, _⟩ => ((dotP_rhs0 _ _).trans hk).symm
      | ⟨1, _⟩ => (dotP_rhs1 _ _).symm)
  rw [el, er]

/-- The squared length of a row. -/
theorem sqT_apply (v : Arr S4x128) (i : S4.Idx) : sqT v i = ∑ o : Fin 128, v (ix2 (i 0) o) * v (ix2 (i 0) o) := by
  unfold sqT
  simp only [Host.reduceAdd, Ideal.hostReduceAdd_def]
  rw [Ideal.hostReduceAdd_single reducesTo_S4x128_S4_d1 (by decide)]
  rw [show (constant (F := Ideal) S_ .f32 0x00000000#32) (Shape.Idx.first h_S_) = 0 from Ideal.ofBits_zero_f32, zero_add]
  refine Finset.sum_congr rfl fun k _ => ?_
  have e : ∀ (h : S4x128.Reduces [1] S4), h.lift i k = ix2 (i 0) k := fun h => funext fun a => Fin.ext (by match a with | ⟨0, _⟩ => rfl | ⟨1, _⟩ => rfl)
  rw [e]
  rfl

/-- The clamped row length at an index. -/
theorem lenT_apply (v : Arr S4x128) (j : S4x128.Idx) :
    lenT v j = max (Ideal.sqrt (sqT v (ix1 (j 0)))) (Ideal.ofBits .f32 0x2B8CBCCC#32) := by
  unfold lenT
  refine (broadcastInDim_apply _ bcast_S4x1_S4x128_0_1 _ j (ix2 (j 0) 0) (fun a => match a with
    | ⟨0, _⟩ => by show (j 0).val = if (4 : Nat) = 1 then 0 else (j 0).val; rw [if_neg (by decide)]
    | ⟨1, _⟩ => by show 0 = if (1 : Nat) = 1 then 0 else (j 1).val; rw [if_pos rfl])).trans ?_
  show max (Ideal.sqrt (broadcastInDim S4x1 ![0] bcast_S4_S4x1_0 (sqT v) (ix2 (j 0) 0)))
      (broadcastInDim S4x1 ![] bcast_S_S4x1 (constant (F := Ideal) S_ .f32 0x2B8CBCCC#32) (ix2 (j 0) 0)) = _
  rw [broadcastInDim_apply _ bcast_S4_S4x1_0 (sqT v) (ix2 (j 0) 0) (ix1 (j 0)) (fun a => match a with
    | ⟨0, _⟩ => by show (j 0).val = if (4 : Nat) = 1 then 0 else (j 0).val; rw [if_neg (by decide)]),
    broadcastInDim_apply _ bcast_S_S4x1 (constant (F := Ideal) S_ .f32 0x2B8CBCCC#32) (ix2 (j 0) 0) ix0 (fun a => a.elim0)]
  rfl

/-- The summary is the unit normalisation of its rows. -/
theorem smT_eq (v : Arr S4x128) : smT v = fun j => Cert.Spec.unitRows (fun b o => v (ix2 b o)) (j 0) (j 1) := by
  refine funext fun (j : S4x128.Idx) => ?_
  show Ideal.div (v j) (lenT v j) = _
  rw [lenT_apply, sqT_apply]
  unfold Cert.Spec.unitRows Cert.Spec.epsNorm
  exact congrArg₂ Ideal.div (congrArg v (eq_ix2 j)) rfl

/-- The published matrix is the spec's. -/
theorem pubT_eq (x0 : Arr S4x1x2048) (wp : Arr S128x2048) :
    (fun b o => pubT x0 wp (ix2 b o)) = Cert.Spec.pub (fun b d => x0 (ix3 b 0 d)) wp := by
  funext b o
  rw [pubT_apply]
  rfl

/-- The summary in front of the cache is the spec's augmented bus. -/
theorem augT_eq (s : Arr S4x128) (c : Arr S4x24x128) : augT s c = Cert.Spec.augOf (fun b o => s (ix2 b o)) c := by
  refine funext fun (j : S4x25x128.Idx) => ?_
  unfold augT Cert.Spec.augOf
  by_cases h : (j 1).val = 0
  · rw [dif_pos h]
    refine (concatenate_pair_apply_left (1 : Fin S4x25x128.rank) _ c concatenates_S4x1x128_S4x24x128_S4x25x128_d1 j rfl
      (ix3 (j 0) 0 (j 2)) (fun b => match b with
        | ⟨0, _⟩ => rfl
        | ⟨1, _⟩ => h.symm
        | ⟨2, _⟩ => rfl)).trans ?_
    exact broadcastInDim_apply _ bcast_S4x128_S4x1x128_0_2 s (ix3 (j 0) 0 (j 2)) (ix2 (j 0) (j 2)) (fun a => match a with
      | ⟨0, _⟩ => by show (j 0).val = if (4 : Nat) = 1 then 0 else (j 0).val; rw [if_neg (by decide)]
      | ⟨1, _⟩ => by show (j 2).val = if (128 : Nat) = 1 then 0 else (j 2).val; rw [if_neg (by decide)])
  · rw [dif_neg h]
    exact concatenate_pair_apply_right (1 : Fin S4x25x128.rank) _ c concatenates_S4x1x128_S4x24x128_S4x25x128_d1 j rfl rfl
      _ (fun b hb => match b with
        | ⟨0, _⟩ => rfl
        | ⟨1, _⟩ => absurd rfl hb
        | ⟨2, _⟩ => rfl) (by show (j 1).val - 1 + 1 = (j 1).val; omega)

/-- The cache with the summary behind it is the spec's new cache. -/
theorem cacheT_eq (s : Arr S4x128) (c : Arr S4x24x128) : cacheT s c = Cert.Spec.cacheOf (fun b o => s (ix2 b o)) c := by
  refine funext fun (j : S4x25x128.Idx) => ?_
  unfold cacheT Cert.Spec.cacheOf
  by_cases h : (j 1).val < 24
  · rw [dif_pos h]
    exact concatenate_pair_apply_left (1 : Fin S4x25x128.rank) c _ concatenates_S4x24x128_S4x1x128_S4x25x128_d1 j rfl
      _ (fun b => match b with
        | ⟨0, _⟩ => rfl
        | ⟨1, _⟩ => rfl
        | ⟨2, _⟩ => rfl)
  · rw [dif_neg h]
    have h25 : (j 1).val < 25 := (j 1).isLt
    refine (concatenate_pair_apply_right (1 : Fin S4x25x128.rank) c _ concatenates_S4x24x128_S4x1x128_S4x25x128_d1 j rfl rfl
      (ix3 (j 0) 0 (j 2)) (fun b hb => match b with
        | ⟨0, _⟩ => rfl
        | ⟨1, _⟩ => absurd rfl hb
        | ⟨2, _⟩ => rfl) (by show 0 + 24 = (j 1).val; omega)).trans ?_
    exact broadcastInDim_apply _ bcast_S4x128_S4x1x128_0_2 s (ix3 (j 0) 0 (j 2)) (ix2 (j 0) (j 2)) (fun a => match a with
      | ⟨0, _⟩ => by show (j 0).val = if (4 : Nat) = 1 then 0 else (j 0).val; rw [if_neg (by decide)]
      | ⟨1, _⟩ => by show (j 2).val = if (128 : Nat) = 1 then 0 else (j 2).val; rw [if_neg (by decide)])

/-- The printed one over one plus the exponential of the negation is the logistic. -/
theorem sgT_apply (g : Arr S1) (i : S1.Idx) : sgT g i = Ideal.logistic (g i) := by
  have h1 : broadcastInDim S1 ![] bcast_S_S1 (constant (F := Ideal) S_ .f32 0x3F800000#32) i = 1 :=
    (broadcastInDim_apply _ bcast_S_S1 (constant (F := Ideal) S_ .f32 0x3F800000#32) i ix0 (fun a => a.elim0)).trans
      (IdealRules.sign_bit.ideal_onePat .f32)
  show Ideal.div (broadcastInDim S1 ![] bcast_S_S1 (constant (F := Ideal) S_ .f32 0x3F800000#32) i)
      (broadcastInDim S1 ![] bcast_S_S1 (constant (F := Ideal) S_ .f32 0x3F800000#32) i + Ideal.exp (-(g i))) = _
  rw [h1]
  rfl

/-- The scaled modulation weights are the spec's. -/
theorem scT_eq (wm : Arr S2048x128) (g : Arr S1) : scT wm g = Cert.Spec.scaled wm (Cert.Spec.sg g) := by
  refine funext fun (j : S2048x128.Idx) => ?_
  have hb : broadcastInDim S2048x128 ![] bcast_S_S2048x128 (shapeCast S_ (sgT g) shapeCasts_S1_S_) j = Ideal.logistic (g (ix1 0)) :=
    (broadcastInDim_apply _ bcast_S_S2048x128 _ j ix0 (fun a => a.elim0)).trans
      ((shapeCast_apply (sgT g) shapeCasts_S1_S_ ix0 (ix1 0) (by
        rw [Shape.rowMajor_val_one]
        have := (S_.rowMajor ix0).isLt
        have h1 : S_.numel = 1 := by decide
        show 0 = _
        omega)).trans (sgT_apply g (ix1 0)))
  show wm j * _ = wm j * _
  rw [hb]
  rfl

/-! ## What the stretches leave -/

/-- After the first stretch the summary buffer holds the published pool with unit rows. -/
theorem host1_v11 (W : Valuation τ sig (Elt Ideal)) :
    (StableHlo.after hostOps1 W (Proc.devRef .tc main_v11) : S4x128.Idx → EReal)
      = fun j => Cert.Spec.unitRows (Cert.Spec.pub (fun b d => (W (Proc.devRef .tc main_v0) : S4x1x2048.Idx → EReal) (ix3 b 0 d)) (W (Proc.devRef .tc main_arg2))) (j 0) (j 1) := by
  rw [host1_v11_term, smT_eq, pubT_eq]
  rfl

/-- After the first stretch the bus buffer holds the summary in front of the cache. -/
theorem host1_v13 (W : Valuation τ sig (Elt Ideal)) :
    (StableHlo.after hostOps1 W (Proc.devRef .tc main_v13) : S4x25x128.Idx → EReal)
      = Cert.Spec.augOf (Cert.Spec.unitRows (Cert.Spec.pub (fun b d => (W (Proc.devRef .tc main_v0) : S4x1x2048.Idx → EReal) (ix3 b 0 d)) (W (Proc.devRef .tc main_arg2)))) (W (Proc.devRef .tc main_arg1)) := by
  rw [host1_v13_term, augT_eq, smT_eq, pubT_eq]

/-- After the first stretch the scaled-weights buffer holds the modulation weights times σ(gate). -/
theorem host1_v22 (W : Valuation τ sig (Elt Ideal)) :
    (StableHlo.after hostOps1 W (Proc.devRef .tc main_v22) : S2048x128.Idx → EReal)
      = Cert.Spec.scaled (W (Proc.devRef .tc main_arg4)) (Cert.Spec.sg (W (Proc.devRef .tc main_arg6))) := by
  rw [host1_v22_term, scT_eq]

/-- After the second stretch the new-cache buffer holds the cache with the summary behind it. -/
theorem host2_v25 (W : Valuation τ sig (Elt Ideal)) :
    (StableHlo.after hostOps2 W (Proc.devRef .tc main_v25) : S4x25x128.Idx → EReal)
      = Cert.Spec.cacheOf (fun b o => (W (Proc.devRef .tc main_v11) : S4x128.Idx → EReal) (ix2 b o)) (W (Proc.devRef .tc main_arg1)) := by
  rw [host2_v25_term, cacheT_eq]

/-! ## What the stretches leave alone -/

/-- The first stretch changes no buffer outside the ones it writes. -/
theorem host1_keeps (W : Valuation τ sig (Elt Ideal)) {r : Ref sig .tc} (h : r ∉ hostOps1_W) :
    StableHlo.after hostOps1 W (Proc.devRef .tc r) = W (Proc.devRef .tc r) :=
  StableHlo.after_of_writes_sub hostOps1 W hostOps1_writes h
/-- The second stretch changes no buffer outside the two it writes. -/
theorem host2_keeps (W : Valuation τ sig (Elt Ideal)) {r : Ref sig .tc} (h : r ∉ hostOps2_W) :
    StableHlo.after hostOps2 W (Proc.devRef .tc r) = W (Proc.devRef .tc r) :=
  StableHlo.after_of_writes_sub hostOps2 W hostOps2_writes h

theorem host1_main_v0 (W : Valuation τ sig (Elt Ideal)) : StableHlo.after hostOps1 W (Proc.devRef .tc main_v0) = W (Proc.devRef .tc main_v0) := host1_keeps W (by decide)
theorem host1_main_arg0 (W : Valuation τ sig (Elt Ideal)) : StableHlo.after hostOps1 W (Proc.devRef .tc main_arg0) = W (Proc.devRef .tc main_arg0) := host1_keeps W (by decide)
theorem host1_main_arg1 (W : Valuation τ sig (Elt Ideal)) : StableHlo.after hostOps1 W (Proc.devRef .tc main_arg1) = W (Proc.devRef .tc main_arg1) := host1_keeps W (by decide)
theorem host1_main_arg2 (W : Valuation τ sig (Elt Ideal)) : StableHlo.after hostOps1 W (Proc.devRef .tc main_arg2) = W (Proc.devRef .tc main_arg2) := host1_keeps W (by decide)
theorem host1_main_arg3 (W : Valuation τ sig (Elt Ideal)) : StableHlo.after hostOps1 W (Proc.devRef .tc main_arg3) = W (Proc.devRef .tc main_arg3) := host1_keeps W (by decide)
theorem host1_main_arg4 (W : Valuation τ sig (Elt Ideal)) : StableHlo.after hostOps1 W (Proc.devRef .tc main_arg4) = W (Proc.devRef .tc main_arg4) := host1_keeps W (by decide)
theorem host1_main_arg5 (W : Valuation τ sig (Elt Ideal)) : StableHlo.after hostOps1 W (Proc.devRef .tc main_arg5) = W (Proc.devRef .tc main_arg5) := host1_keeps W (by decide)
theorem host1_main_arg6 (W : Valuation τ sig (Elt Ideal)) : StableHlo.after hostOps1 W (Proc.devRef .tc main_arg6) = W (Proc.devRef .tc main_arg6) := host1_keeps W (by decide)
theorem host2_main_v23 (W : Valuation τ sig (Elt Ideal)) : StableHlo.after hostOps2 W (Proc.devRef .tc main_v23) = W (Proc.devRef .tc main_v23) := host2_keeps W (by decide)
theorem host2_main_v11 (W : Valuation τ sig (Elt Ideal)) : StableHlo.after hostOps2 W (Proc.devRef .tc main_v11) = W (Proc.devRef .tc main_v11) := host2_keeps W (by decide)
theorem host2_main_v0 (W : Valuation τ sig (Elt Ideal)) : StableHlo.after hostOps2 W (Proc.devRef .tc main_v0) = W (Proc.devRef .tc main_v0) := host2_keeps W (by decide)
theorem host2_main_arg0 (W : Valuation τ sig (Elt Ideal)) : StableHlo.after hostOps2 W (Proc.devRef .tc main_arg0) = W (Proc.devRef .tc main_arg0) := host2_keeps W (by decide)
theorem host2_main_arg1 (W : Valuation τ sig (Elt Ideal)) : StableHlo.after hostOps2 W (Proc.devRef .tc main_arg1) = W (Proc.devRef .tc main_arg1) := host2_keeps W (by decide)
theorem host2_main_arg2 (W : Valuation τ sig (Elt Ideal)) : StableHlo.after hostOps2 W (Proc.devRef .tc main_arg2) = W (Proc.devRef .tc main_arg2) := host2_keeps W (by decide)
theorem host2_main_arg3 (W : Valuation τ sig (Elt Ideal)) : StableHlo.after hostOps2 W (Proc.devRef .tc main_arg3) = W (Proc.devRef .tc main_arg3) := host2_keeps W (by decide)
theorem host2_main_arg4 (W : Valuation τ sig (Elt Ideal)) : StableHlo.after hostOps2 W (Proc.devRef .tc main_arg4) = W (Proc.devRef .tc main_arg4) := host2_keeps W (by decide)
theorem host2_main_arg5 (W : Valuation τ sig (Elt Ideal)) : StableHlo.after hostOps2 W (Proc.devRef .tc main_arg5) = W (Proc.devRef .tc main_arg5) := host2_keeps W (by decide)
theorem host2_main_arg6 (W : Valuation τ sig (Elt Ideal)) : StableHlo.after hostOps2 W (Proc.devRef .tc main_arg6) = W (Proc.devRef .tc main_arg6) := host2_keeps W (by decide)

end Cert.KernelIdeal.Hand

end
-- ==== Proof.Algebra.lean ====
import proofs.«111059_j9234179686589_1_alg».proof.Proof.Spec
import Mathlib.Data.EReal.Operations

/-! The one law that joins the two arrangements of the modulation: scaling the weights first,
Σ_o g(o)·(w(o)·c), against scaling the contracted sum last, (Σ_o g(o)·w(o))·c. On the extended reals
multiplication by c distributes over a sum when c is a nonnegative real; c = σ(gate) always is: the
logistic function takes -∞ to 0, +∞ to 1 and a real r to 1/(1+e^(-r)) > 0. -/

noncomputable section

namespace Cert.Spec

open Idealize.ShloMosaic Idealize.ShloMosaic.ValueIdx

/-- The logistic function's values are nonnegative. -/
theorem logistic_nonneg (z : EReal) : 0 ≤ Ideal.logistic z := by
  induction z using EReal.rec with
  | bot => rw [Ideal.logistic_bot]
  | top => rw [Ideal.logistic_top]; exact zero_le_one
  | coe r =>
    rw [Ideal.logistic_coe]
    exact EReal.coe_nonneg.mpr (inv_nonneg.mpr (by positivity))

/-- The logistic function's values are never +∞. -/
theorem logistic_ne_top (z : EReal) : Ideal.logistic z ≠ ⊤ := by
  induction z using EReal.rec with
  | bot => rw [Ideal.logistic_bot]; exact EReal.zero_ne_top
  | top => rw [Ideal.logistic_top, ← EReal.coe_one]; exact EReal.coe_ne_top _
  | coe r => rw [Ideal.logistic_coe]; exact EReal.coe_ne_top _

/-- A nonnegative real factor moves across a finite sum of extended reals. -/
theorem sum_mul_of_nonneg_of_ne_top {ι : Type*} (s : Finset ι) (f : ι → EReal) {c : EReal} (hc : 0 ≤ c) (hc' : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top hc hc', ih]

/-- Scaling the modulation weights first or the contracted sum last gives the same output, for a
    nonnegative real scale. -/
theorem outK_scaled (x : A3 4 8192 2048) (wq : A2 128 2048) (aug : A3 4 25 128) (wm : A2 2048 128) {c : EReal}
    (hc : 0 ≤ c) (hc' : c ≠ ⊤) : outK x wq aug (scaled wm c) = outR x wq aug wm c := by
  funext j
  unfold outK outR scaled
  rw [sum_mul_of_nonneg_of_ne_top _ _ hc hc']
  congr 1
  exact Finset.sum_congr rfl fun o _ => (mul_assoc _ _ _).symm

/-- The same at c = σ(gate), whatever the gate holds. -/
theorem outK_scaled_sg (x : A3 4 8192 2048) (wq : A2 128 2048) (aug : A3 4 25 128) (wm : A2 2048 128) (gt : A1 1) :
    outK x wq aug (scaled wm (sg gt)) = outR x wq aug wm (sg gt) :=
  outK_scaled x wq aug wm (logistic_nonneg _) (logistic_ne_top _)

end Cert.Spec

end
-- ==== Proof.KI.Value.lean ====
import proofs.«111059_j9234179686589_1_alg».proof.Proof.KI.Frame
import proofs.«111059_j9234179686589_1_alg».proof.Proof.PoolValue
import proofs.«111059_j9234179686589_1_alg».proof.Proof.MainValue
import proofs.«111059_j9234179686589_1_alg».proof.Proof.HostValue
import proofs.«111059_j9234179686589_1_alg».proof.Proof.Algebra

/-! The kernel's results as functions of its arguments, over the extended reals: the first region's array is
the attentive pool, the host stretch makes the summary, the augmented bus and the scaled modulation weights
from it, the second region's array is the attention output over those, and the last host stretch appends the
summary to the cache. The scale σ(gate) is moved from the weights onto the contracted sum by the one law of
the certificate, which holds because σ's values are nonnegative reals. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The arguments, as the arrays the specification is written over. -/
abbrev aX (c : Dev nD) : Cert.Spec.A3 4 8192 2048 := m ((c : Thread nD τ).loc main_arg0)
abbrev aCache (c : Dev nD) : Cert.Spec.A3 4 24 128 := m ((c : Thread nD τ).loc main_arg1)
abbrev aWp (c : Dev nD) : Cert.Spec.A2 128 2048 := m ((c : Thread nD τ).loc main_arg2)
abbrev aWq (c : Dev nD) : Cert.Spec.A2 128 2048 := m ((c : Thread nD τ).loc main_arg3)
abbrev aWm (c : Dev nD) : Cert.Spec.A2 2048 128 := m ((c : Thread nD τ).loc main_arg4)
abbrev aWg (c : Dev nD) : Cert.Spec.A2 1 2048 := m ((c : Thread nD τ).loc main_arg5)
abbrev aGate (c : Dev nD) : Cert.Spec.A1 1 := m ((c : Thread nD τ).loc main_arg6)

/-- After the pooling region its output array holds the attentive pool. -/
theorem W1_v0 (c : Dev nD) :
    (W1 m ρ c (Proc.devRef .tc main_v0) : S4x1x2048.Idx → EReal) = Cert.Spec.xpArr (aX m c) (aWg m c) :=
  (W1_arr m ρ c 2).trans (pool_final (Vin0 m ρ) c)

theorem W1_arg1 (c : Dev nD) : W1 m ρ c (Proc.devRef .tc main_arg1) = m ((c : Thread nD τ).loc main_arg1) := W1_of_ne m ρ c main_arg1 (by decide)
theorem W1_arg2 (c : Dev nD) : W1 m ρ c (Proc.devRef .tc main_arg2) = m ((c : Thread nD τ).loc main_arg2) := W1_of_ne m ρ c main_arg2 (by decide)
theorem W1_arg4 (c : Dev nD) : W1 m ρ c (Proc.devRef .tc main_arg4) = m ((c : Thread nD τ).loc main_arg4) := W1_of_ne m ρ c main_arg4 (by decide)
theorem W1_arg6 (c : Dev nD) : W1 m ρ c (Proc.devRef .tc main_arg6) = m ((c : Thread nD τ).loc main_arg6) := W1_of_ne m ρ c main_arg6 (by decide)
theorem W2_arg0 (c : Dev nD) : W2 m ρ c (Proc.devRef .tc main_arg0) = m ((c : Thread nD τ).loc main_arg0) :=
  (StableHlo.after_of_writes_sub hostOps1 _ hostOps1_writes (by decide)).trans
    ((W1_arr m ρ c 0).trans (((dat0 (Vin0 m ρ) c).arrAt_in 0 rfl _).trans (A_eq0 (Vin0 m ρ) c 0)))
theorem W2_arg3 (c : Dev nD) : W2 m ρ c (Proc.devRef .tc main_arg3) = m ((c : Thread nD τ).loc main_arg3) :=
  (StableHlo.after_of_writes_sub hostOps1 _ hostOps1_writes (by decide)).trans (W1_of_ne m ρ c main_arg3 (by decide))

/-- The published, normalised pool as the first host stretch computes it from the pooled array. -/
theorem pub_xpArr (c : Dev nD) :
    Cert.Spec.unitRows (Cert.Spec.pub (fun b d => (W1 m ρ c (Proc.devRef .tc main_v0) : S4x1x2048.Idx → EReal) (ix3 b 0 d)) (W1 m ρ c (Proc.devRef .tc main_arg2)))
      = Cert.Spec.sm (aX m c) (aWg m c) (aWp m c) := by
  rw [W1_v0, W1_arg2]; rfl

/-- The augmented bus the attention region is entered with. -/
theorem W2_v13 (c : Dev nD) :
    (W2 m ρ c (Proc.devRef .tc main_v13) : S4x25x128.Idx → EReal) = Cert.Spec.augOf (Cert.Spec.sm (aX m c) (aWg m c) (aWp m c)) (aCache m c) := by
  rw [show W2 m ρ c = StableHlo.after hostOps1 (W1 m ρ c) from rfl, host1_v13, pub_xpArr, W1_arg1]

/-- The scaled modulation weights the attention region is entered with. -/
theorem W2_v22 (c : Dev nD) :
    (W2 m ρ c (Proc.devRef .tc main_v22) : S2048x128.Idx → EReal) = Cert.Spec.scaled (aWm m c) (Cert.Spec.sg (aGate m c)) := by
  rw [show W2 m ρ c = StableHlo.after hostOps1 (W1 m ρ c) from rfl, host1_v22, W1_arg4, W1_arg6]

/-- The summary as the first host stretch leaves it. -/
theorem W2_v11 (c : Dev nD) :
    (W2 m ρ c (Proc.devRef .tc main_v11) : S4x128.Idx → EReal) = fun j => Cert.Spec.sm (aX m c) (aWg m c) (aWp m c) (j 0) (j 1) := by
  rw [show W2 m ρ c = StableHlo.after hostOps1 (W1 m ρ c) from rfl, host1_v11, pub_xpArr]

/-- THE FIRST RESULT: the attention output, in the reference's arrangement. -/
theorem W4_v23 (c : Dev nD) :
    (W4 m ρ c (Proc.devRef .tc main_v23) : S4x8192x2048.Idx → EReal)
      = Cert.Spec.outR (aX m c) (aWq m c) (Cert.Spec.augOf (Cert.Spec.sm (aX m c) (aWg m c) (aWp m c)) (aCache m c)) (aWm m c) (Cert.Spec.sg (aGate m c)) := by
  rw [← Cert.Spec.outK_scaled_sg, ← W2_v22 m ρ c, ← W2_v13 m ρ c]
  refine (StableHlo.after_of_writes_sub hostOps2 _ hostOps2_writes (by decide)).trans ?_
  refine (W3_arr m ρ c 4).trans ?_
  refine (main_final (Vin1 m ρ) c).trans ?_
  rw [show Vin1 m ρ c main_arg0 = W2 m ρ c (Proc.devRef .tc main_arg0) from rfl, W2_arg0,
    show Vin1 m ρ c main_arg3 = W2 m ρ c (Proc.devRef .tc main_arg3) from rfl, W2_arg3]

/-- THE SECOND RESULT: the cache with the summary appended. -/
theorem W4_v25 (c : Dev nD) :
    (W4 m ρ c (Proc.devRef .tc main_v25) : S4x25x128.Idx → EReal)
      = Cert.Spec.cacheOf (Cert.Spec.sm (aX m c) (aWg m c) (aWp m c)) (aCache m c) := by
  rw [show W4 m ρ c = StableHlo.after hostOps2 (W3 m ρ c) from rfl, host2_v25,
    show W3 m ρ c (Proc.devRef .tc main_v11) = W2 m ρ c (Proc.devRef .tc main_v11) from W3_of_ne m ρ c main_v11 (by decide),
    W2_v11,
    show W3 m ρ c (Proc.devRef .tc main_arg1) = m ((c : Thread nD τ).loc main_arg1) from
      (W3_of_ne m ρ c main_arg1 (by decide)).trans ((StableHlo.after_of_writes_sub hostOps1 _ hostOps1_writes (by decide)).trans (W1_arg1 m ρ c))]
  rfl

/-- THE KERNEL'S RUN with both results named and the arguments unchanged. -/
theorem run_values : θ_run defs (onTc (τ := τ) (main (F := Ideal))) ⟨m, fun _ => 0, ρ⟩ (fun r => ∀ c : Dev nD,
      r.2.mem ((c.tc : Thread nD τ).loc main_v23) = Cert.Spec.outR (aX m c) (aWq m c) (Cert.Spec.augOf (Cert.Spec.sm (aX m c) (aWg m c) (aWp m c)) (aCache m c)) (aWm m c) (Cert.Spec.sg (aGate m c))
      ∧ r.2.mem ((c.tc : Thread nD τ).loc main_v25) = Cert.Spec.cacheOf (Cert.Spec.sm (aX m c) (aWg m c) (aWp m c)) (aCache m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v23 (by decide))).trans (W4_v23 m ρ c),
     (h c _ (mem_uc main_v25 (by decide))).trans (W4_v25 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_main m ρ)

end Cert.KernelIdeal.Hand

end
-- ==== Proof.RefIsSpec.lean ====
import proofs.«111059_j9234179686589_1_alg».proof.Proof.Gen.ReferenceIdeal.Run
import proofs.«111059_j9234179686589_1_alg».proof.Proof.Gen.ReferenceIdeal.Read
import proofs.«111059_j9234179686589_1_alg».proof.Proof.Spec

/-! The reference program's two results, read index by index, are the specification's functions of its arguments:
    the output is the input plus the gathered bus vector modulated and scaled by σ(gate), and the new cache is the old
    cache with the layer's summary appended. Each stage of the reference is identified with its function in turn. -/

noncomputable section

namespace Cert.RefValue

open Cert.ReferenceIdeal Cert.ReferenceIdeal.Gen Cert.ReferenceIdeal.Read Idealize.ShloMosaic Idealize.ShloMosaic.ValueIdx
  Idealize.ShloMosaic.StableHlo

abbrev X0 : Type := (⟨S4x8192x2048, .f32⟩ : BufTy).Contents (Elt Ideal)
abbrev X1 : Type := (⟨S4x24x128, .f32⟩ : BufTy).Contents (Elt Ideal)
abbrev X2 : Type := (⟨S128x2048, .f32⟩ : BufTy).Contents (Elt Ideal)
abbrev X4 : Type := (⟨S2048x128, .f32⟩ : BufTy).Contents (Elt Ideal)
abbrev X5 : Type := (⟨S1x2048, .f32⟩ : BufTy).Contents (Elt Ideal)
abbrev X6 : Type := (⟨S1, .f32⟩ : BufTy).Contents (Elt Ideal)

/-- The float word 0x3F800000 is one. -/
theorem ofBits_one_f32 : Ideal.ofBits .f32 0x3F800000#32 = 1 := by
  simp [Ideal.ofBits, Ideal.ieee]
  rw [← EReal.coe_mul]; norm_num

/-! ## The pooling weight -/

theorem lidx0_eq (i : S4x8192x1.Idx) (k : Fin 2048) : lidx_main_v0 i k = ix3 (i 0) (i 1) k :=
  funext fun a => by match a with | ⟨0, _⟩ => rfl | ⟨1, _⟩ => rfl | ⟨2, _⟩ => rfl

theorem ridx0_eq (i : S4x8192x1.Idx) (k : Fin 2048) : ridx_main_v0 i k = ix2 (0 : Fin 1) k :=
  funext fun a => by
    match a with
    | ⟨0, _⟩ => exact Fin.ext (show (i 2).val = 0 from Nat.lt_one_iff.mp (i 2).isLt)
    | ⟨1, _⟩ => rfl

/-- The pooling weight of a row: σ of the row's inner product with the gate weights. -/
theorem g_eq (x0 : X0) (x5 : X5) (i : S4x8192x1.Idx) :
    val_main_v6 (F := Ideal) x0 x5 i = Cert.Spec.g x0 x5 (i 0) (i 1) := by
  rw [val_main_v6_apply, val_main_v5_apply, val_main_cst_0_apply, val_main_v4_apply, val_main_v3_apply, val_main_cst_apply,
    val_main_v2_apply, val_main_v1_apply, val_main_v0_apply]
  simp only [Ideal.hostDivf_def, Ideal.addf_def, Ideal.hostUnary_exp_def, Ideal.hostNegf_def, Ideal.negf_def, Ideal.ofBits_def,
    ofBits_one_f32, lidx0_eq, ridx0_eq]
  rfl

/-! ## The attentive pool -/

theorem idx9_eq (i : S4x2048.Idx) (k : Fin 8192) : idx_main_v9 i k = ix3 (i 0) k (i 1) :=
  funext fun a => by match a with | ⟨0, _⟩ => rfl | ⟨1, _⟩ => rfl | ⟨2, _⟩ => rfl

/-- An entry of the input times its row's pooling weight. -/
theorem xg_eq (x0 : X0) (x5 : X5) (j : S4x8192x2048.Idx) :
    val_main_v8 (F := Ideal) x0 x5 j = x0 j * Cert.Spec.g x0 x5 (j 0) (j 1) := by
  rw [val_main_v8_apply, val_main_v7_apply, g_eq]
  rfl

/-- The pool: the weighted column sum over the sum of the weights plus ε. -/
theorem xp_eq (x0 : X0) (x5 : X5) (i : S4x2048.Idx) :
    val_main_v14 (F := Ideal) x0 x5 i = Cert.Spec.xp x0 x5 (i 0) (i 1) := by
  rw [val_main_v14_apply, val_main_v9_apply, val_main_cst_1_apply, val_main_v13_apply, val_main_v12_apply, val_main_v10_apply,
    val_main_cst_2_apply, val_main_v11_apply, val_main_cst_3_apply]
  simp only [Ideal.hostDivf_def, Ideal.addf_def, Ideal.ofBits_def, Ideal.ofBits_zero_f32, zero_add, xg_eq, g_eq]
  unfold Cert.Spec.xp Cert.Spec.epsPool
  refine congrArg₂ Ideal.div (Finset.sum_congr rfl fun k _ => ?_) rfl
  rw [idx9_eq]
  rfl

/-! ## The published vector and the summary -/

theorem wp_idx_eq (i : S4x128.Idx) (k : Fin 2048) : idx_main_v15 (ridx_main_v16 i k) = ix2 (i 1) k :=
  funext fun a => by match a with | ⟨0, _⟩ => rfl | ⟨1, _⟩ => rfl

/-- The published vector: the pool against the publish weights. -/
theorem pub_eq (x0 : X0) (x2 : X2) (x5 : X5) (i : S4x128.Idx) :
    val_main_v16 (F := Ideal) x0 x2 x5 i = Cert.Spec.pub (Cert.Spec.xp x0 x5) x2 (i 0) (i 1) := by
  rw [val_main_v16_apply]
  unfold Cert.Spec.pub
  refine Finset.sum_congr rfl fun k _ => ?_
  rw [xp_eq, val_main_v15_apply, wp_idx_eq]
  rfl

/-- The summary: the published vector over the larger of its length and ε. -/
theorem sm_eq (x0 : X0) (x2 : X2) (x5 : X5) (i : S4x128.Idx) :
    val_main_v24 (F := Ideal) x0 x2 x5 i = Cert.Spec.sm x0 x5 x2 (i 0) (i 1) := by
  rw [val_main_v24_apply, val_main_v23_apply, val_main_v22_apply, val_main_v20_apply, val_main_v19_apply, val_main_v18_apply,
    val_main_cst_4_apply, val_main_v21_apply, val_main_cst_5_apply]
  simp only [val_main_v17_apply, pub_eq, Ideal.hostDivf_def, Ideal.maximumf_def, Ideal.hostUnary_sqrt_def, Ideal.mulf_def,
    Ideal.ofBits_def, Ideal.ofBits_zero_f32, zero_add]
  rfl

/-! ## The augmented bus -/

/-- The summary in front of the cache: row 0 is the summary, row l ≥ 1 is the cache's row l - 1. -/
theorem aug_eq (x0 : X0) (x1 : X1) (x2 : X2) (x5 : X5) (j : S4x25x128.Idx) :
    val_main_v27 (F := Ideal) x0 x1 x2 x5 j = Cert.Spec.augOf (Cert.Spec.sm x0 x5 x2) x1 j := by
  unfold val_main_v27 Cert.Spec.augOf
  by_cases h : (j 1).val = 0
  · rw [dif_pos h]
    refine (concatenate_pair_apply_left (t := S4x25x128) (s₁ := S4x1x128) (s₂ := S4x24x128) (1 : Fin 3) _ _
      concatenates_S4x1x128_S4x24x128_S4x25x128_d1 j rfl (ix3 (j 0) (0 : Fin 1) (j 2)) ?_).trans ?_
    · intro b
      match b with
      | ⟨0, _⟩ => rfl
      | ⟨1, _⟩ => exact h.symm
      | ⟨2, _⟩ => rfl
    · rw [val_main_v26_apply, sm_eq]
      rfl
  · rw [dif_neg h]
    have hlt : (j 1).val < 25 := (j 1).isLt
    refine (concatenate_pair_apply_right (t := S4x25x128) (s₁ := S4x1x128) (s₂ := S4x24x128) (1 : Fin 3) _ _
      concatenates_S4x1x128_S4x24x128_S4x25x128_d1 j rfl rfl (ix3 (j 0) (⟨(j 1).val - 1, by omega⟩ : Fin 24) (j 2)) ?_ ?_).trans rfl
    · intro b hb
      match b with
      | ⟨0, _⟩ => rfl
      | ⟨1, _⟩ => exact absurd rfl hb
      | ⟨2, _⟩ => rfl
    · show (j 1).val - 1 + 1 = (j 1).val
      omega

/-! ## The query and the scores -/

theorem lidx25_eq (j : S4x8192x128.Idx) (k : Fin 2048) : lidx_main_v25 j k = ix3 (j 0) (j 1) k :=
  funext fun a => by match a with | ⟨0, _⟩ => rfl | ⟨1, _⟩ => rfl | ⟨2, _⟩ => rfl

theorem ridx25_eq (j : S4x8192x128.Idx) (k : Fin 2048) : ridx_main_v25 j k = ix2 (j 2) k :=
  funext fun a => by match a with | ⟨0, _⟩ => rfl | ⟨1, _⟩ => rfl

/-- The query: a row of the input against the query weights. -/
theorem q_eq (x0 : X0) (x3 : X2) (j : S4x8192x128.Idx) :
    val_main_v25 (F := Ideal) x0 x3 j = Cert.Spec.q x0 x3 (j 0) (j 1) (j 2) := by
  rw [val_main_v25_apply]
  unfold Cert.Spec.q
  refine Finset.sum_congr rfl fun k _ => ?_
  rw [lidx25_eq, ridx25_eq]
  rfl

theorem ridx28_eq (j : S4x8192x25.Idx) (k : Fin 128) : ridx_main_v28 j k = ix3 (j 0) (j 2) k :=
  funext fun a => by match a with | ⟨0, _⟩ => rfl | ⟨1, _⟩ => rfl | ⟨2, _⟩ => rfl

/-- The scaled score of a row against a bus entry. -/
theorem sc_eq (x0 : X0) (x1 : X1) (x2 x3 : X2) (x5 : X5) (j : S4x8192x25.Idx) :
    val_main_v30 (F := Ideal) x0 x1 x2 x3 x5 j
      = Cert.Spec.sc x0 x3 (Cert.Spec.augOf (Cert.Spec.sm x0 x5 x2) x1) (j 0) (j 1) (j 2) := by
  rw [val_main_v30_apply, val_main_v29_apply, val_main_cst_6_apply, val_main_v28_apply]
  unfold Cert.Spec.sc Cert.Spec.scale
  refine congrArg₂ (· * ·) (Finset.sum_congr rfl fun k _ => ?_) rfl
  rw [q_eq, aug_eq, ridx28_eq]
  rfl

/-! ## The softmax -/

theorem reduces_scores : S4x8192x25.Reduces [2] S4x8192 := by decide

/-- The row maximum: the fold of max over the 25 scores from -∞, clamped below by -∞. -/
theorem mx_eq (x0 : X0) (x1 : X1) (x2 x3 : X2) (x5 : X5) (i : S4x8192.Idx) :
    val_main_v33 (F := Ideal) x0 x1 x2 x3 x5 i
      = Cert.Spec.mx x0 x3 (Cert.Spec.augOf (Cert.Spec.sm x0 x5 x2) x1) (i 0) (i 1) := by
  rw [val_main_v33_apply, val_main_v32_apply, val_main_cst_8_apply]
  unfold val_main_v31
  rw [Host.reduce_eq_fold_single FloatOps.maximumf _ _ reducesTo_S4x8192x25_S4x8192_d2 reduces_scores h_S_]
  unfold Cert.Spec.mx Cert.Spec.negInf
  have hf : (val_main_v30 (F := Ideal) x0 x1 x2 x3 x5 ∘ reduces_scores.lift i)
      = fun l : Fin 25 => Cert.Spec.sc x0 x3 (Cert.Spec.augOf (Cert.Spec.sm x0 x5 x2) x1) (i 0) (i 1) l :=
    funext fun k => (sc_eq x0 x1 x2 x3 x5 (reduces_scores.lift i k)).trans rfl
  rw [hf]
  rfl

theorem idx38_eq (i : S4x8192.Idx) (k : Fin 25) : idx_main_v38 i k = ix3 (i 0) (i 1) k :=
  funext fun a => by match a with | ⟨0, _⟩ => rfl | ⟨1, _⟩ => rfl | ⟨2, _⟩ => rfl

/-- The exponential of a score less its row's maximum. -/
theorem ex_eq (x0 : X0) (x1 : X1) (x2 x3 : X2) (x5 : X5) (j : S4x8192x25.Idx) :
    val_main_v37 (F := Ideal) x0 x1 x2 x3 x5 j
      = Cert.Spec.ex x0 x3 (Cert.Spec.augOf (Cert.Spec.sm x0 x5 x2) x1) (j 0) (j 1) (j 2) := by
  rw [val_main_v37_apply, val_main_v36_apply, val_main_v35_apply, val_main_v34_apply, sc_eq, mx_eq]
  rfl

/-- The attention weight: the exponential over the row's sum of exponentials. -/
theorem at_eq (x0 : X0) (x1 : X1) (x2 x3 : X2) (x5 : X5) (j : S4x8192x25.Idx) :
    val_main_v41 (F := Ideal) x0 x1 x2 x3 x5 j
      = Cert.Spec.at_ x0 x3 (Cert.Spec.augOf (Cert.Spec.sm x0 x5 x2) x1) (j 0) (j 1) (j 2) := by
  rw [val_main_v41_apply, val_main_v40_apply, val_main_v39_apply, val_main_v38_apply, val_main_cst_9_apply, ex_eq]
  simp only [ex_eq, Ideal.hostDivf_def, Ideal.ofBits_def, Ideal.ofBits_zero_f32, zero_add]
  rfl

/-! ## The gathered bus vector -/

theorem ridx42_eq (j : S4x8192x128.Idx) (k : Fin 25) : ridx_main_v42 j k = ix3 (j 0) k (j 2) :=
  funext fun a => by match a with | ⟨0, _⟩ => rfl | ⟨1, _⟩ => rfl | ⟨2, _⟩ => rfl

/-- The gathered vector: the attention weights against the bus. -/
theorem ga_eq (x0 : X0) (x1 : X1) (x2 x3 : X2) (x5 : X5) (j : S4x8192x128.Idx) :
    val_main_v42 (F := Ideal) x0 x1 x2 x3 x5 j
      = Cert.Spec.ga x0 x3 (Cert.Spec.augOf (Cert.Spec.sm x0 x5 x2) x1) (j 0) (j 1) (j 2) := by
  rw [val_main_v42_apply]
  unfold Cert.Spec.ga
  refine Finset.sum_congr rfl fun k _ => ?_
  rw [at_eq, aug_eq, ridx42_eq]
  rfl

/-! ## The gate, the modulation and the two results -/

/-- σ of the gate. -/
theorem sg_eq (x6 : X6) (i : S1.Idx) : val_main_v49 (F := Ideal) x6 i = Cert.Spec.sg x6 := by
  have hi : i = ix1 (0 : Fin 1) :=
    funext fun a => by
      match a with
      | ⟨0, _⟩ => exact Fin.ext (show (i 0).val = 0 from Nat.lt_one_iff.mp (i 0).isLt)
  rw [val_main_v49_apply, val_main_v48_apply, val_main_cst_11_apply, val_main_v47_apply, val_main_v46_apply,
    val_main_cst_10_apply, val_main_v45_apply, val_main_v44_apply, hi]
  simp only [Ideal.hostDivf_def, Ideal.addf_def, Ideal.hostUnary_exp_def, Ideal.hostNegf_def, Ideal.negf_def, Ideal.ofBits_def,
    ofBits_one_f32]
  rfl

theorem ridx43_eq (i : S4x8192x2048.Idx) (k : Fin 128) : ridx_main_v43 i k = ix2 (i 2) k :=
  funext fun a => by match a with | ⟨0, _⟩ => rfl | ⟨1, _⟩ => rfl

/-- The output: the input plus the modulation of the gathered vector, scaled by σ(gate) last. -/
theorem out_eq (x0 : X0) (x1 : X1) (x2 x3 : X2) (x4 : X4) (x5 : X5) (x6 : X6) :
    (val_main_v53 (F := Ideal) x0 x1 x2 x3 x4 x5 x6 : S4x8192x2048.Idx → EReal)
      = Cert.Spec.outR x0 x3 (Cert.Spec.augOf (Cert.Spec.sm x0 x5 x2) x1) x4 (Cert.Spec.sg x6) := by
  funext i
  rw [val_main_v53_apply, val_main_v52_apply, val_main_v51_apply, val_main_v50_apply, sg_eq, val_main_v43_apply]
  unfold Cert.Spec.outR
  refine congrArg₂ (· + ·) rfl (congrArg₂ (· * ·) (Finset.sum_congr rfl fun k _ => ?_) rfl)
  rw [ga_eq, ridx43_eq]
  rfl

/-- The new cache: the old cache's rows, then the summary. -/
theorem cache_eq (x0 : X0) (x1 : X1) (x2 : X2) (x5 : X5) :
    (val_main_v55 (F := Ideal) x0 x1 x2 x5 : S4x25x128.Idx → EReal) = Cert.Spec.cacheOf (Cert.Spec.sm x0 x5 x2) x1 := by
  funext j
  unfold val_main_v55 Cert.Spec.cacheOf
  by_cases h : (j 1).val < 24
  · rw [dif_pos h]
    refine (concatenate_pair_apply_left (t := S4x25x128) (s₁ := S4x24x128) (s₂ := S4x1x128) (1 : Fin 3) _ _
      concatenates_S4x24x128_S4x1x128_S4x25x128_d1 j rfl (ix3 (j 0) (⟨(j 1).val, h⟩ : Fin 24) (j 2)) ?_).trans rfl
    intro b
    match b with
    | ⟨0, _⟩ => rfl
    | ⟨1, _⟩ => rfl
    | ⟨2, _⟩ => rfl
  · rw [dif_neg h]
    have hlt : (j 1).val < 25 := (j 1).isLt
    refine (concatenate_pair_apply_right (t := S4x25x128) (s₁ := S4x24x128) (s₂ := S4x1x128) (1 : Fin 3) _ _
      concatenates_S4x24x128_S4x1x128_S4x25x128_d1 j rfl rfl (ix3 (j 0) (0 : Fin 1) (j 2)) ?_ ?_).trans ?_
    · intro b hb
      match b with
      | ⟨0, _⟩ => rfl
      | ⟨1, _⟩ => exact absurd rfl hb
      | ⟨2, _⟩ => rfl
    · show 0 + 24 = (j 1).val
      omega
    · rw [val_main_v54_apply, sm_eq]
      rfl

/-! ## The reference's results -/

open Idealize.SL.Sem Idealize.ShloMosaic.TcCoe in
/-- The reference's first result is the specification's output. -/
theorem ref_out (m' : (ℓ : Loc nD τ sig) → Buf (Elt Ideal) ℓ) (c : Dev nD) :
    (Cert.ReferenceIdeal.Value.res_main_v53 m' c : S4x8192x2048.Idx → EReal)
      = Cert.Spec.outR (m' ((c.tc : Thread nD τ).loc main_arg0)) (m' ((c.tc : Thread nD τ).loc main_arg3))
          (Cert.Spec.augOf
            (Cert.Spec.sm (m' ((c.tc : Thread nD τ).loc main_arg0)) (m' ((c.tc : Thread nD τ).loc main_arg5))
              (m' ((c.tc : Thread nD τ).loc main_arg2)))
            (m' ((c.tc : Thread nD τ).loc main_arg1)))
          (m' ((c.tc : Thread nD τ).loc main_arg4)) (Cert.Spec.sg (m' ((c.tc : Thread nD τ).loc main_arg6))) :=
  (val_main_v53_eq m' c).trans (out_eq _ _ _ _ _ _ _)

open Idealize.SL.Sem Idealize.ShloMosaic.TcCoe in
/-- The reference's second result is the specification's new cache. -/
theorem ref_cache (m' : (ℓ : Loc nD τ sig) → Buf (Elt Ideal) ℓ) (c : Dev nD) :
    (Cert.ReferenceIdeal.Value.res_main_v55 m' c : S4x25x128.Idx → EReal)
      = Cert.Spec.cacheOf
          (Cert.Spec.sm (m' ((c.tc : Thread nD τ).loc main_arg0)) (m' ((c.tc : Thread nD τ).loc main_arg5))
            (m' ((c.tc : Thread nD τ).loc main_arg2)))
          (m' ((c.tc : Thread nD τ).loc main_arg1)) :=
  (val_main_v55_eq m' c).trans (cache_eq _ _ _ _)

end Cert.RefValue

end
-- ==== Proof.lean ====
import proofs.«111059_j9234179686589_1_alg».proof.Defs
import proofs.«111059_j9234179686589_1_alg».proof.Proof.Gen.Kernel
import proofs.«111059_j9234179686589_1_alg».proof.Proof.Gen.KernelIdeal
import proofs.«111059_j9234179686589_1_alg».proof.Proof.Gen.ReferenceIdeal
import proofs.«111059_j9234179686589_1_alg».proof.Proof.Gen.Pre_finite_inputs
import proofs.«111059_j9234179686589_1_alg».proof.Proof.Gen.ReferenceIdeal.Run
import proofs.«111059_j9234179686589_1_alg».proof.Proof.K.Frame
import proofs.«111059_j9234179686589_1_alg».proof.Proof.KI.Value
import proofs.«111059_j9234179686589_1_alg».proof.Proof.RefIsSpec
import Idealize.ShloMosaic.Adequacy
import Idealize.ShloMosaic.Init

/-! The kernel pools x over its rows with sigmoid weights in one region (row tiles of 1024 accumulated in
two scratch buffers, finalised on the last tile of each batch), publishes and normalises the pool on the
host, and in a second region attends over the summary and the cached bus vectors, modulates and adds the
residual; the reference does the same with whole-array operations. Both programs compute, index by index,
the functions of the module Spec: every sum is the same finite sum regrouped, the sigmoid is one function in
its three spellings, and the only law beyond regrouping moves the scale σ(gate) from the modulation weights
onto the contracted sum, which is sound on the extended reals because σ's values are nonnegative reals.
The three frames: each kernel program's run through its two regions and two host stretches, read back at the
arguments; the reference's run with its results dropped. No operation was rewritten by the idealization. -/

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m ρ _ => (θ_run Cert.ReferenceIdeal.defs _ _).mono (fun _ h c => (h c).2.2) (Cert.ReferenceIdeal.Value.run (F := Ideal) m ρ),
    trivial,
    fun m ρ m' ρ' _ hagree =>
      ⟨fun c => Cert.Spec.outR (Cert.KernelIdeal.Hand.aX m c) (Cert.KernelIdeal.Hand.aWq m c)
          (Cert.Spec.augOf (Cert.Spec.sm (Cert.KernelIdeal.Hand.aX m c) (Cert.KernelIdeal.Hand.aWg m c) (Cert.KernelIdeal.Hand.aWp m c)) (Cert.KernelIdeal.Hand.aCache m c))
          (Cert.KernelIdeal.Hand.aWm m c) (Cert.Spec.sg (Cert.KernelIdeal.Hand.aGate m c)),
        fun c => Cert.Spec.cacheOf (Cert.Spec.sm (Cert.KernelIdeal.Hand.aX m c) (Cert.KernelIdeal.Hand.aWg m c) (Cert.KernelIdeal.Hand.aWp m c)) (Cert.KernelIdeal.Hand.aCache m c),
        Cert.KernelIdeal.Hand.run_values m ρ,
        (θ_run Cert.ReferenceIdeal.defs _ _).mono (fun _ h c =>
          ⟨by rw [(h c).1, Cert.RefValue.ref_out, (hagree c).1, (hagree c).2.1, (hagree c).2.2.1, (hagree c).2.2.2.1, (hagree c).2.2.2.2.1, (hagree c).2.2.2.2.2.1, (hagree c).2.2.2.2.2.2],
           by rw [(h c).2.1, Cert.RefValue.ref_cache, (hagree c).1, (hagree c).2.1, (hagree c).2.2.1, (hagree c).2.2.2.2.2.1],
           (h c).2.2⟩) (Cert.ReferenceIdeal.Value.run (F := Ideal) m' ρ')⟩⟩

end Cert.Proof

end
